-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4096x1024 .f32) (main_arg1 : FVec F S1024x1024 .f32) (main_arg2 : FVec F S1024x1024 .f32) (main_arg3 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4096x1024 : Shape := ⟨2, ![4096, 1024]⟩
abbrev S1024x1024 : Shape := ⟨2, ![1024, 1024]⟩
abbrev S_ : Shape := ⟨0, ![]⟩
abbrev S4096x2048 : Shape := ⟨2, ![4096, 2048]⟩
abbrev S512x1024 : Shape := ⟨2, ![512, 1024]⟩
abbrev S512x2048 : Shape := ⟨2, ![512, 2048]⟩
abbrev S512x1 : Shape := ⟨2, ![512, 1]⟩
abbrev S512x512 : Shape := ⟨2, ![512, 512]⟩
abbrev S512 : Shape := ⟨1, ![512]⟩

abbrev nBuf : Space → Nat
  | .hbm => 13
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S4096x2048, .f32⟩
  | .hbm, ⟨11, _⟩ => ⟨S4096x1024, .bf16⟩
  | .hbm, ⟨12, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S512x2048, .f32⟩
  | .local _ .vmem, ⟨6, _⟩ => ⟨S512x2048, .f32⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | .local _ .vmem, ⟨17, _⟩ => ⟨S512x1, .f32⟩
  | .local _ .vmem, ⟨18, _⟩ => ⟨S512x1, .f32⟩
  | .local _ .vmem, ⟨19, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v40 : BitVec 1 := Scalar.cmpi .eq arg1 c7_i32
  let v41 : BitVec 32 := Scalar.extui v40
  let c0_i32_23 : BitVec 32 := 0#32
  let v42 : BitVec 1 := Scalar.cmpi .ne v41 c0_i32_23
  v42

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bcast_S_S1024x1024 : S_.BroadcastsInDim S1024x1024 (![] : Fin 0 → Fin S1024x1024.rank)
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x2048_S512x1024_0_0 : ∀ a, (![0, 0] : Fin 2 → Nat) a + S512x1024.size a ≤ S512x2048.size a
  inb_S512x2048_S512x1024_0_1024 : ∀ a, (![0, 1024] : Fin 2 → Nat) a + S512x1024.size a ≤ S512x2048.size a
  packedbf16_S512x1024_S512x1024_0_0 : (Rect.unit (s := S512x1024) ![0, 0] S512x1024.size inb_S512x1024_S512x1024_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  shapeCasts_S512x1024_S512x1024 : S512x1024.ShapeCasts S512x1024
  reduces_S512x512_S512 : S512x512.Reduces [1] S512
  shapeCasts_S512_S512x1 : S512.ShapeCasts S512x1
  broadcasts_S512x1_S512x512 : S512x1.Broadcasts S512x512
  broadcasts_S512x1_S512x1024 : S512x1.Broadcasts S512x1024
  dot_S512x1024_S1024x1024_S512x1024_1_0_0_1_n_n_wf : DotDims.WF S512x1024 S1024x1024 S512x1024 [1] [0] [0] [1] [] []
  dot_S512x1024_S512x1024_S512x512_1_1_0_0_n_n_wf : DotDims.WF S512x1024 S512x1024 S512x512 [1] [1] [0] [0] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S4096x2048.size a
  hwx0_4 : ∀ i : grid0.Coords, EltTy.bits .f32 = 32 ∨ (Rect.block (s := S4096x2048) S512x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S4096x1024.size a
  hwx0_5 : ∀ i : grid0.Coords, EltTy.bits .bf16 = 32 ∨ (Rect.block (s := S4096x1024) S512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x2048.size a
  hwx1_0 : ∀ i : grid1.Coords, EltTy.bits .f32 = 32 ∨ (Rect.block (s := S4096x2048) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x2048.size a
  hwx1_1 : ∀ i : grid1.Coords, EltTy.bits .f32 = 32 ∨ (Rect.block (s := S4096x2048) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S4096x1024.size a
  hwx1_2 : ∀ i : grid1.Coords, EltTy.bits .bf16 = 32 ∨ (Rect.block (s := S4096x1024) S512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S4096x1024.size a
  hwx1_3 : ∀ i : grid1.Coords, EltTy.bits .f32 = 32 ∨ (Rect.block (s := S4096x1024) S512x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S512x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v5_0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_0) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5_1) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4096x1024 : Shape := ⟨2, ![4096, 1024]⟩
abbrev S1024x1024 : Shape := ⟨2, ![1024, 1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S4096x1, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S4096x4096, .f32⟩
  | .hbm, ⟨25, _⟩ => ⟨S4096x4096, .f32⟩
  | .hbm, ⟨26, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.K.Region0.lean ====
/-
  The projection launch (the first pallas_call: one grid axis of 8 row tiles), as proof data for the pipeline rule.
  At a row tile the body reads the tile of x (512 × 1024) and the three resident weight matrices, and stores
  x·Wq into columns 0…1023 and x·Wk into columns 1024…2047 of the [Q|K] block, and x·Wv into the V block.
  Here: each window's block at a point; the body's triple, with the pieces its stores leave found by running it;
  the proof data (inputs stay, outputs hold the canon of those pieces); the body obligation at every point.
  Everything is stated at any float instance and at a parameter V, the buffer contents when the launch is entered.
-/
import proofs.«423655_j6811818131541_3_alg».proof.Proof.Gen.Kernel.Launch
import proofs.«423655_j6811818131541_3_alg».proof.Proof.Gen.Kernel.Skeleton
import proofs.«423655_j6811818131541_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window w's block at point t, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, refetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's triple -/

set_option maxHeartbeats 4000000 in
/-- The pieces the body's stores leave in the [Q|K] block (first component) and in the V block (second), with the
    proof that on whole staging memrefs, the inputs' at contents x0 … x3 and the outputs' at anything, the body runs
    to the continuation holding the inputs' as they were and each output's with its pieces written. -/
noncomputable def kernelRun0 (c : Dev nD) (i : grid0.Coords)
    (arg1 : Memref sig .tc .vmem S512x1024 .f32) (harg1 : arg1.IsWhole) (arg2 : Memref sig .tc .vmem S1024x1024 .bf16) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S512x2048 .f32) (harg5 : arg5.IsWhole) (arg6 : Memref sig .tc .vmem S512x1024 .bf16) (harg6 : arg6.IsWhole)
    (x0 : Vec F S512x1024 .f32) (x1 x2 x3 : Vec F S1024x1024 .bf16) :
    Σ' (L4 : List (View.Piece (Elt F) S512x2048 .f32)), { L5 : List (View.Piece (Elt F) S512x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc0__qkv_kernel i arg1 harg1 arg2 harg2 arg3 harg3 arg4 harg4 arg5 harg5 arg6 harg6) K } := by
  refine ⟨?_, ?_, fun E K => ?run⟩
  case run =>
    simp only [cc0__qkv_kernel_eq_skeleton]; unfold cc0__qkv_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    iexists _; iexact H5

section Region0Data

variable (V : (c : Dev nD) → (b : Ref sig .tc) → Buf (Elt F) ((c : Thread nD τ).loc b))

/-- The body's run at point t, on the point's staging memrefs and input blocks. -/
abbrev run0 (c : Dev nD) (t : Fin cfg0.N) :=
  kernelRun0 (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (iblk0 V c 0 t) (iblk0 V c 1 t) (iblk0 V c 2 t) (iblk0 V c 3 t)

/-- What the body leaves in the [Q|K] block at point t: its two stores read back. -/
def out0_4 (c : Dev nD) (t : Fin cfg0.N) : Vec F S512x2048 .f32 := View.canon (run0 V c t).1
/-- What it leaves in the V block: its one store. -/
def out0_5 (c : Dev nD) (t : Fin cfg0.N) : Vec F S512x1024 .bf16 := View.canon (run0 V c t).2.1

/-- The two stores into the [Q|K] block are its left and right halves: they cover it. -/
theorem cover0_4 (c : Dev nD) (t : Fin cfg0.N) (y : S512x2048.Idx) : ∃ pc ∈ (run0 V c t).1, y ∈ pc.1.set :=
  View.cover_of_tiledL (run0 V c t).1 S512x1024.size (by sl_kernel_rfl) y
/-- The store into the V block is the whole block. -/
theorem cover0_5 (c : Dev nD) (t : Fin cfg0.N) (y : S512x1024.Idx) : ∃ pc ∈ (run0 V c t).2.1, y ∈ pc.1.set :=
  View.cover_of_tiledL (run0 V c t).2.1 S512x1024.size (by sl_kernel_rfl) y

/-- The proof data of the projection launch on core c: the arrays as the launch finds them; after the body each
    input's buffer still at its block, each output's at what the stores left; nothing carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 V c t
    | ⟨5, _⟩ => out0_5 V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 V c t := by dsimp only [dat0]
theorem after0_5 (c : Dev nD) (t : Fin cfg0.N) : (dat0 V c).after 5 t = out0_5 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 2000000 in
/-- The body at any point: the inputs' memrefs hold their blocks, the run applies, and each output's buffer holds its
    pieces read back (they cover it). The invariant and what the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  unfold out0_4 out0_5
  iintro ⟨HΦ, Ho, ⟨%d0, H0⟩, ⟨%d1, H1⟩, ⟨%d2, H2⟩, ⟨%d3, H3⟩, ⟨%d4, H4⟩, ⟨%d5, H5⟩⟩
  iapply ((run0 V c t).2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, ⟨%e4, H4⟩, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_eq_canon _ _ _ (cover0_4 V c t)
  unfold owns; iexists _; isplitr
  swap; · iexact H5
  ipureintro; exact View.read_writes_eq_canon _ _ _ (cover0_5 V c t)

/-- The body obligation of the pipeline rule, at every point. -/
theorem body_obligation0 (c : Dev nD) : BodyObligation (dat0 (F := F) V c) (defs₀ (F := F)) Variants.none () Set.univ := fun t => by
  rw [bigSep_W0, bigSep_W0]
  exact sound_body0 V c t

end Region0Data

end Cert.Kernel.Hand

end
-- ==== Proof.K.Runs1.lean ====
/-
  The attention launch (the second pallas_call: a grid of 8 query tiles × 8 key tiles), its body run case by case.
  At a grid point the body holds a query tile, a key tile and a value tile, and three carried buffers: the running row
  maximum, the running denominator and the running numerator of the softmax rows. At the first key tile it resets the
  three; at every key tile it rescales and adds the tile's contribution; at the last key tile it stores
  numerator / denominator into the output tile. The two conditions are scalar tests of the key-tile coordinate.
  Here: the conditions, and for each of the three cases the grid meets (first, middle, last key tile) the body's triple
  with the pieces its stores leave in each buffer found by running it.
-/
import proofs.«423655_j6811818131541_3_alg».proof.Proof.Gen.Kernel.Launch
import proofs.«423655_j6811818131541_3_alg».proof.Proof.Gen.Kernel.Skeleton
import proofs.«423655_j6811818131541_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions -/

/-- The first test: the key-tile coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The second test: the key-tile coordinate is 7, the last. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## The body, case by case -/

set_option maxHeartbeats 4000000 in
/-- FIRST key tile: the carried buffers are reset, then updated; the output tile is not touched. The pieces left in
    the maximum, the denominator and the numerator buffers, with the body's triple. -/
noncomputable def kernelRun1_A (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 x1 : Vec F S512x1024 .f32) (x2 : Vec F S512x1024 .bf16) :
    Σ' (LS0 : List (View.Piece (Elt F) S512x1 .f32)) (LS1 : List (View.Piece (Elt F) S512x1 .f32)), { LS2 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨?_, ?_, ?_, fun xi3 E K => ?run⟩
  case run =>
    haveI : Fact (cond1_0 i) := ⟨hc0⟩
    haveI : Fact (¬cond1_1 i) := ⟨hc1⟩
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

set_option maxHeartbeats 4000000 in
/-- A MIDDLE key tile: the carried buffers, found at xs0, xs1, xs2, are updated; the output tile is not touched. -/
noncomputable def kernelRun1_B (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 x1 : Vec F S512x1024 .f32) (x2 : Vec F S512x1024 .bf16) (xs0 xs1 : Vec F S512x1 .f32) (xs2 : Vec F S512x1024 .f32) :
    Σ' (LS0 : List (View.Piece (Elt F) S512x1 .f32)) (LS1 : List (View.Piece (Elt F) S512x1 .f32)), { LS2 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨?_, ?_, ?_, fun xi3 E K => ?run⟩
  case run =>
    haveI : Fact (¬cond1_0 i) := ⟨hc0⟩
    haveI : Fact (¬cond1_1 i) := ⟨hc1⟩
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

set_option maxHeartbeats 4000000 in
/-- The LAST key tile: the carried buffers are updated and numerator / denominator is stored into the output tile. -/
noncomputable def kernelRun1_C (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 x1 : Vec F S512x1024 .f32) (x2 : Vec F S512x1024 .bf16) (xs0 xs1 : Vec F S512x1 .f32) (xs2 : Vec F S512x1024 .f32) :
    Σ' (L3 : List (View.Piece (Elt F) S512x1024 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨?_, ?_, ?_, ?_, fun E K => ?run⟩
  case run =>
    haveI : Fact (¬cond1_0 i) := ⟨hc0⟩
    haveI : Fact (cond1_1 i) := ⟨hc1⟩
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.Hand

end
-- ==== Proof.K.Region1.lean ====
/-
  The attention launch as proof data for the pipeline rule.
  The three carried buffers (running maximum, denominator, numerator) live in the rule's invariant: before the first
  point at anything, after point n at what the body's case at n left in them (`scAt1`, by recursion on the point:
  the first key tile of a query tile resets and does not look at what the point before left; the others update it).
  The output tile is stored at the last key tile of each query tile only, and written back there; at the other
  points the window is idle and its buffer is handed back as found.
  The query and key windows read one array ([Q|K]) at two column blocks: the array is held half and half.
-/
import proofs.«423655_j6811818131541_3_alg».proof.Proof.K.Runs1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window w's block at point t, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, refetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Before the last key tile the output window is idle, and not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last key tile it is live. -/
theorem liveAt1_3 : ∀ t : Fin cfg1.N, cond1_1 (grid1.coords t) → cfg1.idle 3 (grid1.coords t) = false := by decide +kernel

/-! ## The memrefs the body is called with -/

abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1024 .f32 := win1_3.stage (cfg1.slots t 3)
abbrev hs1_3 (t : Fin cfg1.N) : (ms1_3 t).IsWhole := hstage1_3 ((cfg1.slots t 3).cast nbuf1_3)
/-- The carried buffers: running maximum, denominator, numerator. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2

/-- The rule's invariant with the three carried buffers held as P0, P1, P2: the other launch's staging buffers at
    anything, the three, and the generator register at some state. -/
abbrev PhiWith (c : Dev nD) (P0 P1 P2 : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ P0 ∗ P1 ∗ P2) ∗ (∃ r, prngReg c r))

/-- What the launch hands the body before the first point: the three carried buffers at anything. -/
theorem PhiA1_eq (c : Dev nD) :
    (Pipeline.ΦA spec1 c : sProp 𝕄)
      = PhiWith c (iprop(∃ d, owns (c : Thread nD τ) scM1_0 fullShare d)) (iprop(∃ d, owns (c : Thread nD τ) scM1_1 fullShare d)) (iprop(∃ d, owns (c : Thread nD τ) scM1_2 fullShare d)) := by
  unfold Pipeline.ΦA; rw [scopedRest1_eq]; simp only [scM1_0, scM1_1, scM1_2, owns_whole]; try rfl

/-! ## What the carried buffers hold after each point -/

/-- The three carried buffers after a run in case A (first key tile) at point t. -/
def scA (c : Dev nD) (t : Fin cfg1.N) (hc0 : cond1_0 (grid1.coords t)) (hc1 : ¬cond1_1 (grid1.coords t)) :
    Vec F S512x1 .f32 × Vec F S512x1 .f32 × Vec F S512x1024 .f32 :=
  let R := kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t)
  (View.canon R.1, View.canon R.2.1, View.canon R.2.2.1)

/-- … in case B (a middle key tile), over what the point before left (p). -/
def scB (c : Dev nD) (t : Fin cfg1.N) (hc0 : ¬cond1_0 (grid1.coords t)) (hc1 : ¬cond1_1 (grid1.coords t))
    (p : Vec F S512x1 .f32 × Vec F S512x1 .f32 × Vec F S512x1024 .f32) :
    Vec F S512x1 .f32 × Vec F S512x1 .f32 × Vec F S512x1024 .f32 :=
  let R := kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) p.1 p.2.1 p.2.2
  (View.canon R.1, View.canon R.2.1, View.canon R.2.2.1)

/-- … in case C (the last key tile). -/
def scC (c : Dev nD) (t : Fin cfg1.N) (hc0 : ¬cond1_0 (grid1.coords t)) (hc1 : cond1_1 (grid1.coords t))
    (p : Vec F S512x1 .f32 × Vec F S512x1 .f32 × Vec F S512x1024 .f32) :
    Vec F S512x1 .f32 × Vec F S512x1 .f32 × Vec F S512x1024 .f32 :=
  let R := kernelRun1_C (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) p.1 p.2.1 p.2.2
  (View.canon R.2.1, View.canon R.2.2.1, View.canon R.2.2.2.1)

/-- The output tile the last key tile stores. -/
def outC (c : Dev nD) (t : Fin cfg1.N) (hc0 : ¬cond1_0 (grid1.coords t)) (hc1 : cond1_1 (grid1.coords t))
    (p : Vec F S512x1 .f32 × Vec F S512x1 .f32 × Vec F S512x1024 .f32) : Vec F S512x1024 .f32 :=
  View.canon (kernelRun1_C (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) p.1 p.2.1 p.2.2).1

/-- THE RECURRENCE: the carried buffers after the body at point n. -/
def scAt1 (c : Dev nD) : (n : ℕ) → n < cfg1.N → Vec F S512x1 .f32 × Vec F S512x1 .f32 × Vec F S512x1024 .f32
  | 0, hn => scA V c ⟨0, hn⟩ ((hcond1_0 ⟨0, hn⟩).mpr (Nat.zero_mod _)) (fun h => by have := (hcond1_1 ⟨0, hn⟩).mp h; simp at this)
  | n + 1, hn =>
    if h0 : (n + 1) % 8 = 0 then
      if h1 : (n + 1) % 8 = 7 then False.elim (by omega)
      else scA V c ⟨n + 1, hn⟩ ((hcond1_0 ⟨n + 1, hn⟩).mpr h0) (fun h => h1 ((hcond1_1 ⟨n + 1, hn⟩).mp h))
    else
      if h1 : (n + 1) % 8 = 7 then
        scC V c ⟨n + 1, hn⟩ (fun h => h0 ((hcond1_0 ⟨n + 1, hn⟩).mp h)) ((hcond1_1 ⟨n + 1, hn⟩).mpr h1) (scAt1 c n (Nat.lt_of_succ_lt hn))
      else
        scB V c ⟨n + 1, hn⟩ (fun h => h0 ((hcond1_0 ⟨n + 1, hn⟩).mp h)) (fun h => h1 ((hcond1_1 ⟨n + 1, hn⟩).mp h)) (scAt1 c n (Nat.lt_of_succ_lt hn))

theorem scAt1_A (c : Dev nD) (t : Fin cfg1.N) (h0 : t.val % 8 = 0) (h1 : ¬t.val % 8 = 7) :
    scAt1 V c t.val t.isLt = scA V c t ((hcond1_0 t).mpr h0) (fun h => h1 ((hcond1_1 t).mp h)) := by
  obtain ⟨n, hn⟩ := t
  cases n with
  | zero => rfl
  | succ n => exact (dif_pos h0).trans ((dif_neg h1).trans rfl)

theorem scAt1_B (c : Dev nD) (t : Fin cfg1.N) (h0 : ¬t.val % 8 = 0) (h1 : ¬t.val % 8 = 7) :
    scAt1 V c t.val t.isLt = scB V c t (fun h => h0 ((hcond1_0 t).mp h)) (fun h => h1 ((hcond1_1 t).mp h))
      (scAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem scAt1_C (c : Dev nD) (t : Fin cfg1.N) (h0 : ¬t.val % 8 = 0) (h1 : t.val % 8 = 7) :
    scAt1 V c t.val t.isLt = scC V c t (fun h => h0 ((hcond1_0 t).mp h)) ((hcond1_1 t).mpr h1)
      (scAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What the output window's buffer holds after the body at t: at a last key tile the stored tile; elsewhere the
    window is idle and this value is never consulted (the numerator buffer's contents stand in). -/
def out1_3 (c : Dev nD) (t : Fin cfg1.N) : Vec F S512x1024 .f32 :=
  if h1 : t.val % 8 = 7 then
    outC V c t (fun h => by have := (hcond1_0 t).mp h; omega) ((hcond1_1 t).mpr h1) (scAt1 V c (t.val - 1) (Nat.lt_of_le_of_lt (Nat.sub_le _ _) t.isLt))
  else (scAt1 V c t.val t.isLt).2.2

/-- The invariant before position n. -/
def PhiS1 (c : Dev nD) : (n : ℕ) → n ≤ cfg1.N → sProp 𝕄
  | 0, _ => Pipeline.ΦA spec1 c
  | n + 1, hn => PhiWith c (owns (c : Thread nD τ) scM1_0 fullShare (scAt1 V c n hn).1) (owns (c : Thread nD τ) scM1_1 fullShare (scAt1 V c n hn).2.1)
      (owns (c : Thread nD τ) scM1_2 fullShare (scAt1 V c n hn).2.2)

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = PhiWith c (owns (c : Thread nD τ) scM1_0 fullShare (scAt1 V c n hn).1) (owns (c : Thread nD τ) scM1_1 fullShare (scAt1 V c n hn).2.1)
      (owns (c : Thread nD τ) scM1_2 fullShare (scAt1 V c n hn).2.2) := rfl
theorem PhiS1_pos (c : Dev nD) (n : ℕ) (h : n ≤ cfg1.N) (hz : n ≠ 0) :
    PhiS1 V c n h = PhiWith c (owns (c : Thread nD τ) scM1_0 fullShare (scAt1 V c (n - 1) (by omega)).1) (owns (c : Thread nD τ) scM1_1 fullShare (scAt1 V c (n - 1) (by omega)).2.1)
      (owns (c : Thread nD τ) scM1_2 fullShare (scAt1 V c (n - 1) (by omega)).2.2) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 V c t
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Region1

/-! ## The pieces cover their buffers -/

section Covers
theorem coverA_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i) (x0 x1 : Vec F S512x1024 .f32) (x2 : Vec F S512x1024 .bf16) (y : S512x1.Idx) :
    ∃ pc ∈ (kernelRun1_A (F := F) c i arg2 harg2 arg3 harg3 arg4 harg4 arg5 harg5 arg6 harg6 arg7 harg7 arg8 harg8 hc0 hc1 x0 x1 x2).1, y ∈ pc.1.set :=
  View.cover_of_tiledL (kernelRun1_A (F := F) c i arg2 harg2 arg3 harg3 arg4 harg4 arg5 harg5 arg6 harg6 arg7 harg7 arg8 harg8 hc0 hc1 x0 x1 x2).1 S512x1.size (by sl_kernel_rfl) y
theorem coverA_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i) (x0 x1 : Vec F S512x1024 .f32) (x2 : Vec F S512x1024 .bf16) (y : S512x1.Idx) :
    ∃ pc ∈ (kernelRun1_A (F := F) c i arg2 harg2 arg3 harg3 arg4 harg4 arg5 harg5 arg6 harg6 arg7 harg7 arg8 harg8 hc0 hc1 x0 x1 x2).2.1, y ∈ pc.1.set :=
  View.cover_of_tiledL (kernelRun1_A (F := F) c i arg2 harg2 arg3 harg3 arg4 harg4 arg5 harg5 arg6 harg6 arg7 harg7 arg8 harg8 hc0 hc1 x0 x1 x2).2.1 S512x1.size (by sl_kernel_rfl) y
theorem coverA_2 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i) (x0 x1 : Vec F S512x1024 .f32) (x2 : Vec F S512x1024 .bf16) (y : S512x1024.Idx) :
    ∃ pc ∈ (kernelRun1_A (F := F) c i arg2 harg2 arg3 harg3 arg4 harg4 arg5 harg5 arg6 harg6 arg7 harg7 arg8 harg8 hc0 hc1 x0 x1 x2).2.2.1, y ∈ pc.1.set :=
  View.cover_of_tiledL (kernelRun1_A (F := F) c i arg2 harg2 arg3 harg3 arg4 harg4 arg5 harg5 arg6 harg6 arg7 harg7 arg8 harg8 hc0 hc1 x0 x1 x2).2.2.1 S512x1024.size (by sl_kernel_rfl) y
theorem coverB_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i) (x0 x1 : Vec F S512x1024 .f32) (x2 : Vec F S512x1024 .bf16) (xs0 xs1 : Vec F S512x1 .f32) (xs2 : Vec F S512x1024 .f32) (y : S512x1.Idx) :
    ∃ pc ∈ (kernelRun1_B (F := F) c i arg2 harg2 arg3 harg3 arg4 harg4 arg5 harg5 arg6 harg6 arg7 harg7 arg8 harg8 hc0 hc1 x0 x1 x2 xs0 xs1 xs2).1, y ∈ pc.1.set :=
  View.cover_of_tiledL (kernelRun1_B (F := F) c i arg2 harg2 arg3 harg3 arg4 harg4 arg5 harg5 arg6 harg6 arg7 harg7 arg8 harg8 hc0 hc1 x0 x1 x2 xs0 xs1 xs2).1 S512x1.size (by sl_kernel_rfl) y
theorem coverB_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i) (x0 x1 : Vec F S512x1024 .f32) (x2 : Vec F S512x1024 .bf16) (xs0 xs1 : Vec F S512x1 .f32) (xs2 : Vec F S512x1024 .f32) (y : S512x1.Idx) :
    ∃ pc ∈ (kernelRun1_B (F := F) c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_B (F := F) c i arg2 harg2 arg3 harg3 arg4 harg4 arg5 harg5 arg6 harg6 arg7 harg7 arg8 harg8 hc0 hc1 x0 x1 x2 xs0 xs1 xs2).2.1 S512x1.size (by sl_kernel_rfl) y
theorem coverB_2 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i) (x0 x1 : Vec F S512x1024 .f32) (x2 : Vec F S512x1024 .bf16) (xs0 xs1 : Vec F S512x1 .f32) (xs2 : Vec F S512x1024 .f32) (y : S512x1024.Idx) :
    ∃ pc ∈ (kernelRun1_B (F := F) c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_B (F := F) c i arg2 harg2 arg3 harg3 arg4 harg4 arg5 harg5 arg6 harg6 arg7 harg7 arg8 harg8 hc0 hc1 x0 x1 x2 xs0 xs1 xs2).2.2.1 S512x1024.size (by sl_kernel_rfl) y
theorem coverC_3 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i) (x0 x1 : Vec F S512x1024 .f32) (x2 : Vec F S512x1024 .bf16) (xs0 xs1 : Vec F S512x1 .f32) (xs2 : Vec F S512x1024 .f32) (y : S512x1024.Idx) :
    ∃ pc ∈ (kernelRun1_C (F := F) c i arg2 harg2 arg3 harg3 arg4 harg4 arg5 harg5 arg6 harg6 arg7 harg7 arg8 harg8 hc0 hc1 x0 x1 x2 xs0 xs1 xs2).1, y ∈ pc.1.set :=
  View.cover_of_tiledL (kernelRun1_C (F := F) c i arg2 harg2 arg3 harg3 arg4 harg4 arg5 harg5 arg6 harg6 arg7 harg7 arg8 harg8 hc0 hc1 x0 x1 x2 xs0 xs1 xs2).1 S512x1024.size (by sl_kernel_rfl) y
theorem coverC_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i) (x0 x1 : Vec F S512x1024 .f32) (x2 : Vec F S512x1024 .bf16) (xs0 xs1 : Vec F S512x1 .f32) (xs2 : Vec F S512x1024 .f32) (y : S512x1.Idx) :
    ∃ pc ∈ (kernelRun1_C (F := F) c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_C (F := F) c i arg2 harg2 arg3 harg3 arg4 harg4 arg5 harg5 arg6 harg6 arg7 harg7 arg8 harg8 hc0 hc1 x0 x1 x2 xs0 xs1 xs2).2.1 S512x1.size (by sl_kernel_rfl) y
theorem coverC_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i) (x0 x1 : Vec F S512x1024 .f32) (x2 : Vec F S512x1024 .bf16) (xs0 xs1 : Vec F S512x1 .f32) (xs2 : Vec F S512x1024 .f32) (y : S512x1.Idx) :
    ∃ pc ∈ (kernelRun1_C (F := F) c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_C (F := F) c i arg2 harg2 arg3 harg3 arg4 harg4 arg5 harg5 arg6 harg6 arg7 harg7 arg8 harg8 hc0 hc1 x0 x1 x2 xs0 xs1 xs2).2.2.1 S512x1.size (by sl_kernel_rfl) y
theorem coverC_2 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i) (x0 x1 : Vec F S512x1024 .f32) (x2 : Vec F S512x1024 .bf16) (xs0 xs1 : Vec F S512x1 .f32) (xs2 : Vec F S512x1024 .f32) (y : S512x1024.Idx) :
    ∃ pc ∈ (kernelRun1_C (F := F) c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_C (F := F) c i arg2 harg2 arg3 harg3 arg4 harg4 arg5 harg5 arg6 harg6 arg7 harg7 arg8 harg8 hc0 hc1 x0 x1 x2 xs0 xs1 xs2).2.2.2.1 S512x1024.size (by sl_kernel_rfl) y
end Covers

section Region1Body

variable (V : (c : Dev nD) → (b : Ref sig .tc) → Buf (Elt F) ((c : Thread nD τ).loc b))

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' memrefs hold their blocks; the key-tile coordinate says which case the point is
    in; the invariant hands the body the carried buffers at what the point before left (at anything before the first
    point, and the first key tile of a query tile does not look) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1)]
    rw [scAt1_A V c t h0 h1]
    unfold scA; dsimp only
    by_cases hz : t.val = 0
    · rw [PhiS1_castSucc V c t, PhiS1_zero V c _ _ hz, PhiA1_eq]
      iintro ⟨⟨⟨B1, B2, B3, B4, B5, B6, B7, B8, B9, HS0, HS1, HS2⟩, Hg⟩, Ho, ⟨%d0, H0⟩, ⟨%d1, H1⟩, ⟨%d2, H2⟩, ⟨%d3, H3⟩⟩
      iapply ((kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%e0, HS0⟩, ⟨%e1, HS1⟩, ⟨%e2, HS2⟩⟩
      isplitl [B1 B2 B3 B4 B5 B6 B7 B8 B9 HS0 HS1 HS2 Hg]
      · isplitr [Hg]
        · isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [HS0]
          · unfold owns; iexists _; isplitr
            swap; · iexact HS0
            ipureintro; exact View.read_writes_eq_canon _ _ _ (coverA_0 _ _ _ _ _ _ _ _ _ _ _ _ _ _ _ _ _ _ _ _ _)
          isplitl [HS1]
          · unfold owns; iexists _; isplitr
            swap; · iexact HS1
            ipureintro; exact View.read_writes_eq_canon _ _ _ (coverA_1 _ _ _ _ _ _ _ _ _ _ _ _ _ _ _ _ _ _ _ _ _)
          unfold owns; iexists _; isplitr
          swap; · iexact HS2
          ipureintro; exact View.read_writes_eq_canon _ _ _ (coverA_2 _ _ _ _ _ _ _ _ _ _ _ _ _ _ _ _ _ _ _ _ _)
        · iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨B1, B2, B3, B4, B5, B6, B7, B8, B9, HS0, HS1, HS2⟩, Hg⟩, Ho, ⟨%d0, H0⟩, ⟨%d1, H1⟩, ⟨%d2, H2⟩, ⟨%d3, H3⟩⟩
      iapply ((kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%e0, HS0⟩, ⟨%e1, HS1⟩, ⟨%e2, HS2⟩⟩
      isplitl [B1 B2 B3 B4 B5 B6 B7 B8 B9 HS0 HS1 HS2 Hg]
      · isplitr [Hg]
        · isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [HS0]
          · unfold owns; iexists _; isplitr
            swap; · iexact HS0
            ipureintro; exact View.read_writes_eq_canon _ _ _ (coverA_0 _ _ _ _ _ _ _ _ _ _ _ _ _ _ _ _ _ _ _ _ _)
          isplitl [HS1]
          · unfold owns; iexists _; isplitr
            swap; · iexact HS1
            ipureintro; exact View.read_writes_eq_canon _ _ _ (coverA_1 _ _ _ _ _ _ _ _ _ _ _ _ _ _ _ _ _ _ _ _ _)
          unfold owns; iexists _; isplitr
          swap; · iexact HS2
          ipureintro; exact View.read_writes_eq_canon _ _ _ (coverA_2 _ _ _ _ _ _ _ _ _ _ _ _ _ _ _ _ _ _ _ _ _)
        · iexact Hg
      isplitl [Ho]; · iexact Ho
      isplitl [H0]; · iexact H0
      isplitl [H1]; · iexact H1
      isplitl [H2]; · iexact H2
      iexists _; iexact H3
  · have hz : t.val ≠ 0 := fun h => h0 (by rw [h])
    have hc0 : ¬cond1_0 (grid1.coords t) := fun h => h0 ((hcond1_0 t).mp h)
    by_cases h1 : t.val % 8 = 7
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3]
      rw [scAt1_C V c t h0 h1]
      unfold out1_3; rw [dif_pos h1]
      unfold scC outC; dsimp only
      rw [PhiS1_castSucc V c t, PhiS1_pos V c _ _ hz]
      iintro ⟨⟨⟨B1, B2, B3, B4, B5, B6, B7, B8, B9, HS0, HS1, HS2⟩, Hg⟩, Ho, ⟨%d0, H0⟩, ⟨%d1, H1⟩, ⟨%d2, H2⟩, ⟨%d3, H3⟩⟩
      iapply ((kernelRun1_C (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%e0, HS0⟩, ⟨%e1, HS1⟩, ⟨%e2, HS2⟩⟩
      isplitl [B1 B2 B3 B4 B5 B6 B7 B8 B9 HS0 HS1 HS2 Hg]
      · isplitr [Hg]
        · isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [HS0]
          · unfold owns; iexists _; isplitr
            swap; · iexact HS0
            ipureintro; exact View.read_writes_eq_canon _ _ _ (coverC_0 _ _ _ _ _ _ _ _ _ _ _ _ _ _ _ _ _ _ _ _ _ _ _ _)
          isplitl [HS1]
          · unfold owns; iexists _; isplitr
            swap; · iexact HS1
            ipureintro; exact View.read_writes_eq_canon _ _ _ (coverC_1 _ _ _ _ _ _ _ _ _ _ _ _ _ _ _ _ _ _ _ _ _ _ _ _)
          unfold owns; iexists _; isplitr
          swap; · iexact HS2
          ipureintro; exact View.read_writes_eq_canon _ _ _ (coverC_2 _ _ _ _ _ _ _ _ _ _ _ _ _ _ _ _ _ _ _ _ _ _ _ _)
        · iexact Hg
      isplitl [Ho]; · iexact Ho
      isplitl [H0]; · iexact H0
      isplitl [H1]; · iexact H1
      isplitl [H2]; · iexact H2
      unfold owns; iexists _; isplitr
      swap; · iexact H3
      ipureintro; exact View.read_writes_eq_canon _ _ _ (coverC_3 _ _ _ _ _ _ _ _ _ _ _ _ _ _ _ _ _ _ _ _ _ _ _ _)
    · have hc1 : ¬cond1_1 (grid1.coords t) := fun h => h1 ((hcond1_1 t).mp h)
      rw [Dat.leavesExact_idle (dat1 V c) 3 t (idleAt1_3 t hc1) (noFlush1_3 t hc1)]
      rw [scAt1_B V c t h0 h1]
      unfold scB; dsimp only
      rw [PhiS1_castSucc V c t, PhiS1_pos V c _ _ hz]
      iintro ⟨⟨⟨B1, B2, B3, B4, B5, B6, B7, B8, B9, HS0, HS1, HS2⟩, Hg⟩, Ho, ⟨%d0, H0⟩, ⟨%d1, H1⟩, ⟨%d2, H2⟩, ⟨%d3, H3⟩⟩
      iapply ((kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) _ _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%e0, HS0⟩, ⟨%e1, HS1⟩, ⟨%e2, HS2⟩⟩
      isplitl [B1 B2 B3 B4 B5 B6 B7 B8 B9 HS0 HS1 HS2 Hg]
      · isplitr [Hg]
        · isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [HS0]
          · unfold owns; iexists _; isplitr
            swap; · iexact HS0
            ipureintro; exact View.read_writes_eq_canon _ _ _ (coverB_0 _ _ _ _ _ _ _ _ _ _ _ _ _ _ _ _ _ _ _ _ _ _ _ _)
          isplitl [HS1]
          · unfold owns; iexists _; isplitr
            swap; · iexact HS1
            ipureintro; exact View.read_writes_eq_canon _ _ _ (coverB_1 _ _ _ _ _ _ _ _ _ _ _ _ _ _ _ _ _ _ _ _ _ _ _ _)
          unfold owns; iexists _; isplitr
          swap; · iexact HS2
          ipureintro; exact View.read_writes_eq_canon _ _ _ (coverB_2 _ _ _ _ _ _ _ _ _ _ _ _ _ _ _ _ _ _ _ _ _ _ _ _)
        · iexact Hg
      isplitl [Ho]; · iexact Ho
      isplitl [H0]; · iexact H0
      isplitl [H1]; · iexact H1
      isplitl [H2]; · iexact H2
      iexists _; iexact H3

/-- The body obligation of the pipeline rule, at every point. -/
theorem body_obligation1 (c : Dev nD) : BodyObligation (dat1 (F := F) V c) (defs₀ (F := F)) Variants.none () Set.univ := fun t => by
  rw [bigSep_W1, bigSep_W1]
  exact sound_body1 V c t

/-- What the launch hands the body is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives it back: the carried buffers' contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨B1, B2, B3, B4, B5, B6, B7, B8, B9, HS0, HS1, HS2⟩, Hg⟩
  isplitr [Hg]
  · isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [HS0]; · iexists _; iexact HS0
    isplitl [HS1]; · iexists _; iexact HS1
    iexists _; iexact HS2
  · iexact Hg

end Region1Body

end Cert.Kernel.Hand

end
-- ==== Proof.K.Run.lean ====
/-
  The whole program as a run: the host operations before the launches, the projection launch, the attention
  launch, each entered from the buffer contents the item before it left.
  The contents at the boundaries: at launch the memory; after the host operations their results; after the
  projection launch its two output arrays at what its write-backs leave; after the attention launch its output
  array likewise. Every weakly fair execution terminates and ends with every unscoped buffer at the last
  boundary's contents — in particular the arguments as launched and the result at the attention launch's output.
-/
import proofs.«423655_j6811818131541_3_alg».proof.Proof.K.Region0
import proofs.«423655_j6811818131541_3_alg».proof.Proof.K.Region1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the host operations (the scaled and narrowed weights). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection launch: its arrays at what the write-backs leave, the rest as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the attention launch: the result array at what its write-backs leave, the rest as entered. -/
def W3 (c : Dev nD) : Valuation τ sig (Elt F) :=
  Function.update (W2 m ρ c) (Proc.devRef .tc main_v6) ((dat1 (V2 m ρ) c).arrAt 3 cfg1.N)
abbrev V3 : (c : Dev nD) → (b : Ref sig .tc) → Buf (Elt F) ((c : Thread nD τ).loc b) := fun c b => W3 m ρ c b

theorem W3_main_v6 (c : Dev nD) : W3 m ρ c (Proc.devRef .tc main_v6) = (dat1 (V2 m ρ) c).arrAt 3 cfg1.N := by
  unfold W3; exact Function.update_self ..
theorem W3_of_ne (c : Dev nD) (b : Ref sig .tc) (hb : b ≠ main_v6) : W3 m ρ c (Proc.devRef .tc b) = W2 m ρ c (Proc.devRef .tc b) := by
  unfold W3; exact Function.update_of_ne (StableHlo.devRef_ne_of_ne hb) _ _

/-! ## The proof data family and the thread state -/

abbrev adm : (p : Fin 2) → (pcfgs (F := F) p).Adm := fun p => (cfgs p).toPCfg_adm
/-- Each launch's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The projection launch as a segment -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The attention launch's arrays: one array read through two windows -/

/-- The buffers behind the attention launch's four windows are three: [Q|K] (read by the query and the key window),
    V and the result. -/
theorem arrImage1 : Finset.univ.image (Pipeline.arrRef spec1) = ({main_v5_0, main_v5_1, main_v6} : Finset (Ref sig .tc)) := by
  decide

/-- A core's unscoped buffers are those three and the rest. -/
theorem unscopedBufs_split1 (c : Dev nD) (Vc : (b : Ref sig .tc) → Buf (Elt F) ((c : Thread nD τ).loc b)) :
    (unscopedBufs c Vc : sProp 𝕄) = iprop(Pipeline.arrBufs spec1 c Vc ∗ Pipeline.unscopedRest spec1 c Vc) := by
  have hA : Finset.univ.image (Pipeline.arrRef spec1) ⊆ Finset.univ.filter fun b : Ref sig .tc => ¬ b.isScoped := by
    rw [arrImage1]; decide
  unfold unscopedBufs Pipeline.unscopedRest Pipeline.arrBufs
  rw [bigSep_sdiff_split hA]
  rfl

/-- The three buffers, one by one. -/
theorem arrBufs1_eq (c : Dev nD) (Vc : (b : Ref sig .tc) → Buf (Elt F) ((c : Thread nD τ).loc b)) :
    (Pipeline.arrBufs spec1 c Vc : sProp 𝕄)
      = iprop((((c : Thread nD τ).loc main_v5_0) ↦{fullShare} Vc main_v5_0) ∗ (((c : Thread nD τ).loc main_v5_1) ↦{fullShare} Vc main_v5_1)
          ∗ (((c : Thread nD τ).loc main_v6) ↦{fullShare} Vc main_v6)) := by
  unfold Pipeline.arrBufs
  rw [arrImage1, bigSep_insert (by decide), bigSep_insert (by decide), bigSep_singleton]
  rfl

/-- The launch's arrays as the pipeline rule holds them: [Q|K] half and half for the query and the key window, V and the
    result whole. -/
theorem arrays1_eq (V : (c : Dev nD) → (b : Ref sig .tc) → Buf (Elt F) ((c : Thread nD τ).loc b)) (c : Dev nD)
    (Fn : (w : Fin cfg1.W) → Buf (Elt F) ((cfg1.win w).arr.view.loc (c.tc : Thread nD τ))) :
    ((dat1 V c).arrays Fn : sProp 𝕄)
      = iprop((((c : Thread nD τ).loc main_v5_0) ↦{fullShare.left} Fn 0) ∗ (((c : Thread nD τ).loc main_v5_0) ↦{fullShare.right} Fn 1)
          ∗ (((c : Thread nD τ).loc main_v5_1) ↦{fullShare} Fn 2) ∗ (((c : Thread nD τ).loc main_v6) ↦{fullShare} Fn 3)) := by
  have s0 : (dat1 V c).share 0 = fullShare.left := if_neg (by decide)
  have s1 : (dat1 V c).share 1 = fullShare.right := if_neg (by decide)
  have s2 : (dat1 V c).share 2 = fullShare := if_neg (by decide)
  have s3 : (dat1 V c).share 3 = fullShare := if_pos (by decide)
  have e : ((dat1 V c).arrays Fn : sProp 𝕄)
      = bigSep Finset.univ fun w : Fin cfg1.W => ((((c : Thread nD τ).loc (Pipeline.arrRef spec1 w)) ↦{(dat1 V c).share w} Fn w : sProp 𝕄)) := by
    unfold Dat.arrays
    exact bigSep_congr fun w _ => by rw [(arr_whole1 w).set_eq_univ]
  rw [e, bigSep_W1, s0, s1, s2, s3]

/-! ## The attention launch as a segment -/

set_option backward.isDefEq.respectTransparency.types false in
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (unscopedBufs c (V2 m ρ c) : sProp 𝕄)
        ⊢ iprop((pdats m ρ 1 c).arrays ((pdats m ρ 1 c).arrAt · 0) ∗ Pipeline.unscopedRest spec1 c (V2 m ρ c)) := by
      rw [unscopedBufs_split1 c (V2 m ρ c), arrBufs1_eq c (V2 m ρ c),
        show (pdats m ρ 1 c) = dat1 (V2 m ρ) c from rfl, arrays1_eq (V2 m ρ) c]
      iintro ⟨⟨H0, H1, H2⟩, Hrest⟩
      ihave H0' := (pointsTo_share (PosShare.mem_left_op_right fullShare)).1 $$ H0
      icases H0' with ⟨Ha, Hb⟩
      isplitr [Hrest]
      · isplitl [Ha]; · iexact Ha
        isplitl [Hb]; · iexact Hb
        isplitl [H1]; · iexact H1
        iexact H2
      · iexact Hrest
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 1).pre c (fun _ => fullShare) (adm (F := F) 1).1 ∗ Pipeline.scopedRest spec1 c)
        ⊢ (Pipeline.ΦA spec1 c : sProp 𝕄) := by
      unfold Pipeline.ΦA
      iintro ⟨Hp, -, Hr⟩
      isplitl [Hr]; · iexact Hr
      iexact Hp
    exact h1.trans (hin1 (V2 m ρ) c)
  hout c := by
    rw [Pipeline.ownSems0_none]
    have h2 : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (V2 m ρ) c).trans h2
  hexit c := by
    have hrest : (Pipeline.unscopedRest spec1 c (V2 m ρ c) : sProp 𝕄) = Pipeline.unscopedRest spec1 c (V3 m ρ c) := by
      unfold Pipeline.unscopedRest
      refine bigSep_congr fun b hb => ?_
      have hne : b ≠ main_v6 := fun h => by
        subst h
        exact (Finset.mem_sdiff.mp hb).2 (by rw [arrImage1]; decide)
      rw [show V3 m ρ c b = V2 m ρ c b from W3_of_ne m ρ c b hne]
    have hjoin : iprop((pdats m ρ 1 c).arrays ((pdats m ρ 1 c).arrAt · cfg1.N) ∗ Pipeline.unscopedRest spec1 c (V2 m ρ c))
        ⊢ (unscopedBufs c (V3 m ρ c) : sProp 𝕄) := by
      rw [unscopedBufs_split1 c (V3 m ρ c), arrBufs1_eq c (V3 m ρ c), hrest,
        show (pdats m ρ 1 c) = dat1 (V2 m ρ) c from rfl, arrays1_eq (V2 m ρ) c,
        show V3 m ρ c main_v5_0 = V2 m ρ c main_v5_0 from W3_of_ne m ρ c main_v5_0 (by decide),
        show V3 m ρ c main_v5_1 = V2 m ρ c main_v5_1 from W3_of_ne m ρ c main_v5_1 (by decide),
        show V3 m ρ c main_v6 = (dat1 (V2 m ρ) c).arrAt 3 cfg1.N from W3_main_v6 m ρ c,
        show (dat1 (V2 m ρ) c).arrAt 0 cfg1.N = V2 m ρ c main_v5_0 from ((dat1 (V2 m ρ) c).arrAt_in 0 rfl _).trans (A_eq1 (V2 m ρ) c 0),
        show (dat1 (V2 m ρ) c).arrAt 1 cfg1.N = V2 m ρ c main_v5_0 from ((dat1 (V2 m ρ) c).arrAt_in 1 rfl _).trans (A_eq1 (V2 m ρ) c 1),
        show (dat1 (V2 m ρ) c).arrAt 2 cfg1.N = V2 m ρ c main_v5_1 from ((dat1 (V2 m ρ) c).arrAt_in 2 rfl _).trans (A_eq1 (V2 m ρ) c 2)]
      iintro ⟨⟨Ha, Hb, H1, H2⟩, Hrest⟩
      ihave H0 := (pointsTo_share (PosShare.mem_left_op_right fullShare)).2 $$ [Ha Hb]
      · isplitl [Ha] <;> iassumption
      isplitr [Hrest]
      · isplitl [H0]; · iexact H0
        isplitl [H1]; · iexact H1
        iexact H2
      · iexact Hrest
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

theorem hostOps0_fresh : (hostOps0 : List (HloOp τ sig (Elt F))).Forall fun op => op.fresh = ∅ := by
  simp only [List.Forall]; repeat' constructor

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution terminates, nothing faulting, and every
    final state has every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.Kernel.Hand

end
-- ==== Proof.K.Frame.lean ====
/-
  The frame, and the run with the result named.
  No host operation and no launch writes an argument array: the projection launch reads x through an input window and
  never touches the three weight arrays; so the last boundary's contents at an argument are the launch memory's. The
  result buffer ends at what the attention launch's write-backs leave.
-/
import proofs.«423655_j6811818131541_3_alg».proof.Proof.K.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- Every weakly fair execution terminates, nothing faulting, and ends with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c)⟩) (run_main m ρ)

/-- The same run with the result buffer named: it ends at the attention launch's output array. -/
theorem value_run : θ_run defs (onTc (τ := τ) (main (F := F))) ⟨m, fun _ => 0, ρ⟩ (fun r => ∀ c : Dev nD,
      r.2.mem ((c.tc : Thread nD τ).loc main_v6) = W3 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨h c _ (mem_uc main_v6 (by decide)), (h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c)⟩) (run_main m ρ)

end Cert.Kernel.Hand

end
-- ==== Proof.KI.Region0.lean ====
/-
  The projection launch (the first pallas_call: one grid axis of 8 row tiles), as proof data for the pipeline rule.
  At a row tile the body reads the tile of x (512 × 1024) and the three resident weight matrices, and stores
  x·Wq into columns 0…1023 and x·Wk into columns 1024…2047 of the [Q|K] block, and x·Wv into the V block.
  Here: each window's block at a point; the body's triple, with the pieces its stores leave found by running it;
  the proof data (inputs stay, outputs hold the canon of those pieces); the body obligation at every point.
  Everything is stated at any float instance and at a parameter V, the buffer contents when the launch is entered.
-/
import proofs.«423655_j6811818131541_3_alg».proof.Proof.Gen.KernelIdeal.Launch
import proofs.«423655_j6811818131541_3_alg».proof.Proof.Gen.KernelIdeal.Skeleton
import proofs.«423655_j6811818131541_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window w's block at point t, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, refetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's triple -/

set_option maxHeartbeats 4000000 in
/-- The pieces the body's stores leave in the [Q|K] block (first component) and in the V block (second), with the
    proof that on whole staging memrefs, the inputs' at contents x0 … x3 and the outputs' at anything, the body runs
    to the continuation holding the inputs' as they were and each output's with its pieces written. -/
noncomputable def kernelRun0 (c : Dev nD) (i : grid0.Coords)
    (arg1 : Memref sig .tc .vmem S512x1024 .f32) (harg1 : arg1.IsWhole) (arg2 : Memref sig .tc .vmem S1024x1024 .bf16) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S512x2048 .f32) (harg5 : arg5.IsWhole) (arg6 : Memref sig .tc .vmem S512x1024 .bf16) (harg6 : arg6.IsWhole)
    (x0 : Vec F S512x1024 .f32) (x1 x2 x3 : Vec F S1024x1024 .bf16) :
    Σ' (L4 : List (View.Piece (Elt F) S512x2048 .f32)), { L5 : List (View.Piece (Elt F) S512x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc0__qkv_kernel i arg1 harg1 arg2 harg2 arg3 harg3 arg4 harg4 arg5 harg5 arg6 harg6) K } := by
  refine ⟨?_, ?_, fun E K => ?run⟩
  case run =>
    simp only [cc0__qkv_kernel_eq_skeleton]; unfold cc0__qkv_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    iexists _; iexact H5

section Region0Data

variable (V : (c : Dev nD) → (b : Ref sig .tc) → Buf (Elt F) ((c : Thread nD τ).loc b))

/-- The body's run at point t, on the point's staging memrefs and input blocks. -/
abbrev run0 (c : Dev nD) (t : Fin cfg0.N) :=
  kernelRun0 (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (iblk0 V c 0 t) (iblk0 V c 1 t) (iblk0 V c 2 t) (iblk0 V c 3 t)

/-- What the body leaves in the [Q|K] block at point t: its two stores read back. -/
def out0_4 (c : Dev nD) (t : Fin cfg0.N) : Vec F S512x2048 .f32 := View.canon (run0 V c t).1
/-- What it leaves in the V block: its one store. -/
def out0_5 (c : Dev nD) (t : Fin cfg0.N) : Vec F S512x1024 .bf16 := View.canon (run0 V c t).2.1

/-- The two stores into the [Q|K] block are its left and right halves: they cover it. -/
theorem cover0_4 (c : Dev nD) (t : Fin cfg0.N) (y : S512x2048.Idx) : ∃ pc ∈ (run0 V c t).1, y ∈ pc.1.set :=
  View.cover_of_tiledL (run0 V c t).1 S512x1024.size (by sl_kernel_rfl) y
/-- The store into the V block is the whole block. -/
theorem cover0_5 (c : Dev nD) (t : Fin cfg0.N) (y : S512x1024.Idx) : ∃ pc ∈ (run0 V c t).2.1, y ∈ pc.1.set :=
  View.cover_of_tiledL (run0 V c t).2.1 S512x1024.size (by sl_kernel_rfl) y

/-- The proof data of the projection launch on core c: the arrays as the launch finds them; after the body each
    input's buffer still at its block, each output's at what the stores left; nothing carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 V c t
    | ⟨5, _⟩ => out0_5 V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 V c t := by dsimp only [dat0]
theorem after0_5 (c : Dev nD) (t : Fin cfg0.N) : (dat0 V c).after 5 t = out0_5 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 2000000 in
/-- The body at any point: the inputs' memrefs hold their blocks, the run applies, and each output's buffer holds its
    pieces read back (they cover it). The invariant and what the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  unfold out0_4 out0_5
  iintro ⟨HΦ, Ho, ⟨%d0, H0⟩, ⟨%d1, H1⟩, ⟨%d2, H2⟩, ⟨%d3, H3⟩, ⟨%d4, H4⟩, ⟨%d5, H5⟩⟩
  iapply ((run0 V c t).2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, ⟨%e4, H4⟩, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_eq_canon _ _ _ (cover0_4 V c t)
  unfold owns; iexists _; isplitr
  swap; · iexact H5
  ipureintro; exact View.read_writes_eq_canon _ _ _ (cover0_5 V c t)

/-- The body obligation of the pipeline rule, at every point. -/
theorem body_obligation0 (c : Dev nD) : BodyObligation (dat0 (F := F) V c) (defs₀ (F := F)) Variants.none () Set.univ := fun t => by
  rw [bigSep_W0, bigSep_W0]
  exact sound_body0 V c t

end Region0Data

end Cert.KernelIdeal.Hand

end
-- ==== Proof.KI.Runs1.lean ====
/-
  The attention launch (the second pallas_call: a grid of 8 query tiles × 8 key tiles), its body run case by case.
  At a grid point the body holds a query tile, a key tile and a value tile, and three carried buffers: the running row
  maximum, the running denominator and the running numerator of the softmax rows. At the first key tile it resets the
  three; at every key tile it rescales and adds the tile's contribution; at the last key tile it stores
  numerator / denominator into the output tile. The two conditions are scalar tests of the key-tile coordinate.
  Here: the conditions, and for each of the three cases the grid meets (first, middle, last key tile) the body's triple
  with the pieces its stores leave in each buffer found by running it.
-/
import proofs.«423655_j6811818131541_3_alg».proof.Proof.Gen.KernelIdeal.Launch
import proofs.«423655_j6811818131541_3_alg».proof.Proof.Gen.KernelIdeal.Skeleton
import proofs.«423655_j6811818131541_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch conditions -/

/-- The first test: the key-tile coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The second test: the key-tile coordinate is 7, the last. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## The body, case by case -/

set_option maxHeartbeats 4000000 in
/-- FIRST key tile: the carried buffers are reset, then updated; the output tile is not touched. The pieces left in
    the maximum, the denominator and the numerator buffers, with the body's triple. -/
noncomputable def kernelRun1_A (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 x1 : Vec F S512x1024 .f32) (x2 : Vec F S512x1024 .bf16) :
    Σ' (LS0 : List (View.Piece (Elt F) S512x1 .f32)) (LS1 : List (View.Piece (Elt F) S512x1 .f32)), { LS2 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨?_, ?_, ?_, fun xi3 E K => ?run⟩
  case run =>
    haveI : Fact (cond1_0 i) := ⟨hc0⟩
    haveI : Fact (¬cond1_1 i) := ⟨hc1⟩
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

set_option maxHeartbeats 4000000 in
/-- A MIDDLE key tile: the carried buffers, found at xs0, xs1, xs2, are updated; the output tile is not touched. -/
noncomputable def kernelRun1_B (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 x1 : Vec F S512x1024 .f32) (x2 : Vec F S512x1024 .bf16) (xs0 xs1 : Vec F S512x1 .f32) (xs2 : Vec F S512x1024 .f32) :
    Σ' (LS0 : List (View.Piece (Elt F) S512x1 .f32)) (LS1 : List (View.Piece (Elt F) S512x1 .f32)), { LS2 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨?_, ?_, ?_, fun xi3 E K => ?run⟩
  case run =>
    haveI : Fact (¬cond1_0 i) := ⟨hc0⟩
    haveI : Fact (¬cond1_1 i) := ⟨hc1⟩
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

set_option maxHeartbeats 4000000 in
/-- The LAST key tile: the carried buffers are updated and numerator / denominator is stored into the output tile. -/
noncomputable def kernelRun1_C (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 x1 : Vec F S512x1024 .f32) (x2 : Vec F S512x1024 .bf16) (xs0 xs1 : Vec F S512x1 .f32) (xs2 : Vec F S512x1024 .f32) :
    Σ' (L3 : List (View.Piece (Elt F) S512x1024 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨?_, ?_, ?_, ?_, fun E K => ?run⟩
  case run =>
    haveI : Fact (¬cond1_0 i) := ⟨hc0⟩
    haveI : Fact (cond1_1 i) := ⟨hc1⟩
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KI.Region1.lean ====
/-
  The attention launch as proof data for the pipeline rule.
  The three carried buffers (running maximum, denominator, numerator) live in the rule's invariant: before the first
  point at anything, after point n at what the body's case at n left in them (`scAt1`, by recursion on the point:
  the first key tile of a query tile resets and does not look at what the point before left; the others update it).
  The output tile is stored at the last key tile of each query tile only, and written back there; at the other
  points the window is idle and its buffer is handed back as found.
  The query and key windows read one array ([Q|K]) at two column blocks: the array is held half and half.
-/
import proofs.«423655_j6811818131541_3_alg».proof.Proof.KI.Runs1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window w's block at point t, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, refetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Before the last key tile the output window is idle, and not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last key tile it is live. -/
theorem liveAt1_3 : ∀ t : Fin cfg1.N, cond1_1 (grid1.coords t) → cfg1.idle 3 (grid1.coords t) = false := by decide +kernel

/-! ## The memrefs the body is called with -/

abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1024 .f32 := win1_3.stage (cfg1.slots t 3)
abbrev hs1_3 (t : Fin cfg1.N) : (ms1_3 t).IsWhole := hstage1_3 ((cfg1.slots t 3).cast nbuf1_3)
/-- The carried buffers: running maximum, denominator, numerator. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2

/-- The rule's invariant with the three carried buffers held as P0, P1, P2: the other launch's staging buffers at
    anything, the three, and the generator register at some state. -/
abbrev PhiWith (c : Dev nD) (P0 P1 P2 : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ P0 ∗ P1 ∗ P2) ∗ (∃ r, prngReg c r))

/-- What the launch hands the body before the first point: the three carried buffers at anything. -/
theorem PhiA1_eq (c : Dev nD) :
    (Pipeline.ΦA spec1 c : sProp 𝕄)
      = PhiWith c (iprop(∃ d, owns (c : Thread nD τ) scM1_0 fullShare d)) (iprop(∃ d, owns (c : Thread nD τ) scM1_1 fullShare d)) (iprop(∃ d, owns (c : Thread nD τ) scM1_2 fullShare d)) := by
  unfold Pipeline.ΦA; rw [scopedRest1_eq]; simp only [scM1_0, scM1_1, scM1_2, owns_whole]; try rfl

/-! ## What the carried buffers hold after each point -/

/-- The three carried buffers after a run in case A (first key tile) at point t. -/
def scA (c : Dev nD) (t : Fin cfg1.N) (hc0 : cond1_0 (grid1.coords t)) (hc1 : ¬cond1_1 (grid1.coords t)) :
    Vec F S512x1 .f32 × Vec F S512x1 .f32 × Vec F S512x1024 .f32 :=
  let R := kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t)
  (View.canon R.1, View.canon R.2.1, View.canon R.2.2.1)

/-- … in case B (a middle key tile), over what the point before left (p). -/
def scB (c : Dev nD) (t : Fin cfg1.N) (hc0 : ¬cond1_0 (grid1.coords t)) (hc1 : ¬cond1_1 (grid1.coords t))
    (p : Vec F S512x1 .f32 × Vec F S512x1 .f32 × Vec F S512x1024 .f32) :
    Vec F S512x1 .f32 × Vec F S512x1 .f32 × Vec F S512x1024 .f32 :=
  let R := kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) p.1 p.2.1 p.2.2
  (View.canon R.1, View.canon R.2.1, View.canon R.2.2.1)

/-- … in case C (the last key tile). -/
def scC (c : Dev nD) (t : Fin cfg1.N) (hc0 : ¬cond1_0 (grid1.coords t)) (hc1 : cond1_1 (grid1.coords t))
    (p : Vec F S512x1 .f32 × Vec F S512x1 .f32 × Vec F S512x1024 .f32) :
    Vec F S512x1 .f32 × Vec F S512x1 .f32 × Vec F S512x1024 .f32 :=
  let R := kernelRun1_C (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) p.1 p.2.1 p.2.2
  (View.canon R.2.1, View.canon R.2.2.1, View.canon R.2.2.2.1)

/-- The output tile the last key tile stores. -/
def outC (c : Dev nD) (t : Fin cfg1.N) (hc0 : ¬cond1_0 (grid1.coords t)) (hc1 : cond1_1 (grid1.coords t))
    (p : Vec F S512x1 .f32 × Vec F S512x1 .f32 × Vec F S512x1024 .f32) : Vec F S512x1024 .f32 :=
  View.canon (kernelRun1_C (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) p.1 p.2.1 p.2.2).1

/-- THE RECURRENCE: the carried buffers after the body at point n. -/
def scAt1 (c : Dev nD) : (n : ℕ) → n < cfg1.N → Vec F S512x1 .f32 × Vec F S512x1 .f32 × Vec F S512x1024 .f32
  | 0, hn => scA V c ⟨0, hn⟩ ((hcond1_0 ⟨0, hn⟩).mpr (Nat.zero_mod _)) (fun h => by have := (hcond1_1 ⟨0, hn⟩).mp h; simp at this)
  | n + 1, hn =>
    if h0 : (n + 1) % 8 = 0 then
      if h1 : (n + 1) % 8 = 7 then False.elim (by omega)
      else scA V c ⟨n + 1, hn⟩ ((hcond1_0 ⟨n + 1, hn⟩).mpr h0) (fun h => h1 ((hcond1_1 ⟨n + 1, hn⟩).mp h))
    else
      if h1 : (n + 1) % 8 = 7 then
        scC V c ⟨n + 1, hn⟩ (fun h => h0 ((hcond1_0 ⟨n + 1, hn⟩).mp h)) ((hcond1_1 ⟨n + 1, hn⟩).mpr h1) (scAt1 c n (Nat.lt_of_succ_lt hn))
      else
        scB V c ⟨n + 1, hn⟩ (fun h => h0 ((hcond1_0 ⟨n + 1, hn⟩).mp h)) (fun h => h1 ((hcond1_1 ⟨n + 1, hn⟩).mp h)) (scAt1 c n (Nat.lt_of_succ_lt hn))

theorem scAt1_A (c : Dev nD) (t : Fin cfg1.N) (h0 : t.val % 8 = 0) (h1 : ¬t.val % 8 = 7) :
    scAt1 V c t.val t.isLt = scA V c t ((hcond1_0 t).mpr h0) (fun h => h1 ((hcond1_1 t).mp h)) := by
  obtain ⟨n, hn⟩ := t
  cases n with
  | zero => rfl
  | succ n => exact (dif_pos h0).trans ((dif_neg h1).trans rfl)

theorem scAt1_B (c : Dev nD) (t : Fin cfg1.N) (h0 : ¬t.val % 8 = 0) (h1 : ¬t.val % 8 = 7) :
    scAt1 V c t.val t.isLt = scB V c t (fun h => h0 ((hcond1_0 t).mp h)) (fun h => h1 ((hcond1_1 t).mp h))
      (scAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem scAt1_C (c : Dev nD) (t : Fin cfg1.N) (h0 : ¬t.val % 8 = 0) (h1 : t.val % 8 = 7) :
    scAt1 V c t.val t.isLt = scC V c t (fun h => h0 ((hcond1_0 t).mp h)) ((hcond1_1 t).mpr h1)
      (scAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- What the output window's buffer holds after the body at t: at a last key tile the stored tile; elsewhere the
    window is idle and this value is never consulted (the numerator buffer's contents stand in). -/
def out1_3 (c : Dev nD) (t : Fin cfg1.N) : Vec F S512x1024 .f32 :=
  if h1 : t.val % 8 = 7 then
    outC V c t (fun h => by have := (hcond1_0 t).mp h; omega) ((hcond1_1 t).mpr h1) (scAt1 V c (t.val - 1) (Nat.lt_of_le_of_lt (Nat.sub_le _ _) t.isLt))
  else (scAt1 V c t.val t.isLt).2.2

/-- The invariant before position n. -/
def PhiS1 (c : Dev nD) : (n : ℕ) → n ≤ cfg1.N → sProp 𝕄
  | 0, _ => Pipeline.ΦA spec1 c
  | n + 1, hn => PhiWith c (owns (c : Thread nD τ) scM1_0 fullShare (scAt1 V c n hn).1) (owns (c : Thread nD τ) scM1_1 fullShare (scAt1 V c n hn).2.1)
      (owns (c : Thread nD τ) scM1_2 fullShare (scAt1 V c n hn).2.2)

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = PhiWith c (owns (c : Thread nD τ) scM1_0 fullShare (scAt1 V c n hn).1) (owns (c : Thread nD τ) scM1_1 fullShare (scAt1 V c n hn).2.1)
      (owns (c : Thread nD τ) scM1_2 fullShare (scAt1 V c n hn).2.2) := rfl
theorem PhiS1_pos (c : Dev nD) (n : ℕ) (h : n ≤ cfg1.N) (hz : n ≠ 0) :
    PhiS1 V c n h = PhiWith c (owns (c : Thread nD τ) scM1_0 fullShare (scAt1 V c (n - 1) (by omega)).1) (owns (c : Thread nD τ) scM1_1 fullShare (scAt1 V c (n - 1) (by omega)).2.1)
      (owns (c : Thread nD τ) scM1_2 fullShare (scAt1 V c (n - 1) (by omega)).2.2) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 V c t
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Region1

/-! ## The pieces cover their buffers -/

section Covers
theorem coverA_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i) (x0 x1 : Vec F S512x1024 .f32) (x2 : Vec F S512x1024 .bf16) (y : S512x1.Idx) :
    ∃ pc ∈ (kernelRun1_A (F := F) c i arg2 harg2 arg3 harg3 arg4 harg4 arg5 harg5 arg6 harg6 arg7 harg7 arg8 harg8 hc0 hc1 x0 x1 x2).1, y ∈ pc.1.set :=
  View.cover_of_tiledL (kernelRun1_A (F := F) c i arg2 harg2 arg3 harg3 arg4 harg4 arg5 harg5 arg6 harg6 arg7 harg7 arg8 harg8 hc0 hc1 x0 x1 x2).1 S512x1.size (by sl_kernel_rfl) y
theorem coverA_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i) (x0 x1 : Vec F S512x1024 .f32) (x2 : Vec F S512x1024 .bf16) (y : S512x1.Idx) :
    ∃ pc ∈ (kernelRun1_A (F := F) c i arg2 harg2 arg3 harg3 arg4 harg4 arg5 harg5 arg6 harg6 arg7 harg7 arg8 harg8 hc0 hc1 x0 x1 x2).2.1, y ∈ pc.1.set :=
  View.cover_of_tiledL (kernelRun1_A (F := F) c i arg2 harg2 arg3 harg3 arg4 harg4 arg5 harg5 arg6 harg6 arg7 harg7 arg8 harg8 hc0 hc1 x0 x1 x2).2.1 S512x1.size (by sl_kernel_rfl) y
theorem coverA_2 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i) (x0 x1 : Vec F S512x1024 .f32) (x2 : Vec F S512x1024 .bf16) (y : S512x1024.Idx) :
    ∃ pc ∈ (kernelRun1_A (F := F) c i arg2 harg2 arg3 harg3 arg4 harg4 arg5 harg5 arg6 harg6 arg7 harg7 arg8 harg8 hc0 hc1 x0 x1 x2).2.2.1, y ∈ pc.1.set :=
  View.cover_of_tiledL (kernelRun1_A (F := F) c i arg2 harg2 arg3 harg3 arg4 harg4 arg5 harg5 arg6 harg6 arg7 harg7 arg8 harg8 hc0 hc1 x0 x1 x2).2.2.1 S512x1024.size (by sl_kernel_rfl) y
theorem coverB_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i) (x0 x1 : Vec F S512x1024 .f32) (x2 : Vec F S512x1024 .bf16) (xs0 xs1 : Vec F S512x1 .f32) (xs2 : Vec F S512x1024 .f32) (y : S512x1.Idx) :
    ∃ pc ∈ (kernelRun1_B (F := F) c i arg2 harg2 arg3 harg3 arg4 harg4 arg5 harg5 arg6 harg6 arg7 harg7 arg8 harg8 hc0 hc1 x0 x1 x2 xs0 xs1 xs2).1, y ∈ pc.1.set :=
  View.cover_of_tiledL (kernelRun1_B (F := F) c i arg2 harg2 arg3 harg3 arg4 harg4 arg5 harg5 arg6 harg6 arg7 harg7 arg8 harg8 hc0 hc1 x0 x1 x2 xs0 xs1 xs2).1 S512x1.size (by sl_kernel_rfl) y
theorem coverB_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i) (x0 x1 : Vec F S512x1024 .f32) (x2 : Vec F S512x1024 .bf16) (xs0 xs1 : Vec F S512x1 .f32) (xs2 : Vec F S512x1024 .f32) (y : S512x1.Idx) :
    ∃ pc ∈ (kernelRun1_B (F := F) c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_B (F := F) c i arg2 harg2 arg3 harg3 arg4 harg4 arg5 harg5 arg6 harg6 arg7 harg7 arg8 harg8 hc0 hc1 x0 x1 x2 xs0 xs1 xs2).2.1 S512x1.size (by sl_kernel_rfl) y
theorem coverB_2 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i) (x0 x1 : Vec F S512x1024 .f32) (x2 : Vec F S512x1024 .bf16) (xs0 xs1 : Vec F S512x1 .f32) (xs2 : Vec F S512x1024 .f32) (y : S512x1024.Idx) :
    ∃ pc ∈ (kernelRun1_B (F := F) c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_B (F := F) c i arg2 harg2 arg3 harg3 arg4 harg4 arg5 harg5 arg6 harg6 arg7 harg7 arg8 harg8 hc0 hc1 x0 x1 x2 xs0 xs1 xs2).2.2.1 S512x1024.size (by sl_kernel_rfl) y
theorem coverC_3 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i) (x0 x1 : Vec F S512x1024 .f32) (x2 : Vec F S512x1024 .bf16) (xs0 xs1 : Vec F S512x1 .f32) (xs2 : Vec F S512x1024 .f32) (y : S512x1024.Idx) :
    ∃ pc ∈ (kernelRun1_C (F := F) c i arg2 harg2 arg3 harg3 arg4 harg4 arg5 harg5 arg6 harg6 arg7 harg7 arg8 harg8 hc0 hc1 x0 x1 x2 xs0 xs1 xs2).1, y ∈ pc.1.set :=
  View.cover_of_tiledL (kernelRun1_C (F := F) c i arg2 harg2 arg3 harg3 arg4 harg4 arg5 harg5 arg6 harg6 arg7 harg7 arg8 harg8 hc0 hc1 x0 x1 x2 xs0 xs1 xs2).1 S512x1024.size (by sl_kernel_rfl) y
theorem coverC_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i) (x0 x1 : Vec F S512x1024 .f32) (x2 : Vec F S512x1024 .bf16) (xs0 xs1 : Vec F S512x1 .f32) (xs2 : Vec F S512x1024 .f32) (y : S512x1.Idx) :
    ∃ pc ∈ (kernelRun1_C (F := F) c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_C (F := F) c i arg2 harg2 arg3 harg3 arg4 harg4 arg5 harg5 arg6 harg6 arg7 harg7 arg8 harg8 hc0 hc1 x0 x1 x2 xs0 xs1 xs2).2.1 S512x1.size (by sl_kernel_rfl) y
theorem coverC_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i) (x0 x1 : Vec F S512x1024 .f32) (x2 : Vec F S512x1024 .bf16) (xs0 xs1 : Vec F S512x1 .f32) (xs2 : Vec F S512x1024 .f32) (y : S512x1.Idx) :
    ∃ pc ∈ (kernelRun1_C (F := F) c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_C (F := F) c i arg2 harg2 arg3 harg3 arg4 harg4 arg5 harg5 arg6 harg6 arg7 harg7 arg8 harg8 hc0 hc1 x0 x1 x2 xs0 xs1 xs2).2.2.1 S512x1.size (by sl_kernel_rfl) y
theorem coverC_2 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i) (x0 x1 : Vec F S512x1024 .f32) (x2 : Vec F S512x1024 .bf16) (xs0 xs1 : Vec F S512x1 .f32) (xs2 : Vec F S512x1024 .f32) (y : S512x1024.Idx) :
    ∃ pc ∈ (kernelRun1_C (F := F) c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_C (F := F) c i arg2 harg2 arg3 harg3 arg4 harg4 arg5 harg5 arg6 harg6 arg7 harg7 arg8 harg8 hc0 hc1 x0 x1 x2 xs0 xs1 xs2).2.2.2.1 S512x1024.size (by sl_kernel_rfl) y
end Covers

section Region1Body

variable (V : (c : Dev nD) → (b : Ref sig .tc) → Buf (Elt F) ((c : Thread nD τ).loc b))

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' memrefs hold their blocks; the key-tile coordinate says which case the point is
    in; the invariant hands the body the carried buffers at what the point before left (at anything before the first
    point, and the first key tile of a query tile does not look) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1)]
    rw [scAt1_A V c t h0 h1]
    unfold scA; dsimp only
    by_cases hz : t.val = 0
    · rw [PhiS1_castSucc V c t, PhiS1_zero V c _ _ hz, PhiA1_eq]
      iintro ⟨⟨⟨B1, B2, B3, B4, B5, B6, B7, B8, B9, HS0, HS1, HS2⟩, Hg⟩, Ho, ⟨%d0, H0⟩, ⟨%d1, H1⟩, ⟨%d2, H2⟩, ⟨%d3, H3⟩⟩
      iapply ((kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%e0, HS0⟩, ⟨%e1, HS1⟩, ⟨%e2, HS2⟩⟩
      isplitl [B1 B2 B3 B4 B5 B6 B7 B8 B9 HS0 HS1 HS2 Hg]
      · isplitr [Hg]
        · isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [HS0]
          · unfold owns; iexists _; isplitr
            swap; · iexact HS0
            ipureintro; exact View.read_writes_eq_canon _ _ _ (coverA_0 _ _ _ _ _ _ _ _ _ _ _ _ _ _ _ _ _ _ _ _ _)
          isplitl [HS1]
          · unfold owns; iexists _; isplitr
            swap; · iexact HS1
            ipureintro; exact View.read_writes_eq_canon _ _ _ (coverA_1 _ _ _ _ _ _ _ _ _ _ _ _ _ _ _ _ _ _ _ _ _)
          unfold owns; iexists _; isplitr
          swap; · iexact HS2
          ipureintro; exact View.read_writes_eq_canon _ _ _ (coverA_2 _ _ _ _ _ _ _ _ _ _ _ _ _ _ _ _ _ _ _ _ _)
        · iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨B1, B2, B3, B4, B5, B6, B7, B8, B9, HS0, HS1, HS2⟩, Hg⟩, Ho, ⟨%d0, H0⟩, ⟨%d1, H1⟩, ⟨%d2, H2⟩, ⟨%d3, H3⟩⟩
      iapply ((kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%e0, HS0⟩, ⟨%e1, HS1⟩, ⟨%e2, HS2⟩⟩
      isplitl [B1 B2 B3 B4 B5 B6 B7 B8 B9 HS0 HS1 HS2 Hg]
      · isplitr [Hg]
        · isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [HS0]
          · unfold owns; iexists _; isplitr
            swap; · iexact HS0
            ipureintro; exact View.read_writes_eq_canon _ _ _ (coverA_0 _ _ _ _ _ _ _ _ _ _ _ _ _ _ _ _ _ _ _ _ _)
          isplitl [HS1]
          · unfold owns; iexists _; isplitr
            swap; · iexact HS1
            ipureintro; exact View.read_writes_eq_canon _ _ _ (coverA_1 _ _ _ _ _ _ _ _ _ _ _ _ _ _ _ _ _ _ _ _ _)
          unfold owns; iexists _; isplitr
          swap; · iexact HS2
          ipureintro; exact View.read_writes_eq_canon _ _ _ (coverA_2 _ _ _ _ _ _ _ _ _ _ _ _ _ _ _ _ _ _ _ _ _)
        · iexact Hg
      isplitl [Ho]; · iexact Ho
      isplitl [H0]; · iexact H0
      isplitl [H1]; · iexact H1
      isplitl [H2]; · iexact H2
      iexists _; iexact H3
  · have hz : t.val ≠ 0 := fun h => h0 (by rw [h])
    have hc0 : ¬cond1_0 (grid1.coords t) := fun h => h0 ((hcond1_0 t).mp h)
    by_cases h1 : t.val % 8 = 7
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3]
      rw [scAt1_C V c t h0 h1]
      unfold out1_3; rw [dif_pos h1]
      unfold scC outC; dsimp only
      rw [PhiS1_castSucc V c t, PhiS1_pos V c _ _ hz]
      iintro ⟨⟨⟨B1, B2, B3, B4, B5, B6, B7, B8, B9, HS0, HS1, HS2⟩, Hg⟩, Ho, ⟨%d0, H0⟩, ⟨%d1, H1⟩, ⟨%d2, H2⟩, ⟨%d3, H3⟩⟩
      iapply ((kernelRun1_C (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%e0, HS0⟩, ⟨%e1, HS1⟩, ⟨%e2, HS2⟩⟩
      isplitl [B1 B2 B3 B4 B5 B6 B7 B8 B9 HS0 HS1 HS2 Hg]
      · isplitr [Hg]
        · isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [HS0]
          · unfold owns; iexists _; isplitr
            swap; · iexact HS0
            ipureintro; exact View.read_writes_eq_canon _ _ _ (coverC_0 _ _ _ _ _ _ _ _ _ _ _ _ _ _ _ _ _ _ _ _ _ _ _ _)
          isplitl [HS1]
          · unfold owns; iexists _; isplitr
            swap; · iexact HS1
            ipureintro; exact View.read_writes_eq_canon _ _ _ (coverC_1 _ _ _ _ _ _ _ _ _ _ _ _ _ _ _ _ _ _ _ _ _ _ _ _)
          unfold owns; iexists _; isplitr
          swap; · iexact HS2
          ipureintro; exact View.read_writes_eq_canon _ _ _ (coverC_2 _ _ _ _ _ _ _ _ _ _ _ _ _ _ _ _ _ _ _ _ _ _ _ _)
        · iexact Hg
      isplitl [Ho]; · iexact Ho
      isplitl [H0]; · iexact H0
      isplitl [H1]; · iexact H1
      isplitl [H2]; · iexact H2
      unfold owns; iexists _; isplitr
      swap; · iexact H3
      ipureintro; exact View.read_writes_eq_canon _ _ _ (coverC_3 _ _ _ _ _ _ _ _ _ _ _ _ _ _ _ _ _ _ _ _ _ _ _ _)
    · have hc1 : ¬cond1_1 (grid1.coords t) := fun h => h1 ((hcond1_1 t).mp h)
      rw [Dat.leavesExact_idle (dat1 V c) 3 t (idleAt1_3 t hc1) (noFlush1_3 t hc1)]
      rw [scAt1_B V c t h0 h1]
      unfold scB; dsimp only
      rw [PhiS1_castSucc V c t, PhiS1_pos V c _ _ hz]
      iintro ⟨⟨⟨B1, B2, B3, B4, B5, B6, B7, B8, B9, HS0, HS1, HS2⟩, Hg⟩, Ho, ⟨%d0, H0⟩, ⟨%d1, H1⟩, ⟨%d2, H2⟩, ⟨%d3, H3⟩⟩
      iapply ((kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (iblk1 V c 2 t) _ _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%e0, HS0⟩, ⟨%e1, HS1⟩, ⟨%e2, HS2⟩⟩
      isplitl [B1 B2 B3 B4 B5 B6 B7 B8 B9 HS0 HS1 HS2 Hg]
      · isplitr [Hg]
        · isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          isplitl [HS0]
          · unfold owns; iexists _; isplitr
            swap; · iexact HS0
            ipureintro; exact View.read_writes_eq_canon _ _ _ (coverB_0 _ _ _ _ _ _ _ _ _ _ _ _ _ _ _ _ _ _ _ _ _ _ _ _)
          isplitl [HS1]
          · unfold owns; iexists _; isplitr
            swap; · iexact HS1
            ipureintro; exact View.read_writes_eq_canon _ _ _ (coverB_1 _ _ _ _ _ _ _ _ _ _ _ _ _ _ _ _ _ _ _ _ _ _ _ _)
          unfold owns; iexists _; isplitr
          swap; · iexact HS2
          ipureintro; exact View.read_writes_eq_canon _ _ _ (coverB_2 _ _ _ _ _ _ _ _ _ _ _ _ _ _ _ _ _ _ _ _ _ _ _ _)
        · iexact Hg
      isplitl [Ho]; · iexact Ho
      isplitl [H0]; · iexact H0
      isplitl [H1]; · iexact H1
      isplitl [H2]; · iexact H2
      iexists _; iexact H3

/-- The body obligation of the pipeline rule, at every point. -/
theorem body_obligation1 (c : Dev nD) : BodyObligation (dat1 (F := F) V c) (defs₀ (F := F)) Variants.none () Set.univ := fun t => by
  rw [bigSep_W1, bigSep_W1]
  exact sound_body1 V c t

/-- What the launch hands the body is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives it back: the carried buffers' contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨B1, B2, B3, B4, B5, B6, B7, B8, B9, HS0, HS1, HS2⟩, Hg⟩
  isplitr [Hg]
  · isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [HS0]; · iexists _; iexact HS0
    isplitl [HS1]; · iexists _; iexact HS1
    iexists _; iexact HS2
  · iexact Hg

end Region1Body

end Cert.KernelIdeal.Hand

end
-- ==== Proof.KI.Run.lean ====
/-
  The whole program as a run: the host operations before the launches, the projection launch, the attention
  launch, each entered from the buffer contents the item before it left.
  The contents at the boundaries: at launch the memory; after the host operations their results; after the
  projection launch its two output arrays at what its write-backs leave; after the attention launch its output
  array likewise. Every weakly fair execution terminates and ends with every unscoped buffer at the last
  boundary's contents — in particular the arguments as launched and the result at the attention launch's output.
-/
import proofs.«423655_j6811818131541_3_alg».proof.Proof.KI.Region0
import proofs.«423655_j6811818131541_3_alg».proof.Proof.KI.Region1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the host operations (the scaled and narrowed weights). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection launch: its arrays at what the write-backs leave, the rest as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the attention launch: the result array at what its write-backs leave, the rest as entered. -/
def W3 (c : Dev nD) : Valuation τ sig (Elt F) :=
  Function.update (W2 m ρ c) (Proc.devRef .tc main_v6) ((dat1 (V2 m ρ) c).arrAt 3 cfg1.N)
abbrev V3 : (c : Dev nD) → (b : Ref sig .tc) → Buf (Elt F) ((c : Thread nD τ).loc b) := fun c b => W3 m ρ c b

theorem W3_main_v6 (c : Dev nD) : W3 m ρ c (Proc.devRef .tc main_v6) = (dat1 (V2 m ρ) c).arrAt 3 cfg1.N := by
  unfold W3; exact Function.update_self ..
theorem W3_of_ne (c : Dev nD) (b : Ref sig .tc) (hb : b ≠ main_v6) : W3 m ρ c (Proc.devRef .tc b) = W2 m ρ c (Proc.devRef .tc b) := by
  unfold W3; exact Function.update_of_ne (StableHlo.devRef_ne_of_ne hb) _ _

/-! ## The proof data family and the thread state -/

abbrev adm : (p : Fin 2) → (pcfgs (F := F) p).Adm := fun p => (cfgs p).toPCfg_adm
/-- Each launch's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The projection launch as a segment -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The attention launch's arrays: one array read through two windows -/

/-- The buffers behind the attention launch's four windows are three: [Q|K] (read by the query and the key window),
    V and the result. -/
theorem arrImage1 : Finset.univ.image (Pipeline.arrRef spec1) = ({main_v5_0, main_v5_1, main_v6} : Finset (Ref sig .tc)) := by
  decide

/-- A core's unscoped buffers are those three and the rest. -/
theorem unscopedBufs_split1 (c : Dev nD) (Vc : (b : Ref sig .tc) → Buf (Elt F) ((c : Thread nD τ).loc b)) :
    (unscopedBufs c Vc : sProp 𝕄) = iprop(Pipeline.arrBufs spec1 c Vc ∗ Pipeline.unscopedRest spec1 c Vc) := by
  have hA : Finset.univ.image (Pipeline.arrRef spec1) ⊆ Finset.univ.filter fun b : Ref sig .tc => ¬ b.isScoped := by
    rw [arrImage1]; decide
  unfold unscopedBufs Pipeline.unscopedRest Pipeline.arrBufs
  rw [bigSep_sdiff_split hA]
  rfl

/-- The three buffers, one by one. -/
theorem arrBufs1_eq (c : Dev nD) (Vc : (b : Ref sig .tc) → Buf (Elt F) ((c : Thread nD τ).loc b)) :
    (Pipeline.arrBufs spec1 c Vc : sProp 𝕄)
      = iprop((((c : Thread nD τ).loc main_v5_0) ↦{fullShare} Vc main_v5_0) ∗ (((c : Thread nD τ).loc main_v5_1) ↦{fullShare} Vc main_v5_1)
          ∗ (((c : Thread nD τ).loc main_v6) ↦{fullShare} Vc main_v6)) := by
  unfold Pipeline.arrBufs
  rw [arrImage1, bigSep_insert (by decide), bigSep_insert (by decide), bigSep_singleton]
  rfl

/-- The launch's arrays as the pipeline rule holds them: [Q|K] half and half for the query and the key window, V and the
    result whole. -/
theorem arrays1_eq (V : (c : Dev nD) → (b : Ref sig .tc) → Buf (Elt F) ((c : Thread nD τ).loc b)) (c : Dev nD)
    (Fn : (w : Fin cfg1.W) → Buf (Elt F) ((cfg1.win w).arr.view.loc (c.tc : Thread nD τ))) :
    ((dat1 V c).arrays Fn : sProp 𝕄)
      = iprop((((c : Thread nD τ).loc main_v5_0) ↦{fullShare.left} Fn 0) ∗ (((c : Thread nD τ).loc main_v5_0) ↦{fullShare.right} Fn 1)
          ∗ (((c : Thread nD τ).loc main_v5_1) ↦{fullShare} Fn 2) ∗ (((c : Thread nD τ).loc main_v6) ↦{fullShare} Fn 3)) := by
  have s0 : (dat1 V c).share 0 = fullShare.left := if_neg (by decide)
  have s1 : (dat1 V c).share 1 = fullShare.right := if_neg (by decide)
  have s2 : (dat1 V c).share 2 = fullShare := if_neg (by decide)
  have s3 : (dat1 V c).share 3 = fullShare := if_pos (by decide)
  have e : ((dat1 V c).arrays Fn : sProp 𝕄)
      = bigSep Finset.univ fun w : Fin cfg1.W => ((((c : Thread nD τ).loc (Pipeline.arrRef spec1 w)) ↦{(dat1 V c).share w} Fn w : sProp 𝕄)) := by
    unfold Dat.arrays
    exact bigSep_congr fun w _ => by rw [(arr_whole1 w).set_eq_univ]
  rw [e, bigSep_W1, s0, s1, s2, s3]

/-! ## The attention launch as a segment -/

set_option backward.isDefEq.respectTransparency.types false in
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (unscopedBufs c (V2 m ρ c) : sProp 𝕄)
        ⊢ iprop((pdats m ρ 1 c).arrays ((pdats m ρ 1 c).arrAt · 0) ∗ Pipeline.unscopedRest spec1 c (V2 m ρ c)) := by
      rw [unscopedBufs_split1 c (V2 m ρ c), arrBufs1_eq c (V2 m ρ c),
        show (pdats m ρ 1 c) = dat1 (V2 m ρ) c from rfl, arrays1_eq (V2 m ρ) c]
      iintro ⟨⟨H0, H1, H2⟩, Hrest⟩
      ihave H0' := (pointsTo_share (PosShare.mem_left_op_right fullShare)).1 $$ H0
      icases H0' with ⟨Ha, Hb⟩
      isplitr [Hrest]
      · isplitl [Ha]; · iexact Ha
        isplitl [Hb]; · iexact Hb
        isplitl [H1]; · iexact H1
        iexact H2
      · iexact Hrest
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 1).pre c (fun _ => fullShare) (adm (F := F) 1).1 ∗ Pipeline.scopedRest spec1 c)
        ⊢ (Pipeline.ΦA spec1 c : sProp 𝕄) := by
      unfold Pipeline.ΦA
      iintro ⟨Hp, -, Hr⟩
      isplitl [Hr]; · iexact Hr
      iexact Hp
    exact h1.trans (hin1 (V2 m ρ) c)
  hout c := by
    rw [Pipeline.ownSems0_none]
    have h2 : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (V2 m ρ) c).trans h2
  hexit c := by
    have hrest : (Pipeline.unscopedRest spec1 c (V2 m ρ c) : sProp 𝕄) = Pipeline.unscopedRest spec1 c (V3 m ρ c) := by
      unfold Pipeline.unscopedRest
      refine bigSep_congr fun b hb => ?_
      have hne : b ≠ main_v6 := fun h => by
        subst h
        exact (Finset.mem_sdiff.mp hb).2 (by rw [arrImage1]; decide)
      rw [show V3 m ρ c b = V2 m ρ c b from W3_of_ne m ρ c b hne]
    have hjoin : iprop((pdats m ρ 1 c).arrays ((pdats m ρ 1 c).arrAt · cfg1.N) ∗ Pipeline.unscopedRest spec1 c (V2 m ρ c))
        ⊢ (unscopedBufs c (V3 m ρ c) : sProp 𝕄) := by
      rw [unscopedBufs_split1 c (V3 m ρ c), arrBufs1_eq c (V3 m ρ c), hrest,
        show (pdats m ρ 1 c) = dat1 (V2 m ρ) c from rfl, arrays1_eq (V2 m ρ) c,
        show V3 m ρ c main_v5_0 = V2 m ρ c main_v5_0 from W3_of_ne m ρ c main_v5_0 (by decide),
        show V3 m ρ c main_v5_1 = V2 m ρ c main_v5_1 from W3_of_ne m ρ c main_v5_1 (by decide),
        show V3 m ρ c main_v6 = (dat1 (V2 m ρ) c).arrAt 3 cfg1.N from W3_main_v6 m ρ c,
        show (dat1 (V2 m ρ) c).arrAt 0 cfg1.N = V2 m ρ c main_v5_0 from ((dat1 (V2 m ρ) c).arrAt_in 0 rfl _).trans (A_eq1 (V2 m ρ) c 0),
        show (dat1 (V2 m ρ) c).arrAt 1 cfg1.N = V2 m ρ c main_v5_0 from ((dat1 (V2 m ρ) c).arrAt_in 1 rfl _).trans (A_eq1 (V2 m ρ) c 1),
        show (dat1 (V2 m ρ) c).arrAt 2 cfg1.N = V2 m ρ c main_v5_1 from ((dat1 (V2 m ρ) c).arrAt_in 2 rfl _).trans (A_eq1 (V2 m ρ) c 2)]
      iintro ⟨⟨Ha, Hb, H1, H2⟩, Hrest⟩
      ihave H0 := (pointsTo_share (PosShare.mem_left_op_right fullShare)).2 $$ [Ha Hb]
      · isplitl [Ha] <;> iassumption
      isplitr [Hrest]
      · isplitl [H0]; · iexact H0
        isplitl [H1]; · iexact H1
        iexact H2
      · iexact Hrest
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

theorem hostOps0_fresh : (hostOps0 : List (HloOp τ sig (Elt F))).Forall fun op => op.fresh = ∅ := by
  simp only [List.Forall]; repeat' constructor

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution terminates, nothing faulting, and every
    final state has every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.KernelIdeal.Hand

end
-- ==== Proof.KI.Frame.lean ====
/-
  The frame, and the run with the result named.
  No host operation and no launch writes an argument array: the projection launch reads x through an input window and
  never touches the three weight arrays; so the last boundary's contents at an argument are the launch memory's. The
  result buffer ends at what the attention launch's write-backs leave.
-/
import proofs.«423655_j6811818131541_3_alg».proof.Proof.KI.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- Every weakly fair execution terminates, nothing faulting, and ends with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c)⟩) (run_main m ρ)

/-- The same run with the result buffer named: it ends at the attention launch's output array. -/
theorem value_run : θ_run defs (onTc (τ := τ) (main (F := F))) ⟨m, fun _ => 0, ρ⟩ (fun r => ∀ c : Dev nD,
      r.2.mem ((c.tc : Thread nD τ).loc main_v6) = W3 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨h c _ (mem_uc main_v6 (by decide)), (h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c)⟩) (run_main m ρ)

end Cert.KernelIdeal.Hand

end
-- ==== Proof.KI.HostVal.lean ====
/-
  The host operations before the launches, read at an index in the extended reals: the query weights are multiplied
  by the constant 1/32 (the word 0x3D000000) and, like the key and value weights, narrowed to bf16 — a change of format,
  the identity here. The argument x is not written.
-/
import proofs.«423655_j6811818131541_3_alg».proof.Proof.Gen.KernelIdeal.Launch
import Idealize.ShloMosaic.Lib.StableHlo.Run
import Idealize.ShloMosaic.Lib.ValueIdx
import Idealize.ShloMosaic.PureOps.Ideal.Laws

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

section HostVal

variable (W : Valuation τ sig (Elt Ideal))

/-- A buffer's contents before and after the host operations, at literal types. -/
abbrev inX : FVec Ideal S4096x1024 .f32 := W (Proc.devRef .tc main_arg0)
abbrev inWq : FVec Ideal S1024x1024 .f32 := W (Proc.devRef .tc main_arg1)
abbrev inWk : FVec Ideal S1024x1024 .f32 := W (Proc.devRef .tc main_arg2)
abbrev inWv : FVec Ideal S1024x1024 .f32 := W (Proc.devRef .tc main_arg3)
abbrev outX : FVec Ideal S4096x1024 .f32 := StableHlo.after (hostOps0 (F := Ideal)) W (Proc.devRef .tc main_arg0)
abbrev outWq : FVec Ideal S1024x1024 .bf16 := StableHlo.after (hostOps0 (F := Ideal)) W (Proc.devRef .tc main_v2)
abbrev outWk : FVec Ideal S1024x1024 .bf16 := StableHlo.after (hostOps0 (F := Ideal)) W (Proc.devRef .tc main_v3)
abbrev outWv : FVec Ideal S1024x1024 .bf16 := StableHlo.after (hostOps0 (F := Ideal)) W (Proc.devRef .tc main_v4)

/-- The word 0x3D000000 is the single-precision pattern of 2⁻⁵: sign 0, exponent 122 = 127 − 5, fraction 0. -/
theorem ofBits_inv32 : Ideal.ofBits .f32 0x3D000000#32 = ((1 / 32 : ℝ) : EReal) := by
  simp [Ideal.ofBits, Ideal.ieee, -EReal.coe_mul]; norm_num

theorem host_x : outX W = inX W := by
  show StableHlo.after (hostOps0 (F := Ideal)) W (Proc.devRef .tc main_arg0) = W (Proc.devRef .tc main_arg0)
  dsimp only [hostOps0]
  after_results
theorem host_wq (i j : Fin 1024) : outWq W (ix2 i j) = inWq W (ix2 i j) * ((1 / 32 : ℝ) : EReal) := by
  have e : (StableHlo.after (hostOps0 (F := Ideal)) W (Proc.devRef .tc main_v2) : FVec Ideal S1024x1024 .bf16)
      = truncf .bf16 (mulf (inWq W) (broadcastInDim S1024x1024 ![] bcast_S_S1024x1024 (constant (F := Ideal) S_ .f32 0x3D000000#32))) bitsLt_bf16_f32 := by
    dsimp only [hostOps0]; after_results
  show (StableHlo.after (hostOps0 (F := Ideal)) W (Proc.devRef .tc main_v2) : FVec Ideal S1024x1024 .bf16) (ix2 i j) = _
  rw [e, truncf_apply, mulf_apply]
  congr 1
  exact ofBits_inv32
theorem host_wk (i j : Fin 1024) : outWk W (ix2 i j) = inWk W (ix2 i j) := by
  have e : (StableHlo.after (hostOps0 (F := Ideal)) W (Proc.devRef .tc main_v3) : FVec Ideal S1024x1024 .bf16)
      = truncf .bf16 (inWk W) bitsLt_bf16_f32 := by
    dsimp only [hostOps0]; after_results
  show (StableHlo.after (hostOps0 (F := Ideal)) W (Proc.devRef .tc main_v3) : FVec Ideal S1024x1024 .bf16) (ix2 i j) = _
  rw [e, truncf_apply]
theorem host_wv (i j : Fin 1024) : outWv W (ix2 i j) = inWv W (ix2 i j) := by
  have e : (StableHlo.after (hostOps0 (F := Ideal)) W (Proc.devRef .tc main_v4) : FVec Ideal S1024x1024 .bf16)
      = truncf .bf16 (inWv W) bitsLt_bf16_f32 := by
    dsimp only [hostOps0]; after_results
  show (StableHlo.after (hostOps0 (F := Ideal)) W (Proc.devRef .tc main_v4) : FVec Ideal S1024x1024 .bf16) (ix2 i j) = _
  rw [e, truncf_apply]

end HostVal

end Cert.KernelIdeal.Hand

end
-- ==== Proof.KI.Value0.lean ====
/-
  The projection launch's output arrays, entry by entry, in the extended reals.
  Grid point t handles rows 512·t … 512·t+511 of x. The three weight windows are the whole (already narrowed) weight
  matrices at every point. The body's three matrix products run into zero accumulators, so an entry of a product is the
  plain sum over the contracted axis; a change of float format is the identity. The [Q|K] block is written in two
  halves (columns 0 … 1023: x·Wq', columns 1024 … 2047: x·Wk'), the V block whole (x·Wv'); the 8 written blocks of each
  output tile its array.
-/
import proofs.«423655_j6811818131541_3_alg».proof.Proof.KI.Region0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

section Value0

variable (V : (c : Dev nD) → (b : Ref sig .tc) → Buf (Elt Ideal) ((c : Thread nD τ).loc b))

/-- The arrays the launch reads and writes, at their literal types. -/
abbrev xArr (c : Dev nD) : FVec Ideal S4096x1024 .f32 := V c main_arg0
abbrev wqArr (c : Dev nD) : FVec Ideal S1024x1024 .bf16 := V c main_v2
abbrev wkArr (c : Dev nD) : FVec Ideal S1024x1024 .bf16 := V c main_v3
abbrev wvArr (c : Dev nD) : FVec Ideal S1024x1024 .bf16 := V c main_v4
abbrev qkOut (c : Dev nD) : FVec Ideal S4096x2048 .f32 := (dat0 V c).arrAt 4 cfg0.N
abbrev vOut (c : Dev nD) : FVec Ideal S4096x1024 .bf16 := (dat0 V c).arrAt 5 cfg0.N

namespace V0

/-! ## The blocks the body leaves, at an entry -/

theorem hz2 : (![0, 0] : Fin 2 → Nat) = fun _ => 0 := funext fun a => by fin_cases a <;> rfl

/-- An entry at a column 0 … 1023 of a 512 × 2048 block lies outside the block's right half. -/
theorem notin_right (r : Fin 512) (j : Fin 1024) : (ix2 r (⟨j.val, by have := j.isLt; omega⟩ : Fin 2048) : S512x2048.Idx)
      ∉ (Rect.unit (s := S512x2048) ![0, 1024] S512x1024.size inb_S512x2048_S512x1024_0_1024).set := by
  rw [Rect.mem_set_unit]
  intro h
  have h1 := (h ⟨1, by decide⟩).1
  have h2 : 1024 ≤ j.val := h1
  have := j.isLt
  omega

/-- Entry (r, j) of a 512 × 2048 block, j < 1024, is entry (r, j) of the block's left half. -/
theorem emb_left (r : Fin 512) (j : Fin 1024) : (ix2 r (⟨j.val, by have := j.isLt; omega⟩ : Fin 2048) : S512x2048.Idx)
      = (Rect.unit (s := S512x2048) ![0, 0] S512x1024.size inb_S512x2048_S512x1024_0_0).emb (ix2 r j) :=
    funext fun a => Fin.ext (by
      match a with
      | ⟨0, _⟩ => show r.val = 0 + 1 * r.val; omega
      | ⟨1, _⟩ => show j.val = 0 + 1 * j.val; omega)

/-- Entry (r, 1024 + j) of a 512 × 2048 block is entry (r, j) of the block's right half. -/
theorem emb_right (r : Fin 512) (j : Fin 1024) : (ix2 r (⟨1024 + j.val, by have := j.isLt; omega⟩ : Fin 2048) : S512x2048.Idx)
      = (Rect.unit (s := S512x2048) ![0, 1024] S512x1024.size inb_S512x2048_S512x1024_0_1024).emb (ix2 r j) :=
    funext fun a => Fin.ext (by
      match a with
      | ⟨0, _⟩ => show r.val = 0 + 1 * r.val; omega
      | ⟨1, _⟩ => show 1024 + j.val = 1024 + 1 * j.val; omega)

/-- Two stores into a 512 × 2048 block, the later one into the right half: read at a column of the right half, the
    later store's payload. -/
theorem canon_two_right (w3 w2 : Vec Ideal S512x1024 .f32) (r : Fin 512) (j : Fin 1024) :
    View.canon (Val := Elt Ideal) (s := S512x2048) (e := .f32)
        [⟨Rect.unit (s := S512x2048) ![0, 1024] S512x1024.size inb_S512x2048_S512x1024_0_1024, w3⟩,
         ⟨Rect.unit (s := S512x2048) ![0, 0] S512x1024.size inb_S512x2048_S512x1024_0_0, w2⟩]
        (ix2 r (⟨1024 + j.val, by have := j.isLt; omega⟩ : Fin 2048)) = w3 (ix2 r j) := by
  rw [emb_right r j, View.canon_cons_emb]

/-- Read at a column of the left half: the earlier store's payload, the later store not reaching there. -/
theorem canon_two_left (w3 w2 : Vec Ideal S512x1024 .f32) (r : Fin 512) (j : Fin 1024) :
    View.canon (Val := Elt Ideal) (s := S512x2048) (e := .f32)
        [⟨Rect.unit (s := S512x2048) ![0, 1024] S512x1024.size inb_S512x2048_S512x1024_0_1024, w3⟩,
         ⟨Rect.unit (s := S512x2048) ![0, 0] S512x1024.size inb_S512x2048_S512x1024_0_0, w2⟩]
        (ix2 r (⟨j.val, by have := j.isLt; omega⟩ : Fin 2048)) = w2 (ix2 r j) := by
  refine (View.canon_cons_of_not_mem (Val := Elt Ideal) (s := S512x2048) (e := .f32)
    ⟨Rect.unit (s := S512x2048) ![0, 1024] S512x1024.size inb_S512x2048_S512x1024_0_1024, w3⟩
    [⟨Rect.unit (s := S512x2048) ![0, 0] S512x1024.size inb_S512x2048_S512x1024_0_0, w2⟩] (notin_right r j)).trans ?_
  rw [emb_left r j, View.canon_cons_emb]

/-- The [Q|K] block at a point, columns 1024 … 2047: the second store's payload. -/
theorem out0_4_right (c : Dev nD) (t : Fin cfg0.N) (r : Fin 512) (j : Fin 1024) :
    out0_4 (F := Ideal) V c t (ix2 r (⟨1024 + j.val, by have := j.isLt; omega⟩ : Fin 2048))
      = k0_pay3 (F := Ideal) (iblk0 V c 0 t) (iblk0 V c 2 t) (ix2 r j) := by
  unfold out0_4
  unfold run0
  unfold kernelRun0
  dsimp only
  simp only [View.readAt_eq_ld, Memref.IsWhole.read_unread, View.ld_unit_zero (S := S512x1024) hz2,
    View.ld_unit_zero (S := S1024x1024) hz2]
  exact canon_two_right _ _ r j

/-- Columns 0 … 1023: the first store's payload. -/
theorem out0_4_left (c : Dev nD) (t : Fin cfg0.N) (r : Fin 512) (j : Fin 1024) :
    out0_4 (F := Ideal) V c t (ix2 r (⟨j.val, by have := j.isLt; omega⟩ : Fin 2048))
      = k0_pay2 (F := Ideal) (iblk0 V c 0 t) (iblk0 V c 1 t) (ix2 r j) := by
  unfold out0_4
  unfold run0
  unfold kernelRun0
  dsimp only
  simp only [View.readAt_eq_ld, Memref.IsWhole.read_unread, View.ld_unit_zero (S := S512x1024) hz2,
    View.ld_unit_zero (S := S1024x1024) hz2]
  exact canon_two_left _ _ r j

/-- The V block at a point: its one store's payload. -/
theorem out0_5_eq (c : Dev nD) (t : Fin cfg0.N) :
    out0_5 (F := Ideal) V c t = k0_pay4 (F := Ideal) (iblk0 V c 0 t) (iblk0 V c 3 t) := by
  unfold out0_5
  unfold run0
  unfold kernelRun0
  dsimp only
  simp only [View.readAt_eq_ld, Memref.IsWhole.read_unread, View.ld_unit_zero (S := S512x1024) hz2,
    View.ld_unit_zero (S := S1024x1024) hz2]
  rw [View.canon_unit_zero hz2]

/-! ## The body's three products at an entry -/

theorem lhs_dot_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_dot_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_dot_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_dot_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- A matrix product into a zero accumulator, at entry (r, j): the sum over the contracted axis. -/
theorem matmul_zero_apply (a : FVec Ideal S512x1024 .bf16) (b : FVec Ideal S1024x1024 .bf16) (r : Fin 512) (j : Fin 1024) :
    FloatOps.matmul dot_S512x1024_S1024x1024_S512x1024_1_0_0_1_n_n none a b (constant (F := Ideal) S512x1024 .f32 0x00000000#32) (ix2 r j)
      = ∑ k : Fin 1024, a (ix2 r k) * b (ix2 k j) := by
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 r j) ((ValueIdx.contrEquiv1 dot_S512x1024_S1024x1024_S512x1024_1_0_0_1_n_n 1024 rfl rfl).symm k) = ix2 r k := funext fun a => Fin.ext (by
    match a with
    | ⟨0, _⟩ => exact lhs_dot_0 _ _
    | ⟨1, _⟩ => exact (lhs_dot_1 _ _).trans hk)
  have er : dot_S512x1024_S1024x1024_S512x1024_1_0_0_1_n_n.rhsIdx (ix2 r j) ((ValueIdx.contrEquiv1 dot_S512x1024_S1024x1024_S512x1024_1_0_0_1_n_n 1024 rfl rfl).symm k) = ix2 k j := funext fun a => Fin.ext (by
    match a with
    | ⟨0, _⟩ => exact (rhs_dot_0 _ _).trans hk
    | ⟨1, _⟩ => exact rhs_dot_1 _ _)
  rw [el, er]

/-- The left half's payload at entry (r, j): a change of float format is the identity, the product runs into zero. -/
theorem pay2_apply (x0 : Vec Ideal S512x1024 .f32) (x1 : Vec Ideal S1024x1024 .bf16) (r : Fin 512) (j : Fin 1024) :
    k0_pay2 (F := Ideal) x0 x1 (ix2 r j) = ∑ k : Fin 1024, x0 (ix2 r k) * x1 (ix2 k j) := by
  unfold k0_pay2 k0_pay1
  simp only [matmul, shapeCast_self]
  exact matmul_zero_apply _ _ r j

theorem pay3_apply (x0 : Vec Ideal S512x1024 .f32) (x2 : Vec Ideal S1024x1024 .bf16) (r : Fin 512) (j : Fin 1024) :
    k0_pay3 (F := Ideal) x0 x2 (ix2 r j) = ∑ k : Fin 1024, x0 (ix2 r k) * x2 (ix2 k j) := by
  unfold k0_pay3 k0_pay1
  simp only [matmul, shapeCast_self]
  exact matmul_zero_apply _ _ r j

theorem pay4_apply (x0 : Vec Ideal S512x1024 .f32) (x3 : Vec Ideal S1024x1024 .bf16) (r : Fin 512) (j : Fin 1024) :
    k0_pay4 (F := Ideal) x0 x3 (ix2 r j) = ∑ k : Fin 1024, x0 (ix2 r k) * x3 (ix2 k j) := by
  unfold k0_pay4 k0_pay1
  simp only [matmul, shapeCast_self]
  exact matmul_zero_apply _ _ r j

/-! ## From the blocks to the arrays -/

/-- The printed index maps over the grid: the row tile of x and of both outputs is the point's own, every other
    block index is 0. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 8 := lt_of_lt_of_eq t.isLt N_0

/-- Row r of the tile at point t is row 512·t + r of the array. -/
def rowOf (t : Fin cfg0.N) (r : Fin 512) : Fin 4096 := ⟨512 * t.val + r.val, by have := t_lt t; have := r.isLt; omega⟩

/-- The block of x at point t is rows 512·t … 512·t + 511 of x. -/
theorem xblk_apply (c : Dev nD) (t : Fin cfg0.N) (r : Fin 512) (k : Fin 1024) :
    (iblk0 (F := Ideal) V c 0 t : Vec Ideal S512x1024 .f32) (ix2 r k) = xArr V c (ix2 (rowOf t r) k) := by
  obtain ⟨e0, e1, -⟩ := idx_facts0 t
  unfold iblk0
  rw [View.read_apply]
  show V c main_arg0 _ = V c main_arg0 _
  refine congrArg (V c main_arg0) (funext fun a => Fin.ext ?_)
  match a with
  | ⟨0, _⟩ => show win0_0.index t (0 : Fin 2) * 512 + 1 * r.val = 512 * t.val + r.val; rw [e0]; omega
  | ⟨1, _⟩ => show win0_0.index t (1 : Fin 2) * 1024 + 1 * k.val = k.val; rw [e1]; omega

/-- Each weight window's block, at every point, is the whole weight matrix. -/
theorem wqblk_apply (c : Dev nD) (t : Fin cfg0.N) (k j : Fin 1024) :
    (iblk0 (F := Ideal) V c 1 t : Vec Ideal S1024x1024 .bf16) (ix2 k j) = wqArr V c (ix2 k j) := by
  obtain ⟨-, -, e0, e1, -⟩ := idx_facts0 t
  unfold iblk0
  rw [View.read_apply]
  show V c main_v2 _ = V c main_v2 _
  refine congrArg (V c main_v2) (funext fun a => Fin.ext ?_)
  match a with
  | ⟨0, _⟩ => show win0_1.index t (0 : Fin 2) * 1024 + 1 * k.val = k.val; rw [e0]; omega
  | ⟨1, _⟩ => show win0_1.index t (1 : Fin 2) * 1024 + 1 * j.val = j.val; rw [e1]; omega
theorem wkblk_apply (c : Dev nD) (t : Fin cfg0.N) (k j : Fin 1024) :
    (iblk0 (F := Ideal) V c 2 t : Vec Ideal S1024x1024 .bf16) (ix2 k j) = wkArr V c (ix2 k j) := by
  obtain ⟨-, -, -, -, e0, e1, -⟩ := idx_facts0 t
  unfold iblk0
  rw [View.read_apply]
  show V c main_v3 _ = V c main_v3 _
  refine congrArg (V c main_v3) (funext fun a => Fin.ext ?_)
  match a with
  | ⟨0, _⟩ => show win0_2.index t (0 : Fin 2) * 1024 + 1 * k.val = k.val; rw [e0]; omega
  | ⟨1, _⟩ => show win0_2.index t (1 : Fin 2) * 1024 + 1 * j.val = j.val; rw [e1]; omega
theorem wvblk_apply (c : Dev nD) (t : Fin cfg0.N) (k j : Fin 1024) :
    (iblk0 (F := Ideal) V c 3 t : Vec Ideal S1024x1024 .bf16) (ix2 k j) = wvArr V c (ix2 k j) := by
  obtain ⟨-, -, -, -, -, -, e0, e1, -⟩ := idx_facts0 t
  unfold iblk0
  rw [View.read_apply]
  show V c main_v4 _ = V c main_v4 _
  refine congrArg (V c main_v4) (funext fun a => Fin.ext ?_)
  match a with
  | ⟨0, _⟩ => show win0_3.index t (0 : Fin 2) * 1024 + 1 * k.val = k.val; rw [e0]; omega
  | ⟨1, _⟩ => show win0_3.index t (1 : Fin 2) * 1024 + 1 * j.val = j.val; rw [e1]; omega

/-- The [Q|K] array as one function of the arrays read: x·Wq' left of column 1024, x·Wk' from there on. -/
def Gqk (c : Dev nD) : FVec Ideal S4096x2048 .f32 := fun i =>
  if h : (i 1).val < 1024 then ∑ k : Fin 1024, xArr V c (ix2 (i 0) k) * wqArr V c (ix2 k (⟨(i 1).val, h⟩ : Fin 1024))
  else ∑ k : Fin 1024, xArr V c (ix2 (i 0) k) * wkArr V c (ix2 k (⟨(i 1).val - 1024, by have := idx2_lt1 i; omega⟩ : Fin 1024))

/-- The V array as one function of the arrays read: x·Wv'. -/
def Gv (c : Dev nD) : FVec Ideal S4096x1024 .bf16 := fun i =>
  ∑ k : Fin 1024, xArr V c (ix2 (i 0) k) * wvArr V c (ix2 k (i 1))

theorem Gqk_left (c : Dev nD) (n : Fin 4096) (j : Fin 1024) :
    Gqk V c (ix2 n (⟨j.val, by have := j.isLt; omega⟩ : Fin 2048)) = ∑ k : Fin 1024, xArr V c (ix2 n k) * wqArr V c (ix2 k j) := by
  unfold Gqk
  rw [dif_pos (show ((ix2 n (⟨j.val, by have := j.isLt; omega⟩ : Fin 2048) : S4096x2048.Idx) 1).val < 1024 from j.isLt)]

theorem Gqk_right (c : Dev nD) (n : Fin 4096) (j : Fin 1024) :
    Gqk V c (ix2 n (⟨1024 + j.val, by have := j.isLt; omega⟩ : Fin 2048)) = ∑ k : Fin 1024, xArr V c (ix2 n k) * wkArr V c (ix2 k j) := by
  unfold Gqk
  rw [dif_neg (show ¬((ix2 n (⟨1024 + j.val, by have := j.isLt; omega⟩ : Fin 2048) : S4096x2048.Idx) 1).val < 1024 from
    Nat.not_lt.2 (Nat.le_add_right 1024 j.val))]
  refine Finset.sum_congr rfl fun k _ => ?_
  have e : (⟨(⟨1024 + j.val, by have := j.isLt; omega⟩ : Fin 2048).val - 1024, by have := j.isLt; show 1024 + j.val - 1024 < 1024; omega⟩ : Fin 1024) = j :=
    Fin.ext (by show 1024 + j.val - 1024 = j.val; omega)
  exact congrArg (fun q => xArr V c (ix2 n k) * wkArr V c (ix2 k q)) e

/-- The [Q|K] block point t leaves, at columns 0 … 1023, is the tile's rows of x times Wq'. -/
theorem blk4_left (c : Dev nD) (t : Fin cfg0.N) (r : Fin 512) (j : Fin 1024) :
    out0_4 (F := Ideal) V c t (ix2 r (⟨j.val, by have := j.isLt; omega⟩ : Fin 2048))
      = ∑ k : Fin 1024, xArr V c (ix2 (rowOf t r) k) * wqArr V c (ix2 k j) :=
  (out0_4_left V c t r j).trans ((pay2_apply (iblk0 V c 0 t) (iblk0 V c 1 t) r j).trans
    (Finset.sum_congr rfl fun k _ => by rw [xblk_apply V c t r k, wqblk_apply V c t k j]))

/-- The [Q|K] block point t leaves, at columns 1024 … 2047, is the tile's rows of x times Wk'. -/
theorem blk4_right (c : Dev nD) (t : Fin cfg0.N) (r : Fin 512) (j : Fin 1024) :
    out0_4 (F := Ideal) V c t (ix2 r (⟨1024 + j.val, by have := j.isLt; omega⟩ : Fin 2048))
      = ∑ k : Fin 1024, xArr V c (ix2 (rowOf t r) k) * wkArr V c (ix2 k j) :=
  (out0_4_right V c t r j).trans ((pay3_apply (iblk0 V c 0 t) (iblk0 V c 2 t) r j).trans
    (Finset.sum_congr rfl fun k _ => by rw [xblk_apply V c t r k, wkblk_apply V c t k j]))

/-- The V block point t leaves is the tile's rows of x times Wv'. -/
theorem blk5_apply (c : Dev nD) (t : Fin cfg0.N) (r : Fin 512) (j : Fin 1024) :
    out0_5 (F := Ideal) V c t (ix2 r j) = ∑ k : Fin 1024, xArr V c (ix2 (rowOf t r) k) * wvArr V c (ix2 k j) :=
  (congrFun (out0_5_eq V c t) (ix2 r j)).trans ((pay4_apply (iblk0 V c 0 t) (iblk0 V c 3 t) r j).trans
    (Finset.sum_congr rfl fun k _ => by rw [xblk_apply V c t r k, wvblk_apply V c t k j]))

/-- The [Q|K] block point t leaves is the array function read at the block's place: entry y of the block against
    entry i of the array, i at row 512·t + (row of y) and the column of y. -/
theorem blk4_eq (c : Dev nD) (t : Fin cfg0.N) (y : S512x2048.Idx) (i : S4096x2048.Idx)
    (h0 : (i 0).val = 512 * t.val + (y 0).val) (h1 : (i 1).val = (y 1).val) :
    out0_4 (F := Ideal) V c t y = Gqk V c i := by
  obtain ⟨p, q, rfl⟩ : ∃ (p : Fin 512) (q : Fin 2048), y = ix2 p q := ⟨y 0, y 1, eq_ix2 y⟩
  obtain ⟨n, m, rfl⟩ : ∃ (n : Fin 4096) (m : Fin 2048), i = ix2 n m := ⟨i 0, i 1, eq_ix2 i⟩
  obtain rfl : n = rowOf t p := Fin.ext h0
  obtain rfl : m = q := Fin.ext h1
  by_cases hq : m.val < 1024
  · obtain ⟨j, rfl⟩ : ∃ j : Fin 1024, m = (⟨j.val, Nat.lt_trans j.isLt (by decide)⟩ : Fin 2048) := ⟨⟨m.val, hq⟩, rfl⟩
    exact (blk4_left V c t p j).trans (Gqk_left V c (rowOf t p) j).symm
  · obtain ⟨j, rfl⟩ : ∃ j : Fin 1024, m = (⟨1024 + j.val, Nat.add_lt_add_left j.isLt 1024⟩ : Fin 2048) :=
      ⟨⟨m.val - 1024, by have := m.isLt; omega⟩, Fin.ext (by show m.val = 1024 + (m.val - 1024); omega)⟩
    exact (blk4_right V c t p j).trans (Gqk_right V c (rowOf t p) j).symm

theorem blk5_eq (c : Dev nD) (t : Fin cfg0.N) (y : S512x1024.Idx) (i : S4096x1024.Idx)
    (h0 : (i 0).val = 512 * t.val + (y 0).val) (h1 : (i 1).val = (y 1).val) :
    out0_5 (F := Ideal) V c t y = Gv V c i := by
  obtain ⟨p, q, rfl⟩ : ∃ (p : Fin 512) (q : Fin 1024), y = ix2 p q := ⟨y 0, y 1, eq_ix2 y⟩
  obtain ⟨n, m, rfl⟩ : ∃ (n : Fin 4096) (m : Fin 1024), i = ix2 n m := ⟨i 0, i 1, eq_ix2 i⟩
  obtain rfl : n = rowOf t p := Fin.ext h0
  obtain rfl : m = q := Fin.ext h1
  exact blk5_apply V c t p m

/-- What point t writes back to the [Q|K] array is block t of the array function. -/
theorem flushed4_eq (c : Dev nD) (t : Fin cfg0.N) :
    (dat0 (F := Ideal) V c).flushed 4 t = ((cfg0.win 4).blk t).view.read (Elt Ideal) (Gqk V c) := by
  show (cfg0.win 4).cut (grid0.coords t) ((dat0 (F := Ideal) V c).after 4 t) = _
  rw [after0_4]
  obtain ⟨-, -, -, -, -, -, -, -, e0, e1, -⟩ := idx_facts0 t
  funext y
  show out0_4 (F := Ideal) V c t y = Gqk V c (((cfg0.win 4).blk t).view.emb y)
  refine blk4_eq V c t y _ ?_ ?_
  · show win0_4.index t (0 : Fin 2) * 512 + 1 * (y 0).val = 512 * t.val + (y 0).val; rw [e0]; omega
  · show win0_4.index t (1 : Fin 2) * 2048 + 1 * (y 1).val = (y 1).val; rw [e1]; omega

theorem flushed5_eq (c : Dev nD) (t : Fin cfg0.N) :
    (dat0 (F := Ideal) V c).flushed 5 t = ((cfg0.win 5).blk t).view.read (Elt Ideal) (Gv V c) := by
  show (cfg0.win 5).cut (grid0.coords t) ((dat0 (F := Ideal) V c).after 5 t) = _
  rw [after0_5]
  obtain ⟨-, -, -, -, -, -, -, -, -, -, e0, e1⟩ := idx_facts0 t
  funext y
  show out0_5 (F := Ideal) V c t y = Gv V c (((cfg0.win 5).blk t).view.emb y)
  refine blk5_eq V c t y _ ?_ ?_
  · show win0_5.index t (0 : Fin 2) * 512 + 1 * (y 0).val = 512 * t.val + (y 0).val; rw [e0]; omega
  · show win0_5.index t (1 : Fin 2) * 1024 + 1 * (y 1).val = (y 1).val; rw [e1]; omega

/-- An entry of the [Q|K] array is in point t's block iff each coordinate is in the block's range on its axis. -/
theorem mem_blk4 (t : Fin cfg0.N) (i : S4096x2048.Idx) :
    i ∈ ((cfg0.win 4).blk t).view.set ↔ ∀ a : Fin 2, win0_4.index t a * S512x2048.size a ≤ (i a).val ∧ (i a).val < win0_4.index t a * S512x2048.size a + S512x2048.size a := by
  show i ∈ ((View.whole main_v5_0).slice (win0_4.rect t)).set ↔ _
  rw [View.set_slice_whole, Rect.mem_set_unit]
  exact Iff.rfl
theorem mem_blk5 (t : Fin cfg0.N) (i : S4096x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v5_1).slice (win0_5.rect t)).set ↔ _
  rw [View.set_slice_whole, Rect.mem_set_unit]
  exact Iff.rfl

/-- Row n is in the block of point n / 512: the 8 blocks tile the array. -/
theorem cover4 (i : S4096x2048.Idx) : ∃ t : Fin cfg0.N, (cfg0.win 4).flush t = true ∧ i ∈ ((cfg0.win 4).blk t).view.set := by
  have hi0 : (i 0).val < 4096 := idx2_lt0 i
  have hi1 : (i 1).val < 2048 := idx2_lt1 i
  obtain ⟨t, ht⟩ : ∃ t : Fin cfg0.N, t.val = (i 0).val / 512 := ⟨⟨(i 0).val / 512, lt_of_lt_of_eq (by omega) N_0.symm⟩, rfl⟩
  obtain ⟨-, -, -, -, -, -, -, -, e0, e1, -⟩ := idx_facts0 t
  refine ⟨t, flush0_4 t, ?_⟩
  rw [mem_blk4]
  intro a
  match a with
  | ⟨0, _⟩ => show win0_4.index t (0 : Fin 2) * 512 ≤ (i 0).val ∧ (i 0).val < win0_4.index t (0 : Fin 2) * 512 + 512; rw [e0]; omega
  | ⟨1, _⟩ => show win0_4.index t (1 : Fin 2) * 2048 ≤ (i 1).val ∧ (i 1).val < win0_4.index t (1 : Fin 2) * 2048 + 2048; rw [e1]; omega
theorem cover5 (i : S4096x1024.Idx) : ∃ t : Fin cfg0.N, (cfg0.win 5).flush t = true ∧ i ∈ ((cfg0.win 5).blk t).view.set := by
  have hi0 : (i 0).val < 4096 := idx2_lt0 i
  have hi1 : (i 1).val < 1024 := idx2_lt1 i
  obtain ⟨t, ht⟩ : ∃ t : Fin cfg0.N, t.val = (i 0).val / 512 := ⟨⟨(i 0).val / 512, lt_of_lt_of_eq (by omega) N_0.symm⟩, rfl⟩
  obtain ⟨-, -, -, -, -, -, -, -, -, -, e0, e1⟩ := idx_facts0 t
  refine ⟨t, flush0_5 t, ?_⟩
  rw [mem_blk5]
  intro a
  match a with
  | ⟨0, _⟩ => show win0_5.index t (0 : Fin 2) * 512 ≤ (i 0).val ∧ (i 0).val < win0_5.index t (0 : Fin 2) * 512 + 512; rw [e0]; omega
  | ⟨1, _⟩ => show win0_5.index t (1 : Fin 2) * 1024 ≤ (i 1).val ∧ (i 1).val < win0_5.index t (1 : Fin 2) * 1024 + 1024; rw [e1]; omega

/-- So after the launch each output array is its function of the arrays read. -/
theorem qkOut_eq (c : Dev nD) : qkOut V c = Gqk V c :=
  (dat0 (F := Ideal) V c).arrAt_eq_of_cover 4 (Gqk V c) (fun t _ => flushed4_eq V c t) cover4
theorem vOut_eq (c : Dev nD) : vOut V c = Gv V c :=
  (dat0 (F := Ideal) V c).arrAt_eq_of_cover 5 (Gv V c) (fun t _ => flushed5_eq V c t) cover5

end V0

/-- Columns 0 … 1023 of [Q|K]: x times the scaled query weights. -/
theorem qk_left (c : Dev nD) (n : Fin 4096) (j : Fin 1024) :
    qkOut V c (ix2 n (⟨j.val, by have := j.isLt; omega⟩ : Fin 2048))
      = ∑ i : Fin 1024, xArr V c (ix2 n i) * wqArr V c (ix2 i j) :=
  (congrFun (V0.qkOut_eq V c) _).trans (V0.Gqk_left V c n j)

/-- Columns 1024 … 2047 of [Q|K]: x times the key weights. -/
theorem qk_right (c : Dev nD) (n : Fin 4096) (j : Fin 1024) :
    qkOut V c (ix2 n (⟨1024 + j.val, by have := j.isLt; omega⟩ : Fin 2048))
      = ∑ i : Fin 1024, xArr V c (ix2 n i) * wkArr V c (ix2 i j) :=
  (congrFun (V0.qkOut_eq V c) _).trans (V0.Gqk_right V c n j)

/-- The V array: x times the value weights. -/
theorem v_val (c : Dev nD) (n : Fin 4096) (j : Fin 1024) :
    vOut V c (ix2 n j) = ∑ i : Fin 1024, xArr V c (ix2 n i) * wvArr V c (ix2 i j) :=
  congrFun (V0.vOut_eq V c) (ix2 n j)

end Value0

end Cert.KernelIdeal.Hand

end
-- ==== Proof.KI.Open1.lean ====
/-
  What the attention body's runs leave, named: one key tile's update of the three carried buffers as the body's
  arithmetic applied to the query, key and value tiles and to what the point before left, and the stored output tile.
  (The runs found the pieces of each store; here each buffer's pieces are read back as one value.)
-/
import proofs.«423655_j6811818131541_3_alg».proof.Proof.KI.Region1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Open1

variable (V : (c : Dev nD) → (b : Ref sig .tc) → Buf (Elt F) ((c : Thread nD τ).loc b))

/-- The zero offsets of a whole-buffer rectangle of rank two, however spelt. -/
theorem hz2 : (![0, 0] : Fin 2 → Nat) = fun _ => 0 := funext fun a => by fin_cases a <;> rfl

/-- One key tile's update: the new maximum, denominator and numerator from the tiles q, k, v and the old three. -/
def stepS (q k : Vec F S512x1024 .f32) (v : Vec F S512x1024 .bf16)
    (p : Vec F S512x1 .f32 × Vec F S512x1 .f32 × Vec F S512x1024 .f32) :
    Vec F S512x1 .f32 × Vec F S512x1 .f32 × Vec F S512x1024 .f32 :=
  (k1_pay2 (k1_pay8 q k p.1), k1_pay11 q k p.1 p.1 p.2.1, k1_pay1 (k1_pay12 q k p.1 p.1 v p.2.2))

/-- The reset values of the three: −∞, 0, 0. -/
def resetS : Vec F S512x1 .f32 × Vec F S512x1 .f32 × Vec F S512x1024 .f32 := (k1_pay4 (F := F), k1_pay5 (F := F), k1_pay6 (F := F))

/-- First key tile: each buffer's last store covers it whole, so it holds that store's value; the loads that feed it read
    the reset values stored just before. -/
theorem scA_eq (c : Dev nD) (t : Fin cfg1.N) (hc0 : cond1_0 (grid1.coords t)) (hc1 : ¬cond1_1 (grid1.coords t)) :
    scA V c t hc0 hc1 = stepS (iblk1 V c 0 t) (iblk1 V c 1 t) (iblk1 V c 2 t) resetS := by
  unfold scA stepS resetS
  dsimp only
  refine Prod.ext ?_ (Prod.ext ?_ ?_)
  · dsimp only
    unfold kernelRun1_A
    dsimp only
    sl_unfold_words
    rw [View.canon_cons_unit_zero (S := S512x1) hz2]
    simp only [View.readCov_unit_zero (S := S512x1) _ hz2, View.readCov_unit_zero (S := S512x1024) _ hz2,
      View.readAt_eq_ld, (hs1_0 t).read_unread, (hs1_1 t).read_unread, (hs1_2 t).read_unread,
      (Memref.isWhole_whole _).read_unread, View.ld_unit_zero (S := S512x1) hz2, View.ld_unit_zero (S := S512x1024) hz2]
  · dsimp only
    unfold kernelRun1_A
    dsimp only
    sl_unfold_words
    rw [View.canon_cons_unit_zero (S := S512x1) hz2]
    simp only [View.readCov_unit_zero (S := S512x1) _ hz2, View.readCov_unit_zero (S := S512x1024) _ hz2,
      View.readAt_eq_ld, (hs1_0 t).read_unread, (hs1_1 t).read_unread, (hs1_2 t).read_unread,
      (Memref.isWhole_whole _).read_unread, View.ld_unit_zero (S := S512x1) hz2, View.ld_unit_zero (S := S512x1024) hz2]
  · dsimp only
    unfold kernelRun1_A
    dsimp only
    sl_unfold_words
    rw [View.canon_cons_unit_zero (S := S512x1024) hz2]
    simp only [View.readCov_unit_zero (S := S512x1) _ hz2, View.readCov_unit_zero (S := S512x1024) _ hz2,
      View.readAt_eq_ld, (hs1_0 t).read_unread, (hs1_1 t).read_unread, (hs1_2 t).read_unread,
      (Memref.isWhole_whole _).read_unread, View.ld_unit_zero (S := S512x1) hz2, View.ld_unit_zero (S := S512x1024) hz2]

/-- A middle key tile: each buffer holds its one whole store, whose loads read the tiles and what the point before left. -/
theorem scB_eq (c : Dev nD) (t : Fin cfg1.N) (hc0 : ¬cond1_0 (grid1.coords t)) (hc1 : ¬cond1_1 (grid1.coords t))
    (p : Vec F S512x1 .f32 × Vec F S512x1 .f32 × Vec F S512x1024 .f32) :
    scB V c t hc0 hc1 p = stepS (iblk1 V c 0 t) (iblk1 V c 1 t) (iblk1 V c 2 t) p := by
  unfold scB stepS
  dsimp only
  refine Prod.ext ?_ (Prod.ext ?_ ?_)
  · dsimp only
    unfold kernelRun1_B
    dsimp only
    sl_unfold_words
    rw [View.canon_unit_zero (S := S512x1) hz2]
    simp only [View.readAt_eq_ld, (hs1_0 t).read_unread, (hs1_1 t).read_unread, (hs1_2 t).read_unread,
      (Memref.isWhole_whole _).read_unread, View.ld_unit_zero (S := S512x1) hz2, View.ld_unit_zero (S := S512x1024) hz2]
  · dsimp only
    unfold kernelRun1_B
    dsimp only
    sl_unfold_words
    rw [View.canon_unit_zero (S := S512x1) hz2]
    simp only [View.readAt_eq_ld, (hs1_0 t).read_unread, (hs1_1 t).read_unread, (hs1_2 t).read_unread,
      (Memref.isWhole_whole _).read_unread, View.ld_unit_zero (S := S512x1) hz2, View.ld_unit_zero (S := S512x1024) hz2]
  · dsimp only
    unfold kernelRun1_B
    dsimp only
    sl_unfold_words
    rw [View.canon_unit_zero (S := S512x1024) hz2]
    simp only [View.readAt_eq_ld, (hs1_0 t).read_unread, (hs1_1 t).read_unread, (hs1_2 t).read_unread,
      (Memref.isWhole_whole _).read_unread, View.ld_unit_zero (S := S512x1) hz2, View.ld_unit_zero (S := S512x1024) hz2]

/-- The last key tile: the three buffers as in the middle case. -/
theorem scC_eq (c : Dev nD) (t : Fin cfg1.N) (hc0 : ¬cond1_0 (grid1.coords t)) (hc1 : cond1_1 (grid1.coords t))
    (p : Vec F S512x1 .f32 × Vec F S512x1 .f32 × Vec F S512x1024 .f32) :
    scC V c t hc0 hc1 p = stepS (iblk1 V c 0 t) (iblk1 V c 1 t) (iblk1 V c 2 t) p := by
  unfold scC stepS
  dsimp only
  refine Prod.ext ?_ (Prod.ext ?_ ?_)
  · dsimp only
    unfold kernelRun1_C
    dsimp only
    sl_unfold_words
    rw [View.canon_unit_zero (S := S512x1) hz2]
    simp only [View.readAt_eq_ld, (hs1_0 t).read_unread, (hs1_1 t).read_unread, (hs1_2 t).read_unread,
      (Memref.isWhole_whole _).read_unread, View.ld_unit_zero (S := S512x1) hz2, View.ld_unit_zero (S := S512x1024) hz2]
  · dsimp only
    unfold kernelRun1_C
    dsimp only
    sl_unfold_words
    rw [View.canon_unit_zero (S := S512x1) hz2]
    simp only [View.readAt_eq_ld, (hs1_0 t).read_unread, (hs1_1 t).read_unread, (hs1_2 t).read_unread,
      (Memref.isWhole_whole _).read_unread, View.ld_unit_zero (S := S512x1) hz2, View.ld_unit_zero (S := S512x1024) hz2]
  · dsimp only
    unfold kernelRun1_C
    dsimp only
    sl_unfold_words
    rw [View.canon_unit_zero (S := S512x1024) hz2]
    simp only [View.readAt_eq_ld, (hs1_0 t).read_unread, (hs1_1 t).read_unread, (hs1_2 t).read_unread,
      (Memref.isWhole_whole _).read_unread, View.ld_unit_zero (S := S512x1) hz2, View.ld_unit_zero (S := S512x1024) hz2]

/-- The stored output tile: new numerator / new denominator (its two loads read back the stores made just before). -/
theorem outC_eq (c : Dev nD) (t : Fin cfg1.N) (hc0 : ¬cond1_0 (grid1.coords t)) (hc1 : cond1_1 (grid1.coords t))
    (p : Vec F S512x1 .f32 × Vec F S512x1 .f32 × Vec F S512x1024 .f32) :
    outC V c t hc0 hc1 p
      = k1_pay3 (stepS (iblk1 V c 0 t) (iblk1 V c 1 t) (iblk1 V c 2 t) p).2.2 (stepS (iblk1 V c 0 t) (iblk1 V c 1 t) (iblk1 V c 2 t) p).2.1 := by
  unfold outC stepS
  dsimp only
  unfold kernelRun1_C
  dsimp only
  sl_unfold_words
  rw [View.canon_unit_zero (S := S512x1024) hz2]
  simp only [View.readCov_unit_zero (S := S512x1) _ hz2, View.readCov_unit_zero (S := S512x1024) _ hz2,
    View.readAt_eq_ld, (hs1_0 t).read_unread, (hs1_1 t).read_unread, (hs1_2 t).read_unread,
    (Memref.isWhole_whole _).read_unread, View.ld_unit_zero (S := S512x1) hz2, View.ld_unit_zero (S := S512x1024) hz2]

end Open1

end Cert.KernelIdeal.Hand

end
-- ==== Proof.KI.Blocks1.lean ====
/-
  From the attention launch's blocks to its arrays.
  Grid point t is query tile t / 8, key tile t % 8. The query window's block there is rows 512·(t/8) … of the left
  half (columns 0 … 1023) of [Q|K]; the key window's is rows 512·(t%8) … of the right half (columns 1024 … 2047); the
  value window's is rows 512·(t%8) … of V; the output window's is rows 512·(t/8) … of the result, written back at the
  points with t % 8 = 7, once per query tile: the 8 written blocks tile the result array.
-/
import proofs.«423655_j6811818131541_3_alg».proof.Proof.KI.Region1
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

section Blocks1

variable (V : (c : Dev nD) → (b : Ref sig .tc) → Buf (Elt F) ((c : Thread nD τ).loc b))

/-- The grid point of query tile qi, key tile kj. -/
def pt (qi kj : Fin 8) : Fin cfg1.N := ⟨8 * qi.val + kj.val, by have := N_1; have := qi.isLt; have := kj.isLt; show _ < grid1.N; omega⟩

/-- Row r of tile a, as a row of the 4096. -/
def rowOf (a : Fin 8) (r : Fin 512) : Fin 4096 := ⟨512 * a.val + r.val, by have := a.isLt; have := r.isLt; omega⟩
/-- Column j of the left / right half of [Q|K]. -/
def colL (j : Fin 1024) : Fin 2048 := ⟨j.val, by have := j.isLt; omega⟩
def colR (j : Fin 1024) : Fin 2048 := ⟨1024 + j.val, by have := j.isLt; omega⟩

/-- The three input windows' block indices, decided over the grid: the query window moves with the query tile, the
    key and value windows with the key tile; the key window sits one block to the right. -/
theorem idx1_0 : ∀ t : Fin cfg1.N, win1_0.index t (0 : Fin 2) = t.val / 8 ∧ win1_0.index t (1 : Fin 2) = 0 :=
  (by decide +kernel : ∀ t : Fin grid1.N, win1_0.index t (0 : Fin 2) = t.val / 8 ∧ win1_0.index t (1 : Fin 2) = 0)
theorem idx1_1 : ∀ t : Fin cfg1.N, win1_1.index t (0 : Fin 2) = t.val % 8 ∧ win1_1.index t (1 : Fin 2) = 1 :=
  (by decide +kernel : ∀ t : Fin grid1.N, win1_1.index t (0 : Fin 2) = t.val % 8 ∧ win1_1.index t (1 : Fin 2) = 1)
theorem idx1_2 : ∀ t : Fin cfg1.N, win1_2.index t (0 : Fin 2) = t.val % 8 ∧ win1_2.index t (1 : Fin 2) = 0 :=
  (by decide +kernel : ∀ t : Fin grid1.N, win1_2.index t (0 : Fin 2) = t.val % 8 ∧ win1_2.index t (1 : Fin 2) = 0)
theorem idx1_3 : ∀ t : Fin cfg1.N, win1_3.index t (0 : Fin 2) = t.val / 8 ∧ win1_3.index t (1 : Fin 2) = 0 :=
  (by decide +kernel : ∀ t : Fin grid1.N, win1_3.index t (0 : Fin 2) = t.val / 8 ∧ win1_3.index t (1 : Fin 2) = 0)

theorem pt_val (qi kj : Fin 8) : (pt qi kj).val = 8 * qi.val + kj.val := rfl

theorem iblk1_q (c : Dev nD) (qi kj : Fin 8) (r : Fin 512) (j : Fin 1024) :
    (iblk1 V c 0 (pt qi kj) : Vec F S512x1024 .f32) (ix2 r j) = (V c main_v5_0 : Vec F S4096x2048 .f32) (ix2 (rowOf qi r) (colL j)) := by
  obtain ⟨e0, e1⟩ := idx1_0 (pt qi kj)
  rw [pt_val] at e0
  have hq := qi.isLt; have hk := kj.isLt; have hr := r.isLt; have hj := j.isLt
  show (V c main_v5_0 : Vec F S4096x2048 .f32) (((cfg1.win 0).blk (pt qi kj)).view.emb (ix2 r j)) = _
  congr 1
  funext a; apply Fin.ext
  match a with
  | ⟨0, _⟩ => show win1_0.index (pt qi kj) (0 : Fin 2) * 512 + 1 * r.val = 512 * qi.val + r.val; omega
  | ⟨1, _⟩ => show win1_0.index (pt qi kj) (1 : Fin 2) * 1024 + 1 * j.val = j.val; omega
theorem iblk1_k (c : Dev nD) (qi kj : Fin 8) (r : Fin 512) (j : Fin 1024) :
    (iblk1 V c 1 (pt qi kj) : Vec F S512x1024 .f32) (ix2 r j) = (V c main_v5_0 : Vec F S4096x2048 .f32) (ix2 (rowOf kj r) (colR j)) := by
  obtain ⟨e0, e1⟩ := idx1_1 (pt qi kj)
  rw [pt_val] at e0
  have hq := qi.isLt; have hk := kj.isLt; have hr := r.isLt; have hj := j.isLt
  show (V c main_v5_0 : Vec F S4096x2048 .f32) (((cfg1.win 1).blk (pt qi kj)).view.emb (ix2 r j)) = _
  congr 1
  funext a; apply Fin.ext
  match a with
  | ⟨0, _⟩ => show win1_1.index (pt qi kj) (0 : Fin 2) * 512 + 1 * r.val = 512 * kj.val + r.val; omega
  | ⟨1, _⟩ => show win1_1.index (pt qi kj) (1 : Fin 2) * 1024 + 1 * j.val = 1024 + j.val; omega
theorem iblk1_v (c : Dev nD) (qi kj : Fin 8) (r : Fin 512) (d : Fin 1024) :
    (iblk1 V c 2 (pt qi kj) : Vec F S512x1024 .bf16) (ix2 r d) = (V c main_v5_1 : Vec F S4096x1024 .bf16) (ix2 (rowOf kj r) d) := by
  obtain ⟨e0, e1⟩ := idx1_2 (pt qi kj)
  rw [pt_val] at e0
  have hq := qi.isLt; have hk := kj.isLt; have hr := r.isLt; have hd := d.isLt
  show (V c main_v5_1 : Vec F S4096x1024 .bf16) (((cfg1.win 2).blk (pt qi kj)).view.emb (ix2 r d)) = _
  congr 1
  funext a; apply Fin.ext
  match a with
  | ⟨0, _⟩ => show win1_2.index (pt qi kj) (0 : Fin 2) * 512 + 1 * r.val = 512 * kj.val + r.val; omega
  | ⟨1, _⟩ => show win1_2.index (pt qi kj) (1 : Fin 2) * 1024 + 1 * d.val = d.val; omega

/-- The result array as one function of its index: row i lies in query tile i / 512, at row i % 512 of the tile that
    query tile's last key tile stores. -/
def res1_3 (c : Dev nD) : Vec F S4096x1024 .f32 := fun i =>
  out1_3 V c (pt ⟨(i 0).val / 512, by have h : (i 0).val < 4096 := (i 0).isLt; omega⟩ 7)
    (ix2 (⟨(i 0).val % 512, Nat.mod_lt _ (by omega)⟩ : Fin 512) (⟨(i 1).val, (i 1).isLt⟩ : Fin 1024))

/-- That function at row r of tile qi, column d. -/
theorem res1_3_apply (c : Dev nD) (qi : Fin 8) (r : Fin 512) (d : Fin 1024) (i : S4096x1024.Idx)
    (h0 : (i 0).val = 512 * qi.val + r.val) (h1 : (i 1).val = d.val) :
    res1_3 V c i = out1_3 V c (pt qi 7) (ix2 r d) := by
  have e : ∀ (a : Fin 8) (b : Fin 512) (d' : Fin 1024), a = qi → b = r → d' = d →
      out1_3 V c (pt a 7) (ix2 b d') = out1_3 V c (pt qi 7) (ix2 r d) := by
    rintro _ _ _ rfl rfl rfl; rfl
  have hq := qi.isLt; have hr := r.isLt
  exact e _ _ _ (Fin.ext (by show (i 0).val / 512 = qi.val; omega)) (Fin.ext (by show (i 0).val % 512 = r.val; omega))
    (Fin.ext (by show (i 1).val = d.val; exact h1))

/-- What a last key tile writes back is its block of that function. -/
theorem flushed1_3_eq (c : Dev nD) (t : Fin cfg1.N) (hf : (cfg1.win 3).flush t = true) :
    (dat1 V c).flushed 3 t = ((cfg1.win 3).blk t).view.read (Elt F) (res1_3 V c) := by
  have h7 : t.val % 8 = 7 := (flush1_3 t).mp hf
  have hN : t.val < 64 := lt_of_lt_of_eq t.isLt (show cfg1.N = 64 from N_1)
  obtain ⟨e0, e1⟩ := idx1_3 t
  show (cfg1.win 3).cut (grid1.coords t) ((dat1 V c).after 3 t) = _
  rw [after1_3]
  funext y
  have hy0 : (y 0).val < 512 := (y 0).isLt
  have hy1 : (y 1).val < 1024 := (y 1).isLt
  show out1_3 V c t ((cfg1.win 3).xinj (grid1.coords t) y) = res1_3 V c (((cfg1.win 3).blk t).view.emb y)
  rw [res1_3_apply V c ⟨t.val / 8, by omega⟩ ⟨(y 0).val, hy0⟩ ⟨(y 1).val, hy1⟩ _
    (by show win1_3.index t (0 : Fin 2) * 512 + 1 * (y 0).val = 512 * (t.val / 8) + (y 0).val; omega)
    (by show win1_3.index t (1 : Fin 2) * 1024 + 1 * (y 1).val = (y 1).val; omega)]
  have ept : pt ⟨t.val / 8, by omega⟩ 7 = t := Fin.ext (by show 8 * (t.val / 8) + 7 = t.val; omega)
  rw [ept]
  congr 1
  funext a
  match a with
  | ⟨0, _⟩ => rfl
  | ⟨1, _⟩ => rfl

/-- An index of the result array is in point t's block iff each coordinate is in the block's range on its axis. -/
theorem mem_blk1_3 (t : Fin cfg1.N) (i : S4096x1024.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v6).slice (win1_3.rect t)).set ↔ _
  rw [View.set_slice_whole, Rect.mem_set_unit]
  exact Iff.rfl

/-- Every row is in the block some last key tile writes back: row i in that of query tile i / 512. -/
theorem cover1_3 (i : S4096x1024.Idx) :
    ∃ t : Fin cfg1.N, (cfg1.win 3).flush t = true ∧ i ∈ ((cfg1.win 3).blk t).view.set := by
  have hi0 : (i 0).val < 4096 := (i 0).isLt
  have hi1 : (i 1).val < 1024 := (i 1).isLt
  refine ⟨pt ⟨(i 0).val / 512, by omega⟩ 7, (flush1_3 _).mpr (by show (8 * ((i 0).val / 512) + 7) % 8 = 7; omega), ?_⟩
  obtain ⟨e0, e1⟩ := idx1_3 (pt ⟨(i 0).val / 512, by omega⟩ 7)
  rw [pt_val] at e0
  rw [mem_blk1_3]
  intro a
  match a with
  | ⟨0, _⟩ =>
    show win1_3.index (pt ⟨(i 0).val / 512, _⟩ 7) (0 : Fin 2) * 512 ≤ (i 0).val ∧ (i 0).val < win1_3.index (pt ⟨(i 0).val / 512, _⟩ 7) (0 : Fin 2) * 512 + 512
    rw [e0]; show (8 * ((i 0).val / 512) + 7) / 8 * 512 ≤ (i 0).val ∧ (i 0).val < (8 * ((i 0).val / 512) + 7) / 8 * 512 + 512; omega
  | ⟨1, _⟩ =>
    show win1_3.index (pt ⟨(i 0).val / 512, _⟩ 7) (1 : Fin 2) * 1024 ≤ (i 1).val ∧ (i 1).val < win1_3.index (pt ⟨(i 0).val / 512, _⟩ 7) (1 : Fin 2) * 1024 + 1024
    rw [e1]; omega

/-- The result array after the launch: row r of query tile qi is row r of the tile stored at that query tile's
    last key tile. -/
theorem arrAt1_3 (c : Dev nD) (qi : Fin 8) (r : Fin 512) (d : Fin 1024) :
    ((dat1 V c).arrAt 3 cfg1.N : Vec F S4096x1024 .f32) (ix2 (rowOf qi r) d) = out1_3 V c (pt qi 7) (ix2 r d) := by
  have hA := (dat1 V c).arrAt_eq_of_cover 3 (res1_3 V c) (fun t hf => flushed1_3_eq V c t hf) (cover1_3)
  have h := congrFun hA (ix2 (rowOf qi r) d)
  exact h.trans (res1_3_apply V c qi r d _ rfl rfl)

end Blocks1

end Cert.KernelIdeal.Hand

end
-- ==== Proof.KI.Pay1.lean ====
/-
  The attention body's arithmetic read at an index, in the extended reals.
  For a query tile q and a key tile k (512 × 1024 each) the score tile is  sc q k r c = ∑ⱼ q[r,j]·k[c,j].
  With the carried row maximum m, denominator l and numerator acc, and the value tile v, one key tile does
     m' = max m (max over c of the scores),  a = e^(m − m'),  p[r,c] = e^(sc − m'),
     l' = a·l + ∑_c p[r,c],   acc'[r,d] = a·acc[r,d] + ∑_c p[r,c]·v[c,d],
  and the last key tile stores acc' / l'. A change of float format is the identity here.
-/
import proofs.«423655_j6811818131541_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.ValueIdx Cert.KernelIdeal Cert.KernelIdeal.Gen

/-- The score of query row r of the tile against key row c of the tile. -/
def sc (q k : Vec Ideal S512x1024 .f32) (r c : Fin 512) : EReal := ∑ j : Fin 1024, q (ix2 r j) * k (ix2 c j)

/-- The new running maximum of row r. -/
def newMax (q k : Vec Ideal S512x1024 .f32) (m : Vec Ideal S512x1 .f32) (r : Fin 512) : EReal :=
  max (m (ix2 r 0)) (Finset.univ.sup fun c : Fin 512 => sc q k r c)

/-! ## Constants and layout operations -/

/-- The word 0xFF800000 is −∞. -/
theorem constBot : Ideal.ofBits .f32 0xFF800000#32 = (⊥ : EReal) := by
  simp [Ideal.ofBits, Ideal.ieee]

/-- The zero word is 0. -/
theorem constZero : Ideal.ofBits .f32 0x00000000#32 = (0 : EReal) := by
  simp [Ideal.ofBits, Ideal.ieee]

/-- A column broadcast along 1024 lanes reads the column's entry of the same row. -/
theorem bcastCol1024 {α : Type} (x : S512x1.Idx → α) (r : Fin 512) (d : Fin 1024) :
    broadcastTo S512x1024 x broadcasts_S512x1_S512x1024 (ix2 r d) = x (ix2 r 0) :=
  broadcastTo_apply x broadcasts_S512x1_S512x1024 (ix2 r d) (ix2 r 0) (fun a => match a with
    | ⟨0, _⟩ => by show r.val = if (512 : Nat) = 1 then 0 else r.val; rw [if_neg (by decide)]
    | ⟨1, _⟩ => by show 0 = if (1 : Nat) = 1 then 0 else d.val; rw [if_pos rfl])

/-- A column broadcast along 512 lanes likewise. -/
theorem bcastCol512 {α : Type} (x : S512x1.Idx → α) (r c : Fin 512) :
    broadcastTo S512x512 x broadcasts_S512x1_S512x512 (ix2 r c) = x (ix2 r 0) :=
  broadcastTo_apply x broadcasts_S512x1_S512x512 (ix2 r c) (ix2 r 0) (fun a => match a with
    | ⟨0, _⟩ => by show r.val = if (512 : Nat) = 1 then 0 else r.val; rw [if_neg (by decide)]
    | ⟨1, _⟩ => by show 0 = if (1 : Nat) = 1 then 0 else c.val; rw [if_pos rfl])

/-- A vector of 512 entries viewed as a column reads entry r at (r, 0). -/
theorem castCol {α : Type} (x : S512.Idx → α) (r : Fin 512) :
    shapeCast S512x1 x shapeCasts_S512_S512x1 (ix2 r 0) = x (ix1 r) :=
  shapeCast_apply x shapeCasts_S512_S512x1 (ix2 r 0) (ix1 r) (by
    rw [Shape.rowMajor_val_one, Shape.rowMajor_val_two]
    show r.val = r.val * 1 + 0
    omega)

theorem pay1_eq (x : FVec Ideal S512x1024 .f32) : k1_pay1 (F := Ideal) x = x := by
  unfold k1_pay1
  exact shapeCast_self x _
theorem pay2_eq (x : FVec Ideal S512x1 .f32) : k1_pay2 (F := Ideal) x = x := by
  unfold k1_pay2
  exact shapeCast_self x _
theorem pay4_apply (r : Fin 512) : (k1_pay4 (F := Ideal)) (ix2 r 0) = ⊥ := by
  unfold k1_pay4
  refine (congrFun (shapeCast_self _ shapeCasts_S512x1_S512x1) (ix2 r 0)).trans ?_
  exact constBot
theorem pay5_apply (r : Fin 512) : (k1_pay5 (F := Ideal)) (ix2 r 0) = 0 := by
  unfold k1_pay5
  refine (congrFun (shapeCast_self _ shapeCasts_S512x1_S512x1) (ix2 r 0)).trans ?_
  exact constZero
theorem pay6_apply (r : Fin 512) (d : Fin 1024) : (k1_pay6 (F := Ideal)) (ix2 r d) = 0 := by
  unfold k1_pay6
  refine (congrFun (shapeCast_self _ shapeCasts_S512x1024_S512x1024) (ix2 r d)).trans ?_
  exact constZero
/-! ## The score product -/

theorem lhs_pay7_0 (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
theorem lhs_pay7_1 (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q
theorem rhs_pay7_0 (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
theorem rhs_pay7_1 (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

/-- The product contracting the second axis of both operands, into a zero accumulator, at (r, c): the sum over j of
    the left operand at (r, j) times the right at (c, j). -/
theorem matmul7_apply (a b : FVec Ideal S512x1024 .f32) (r c : Fin 512) :
    FloatOps.matmul dot_S512x1024_S512x1024_S512x512_1_1_0_0_n_n (some .fp32) a b (constant (F := Ideal) S512x512 .f32 0x00000000#32) (ix2 r c)
      = ∑ j : Fin 1024, a (ix2 r j) * b (ix2 c j) := by
  rw [Ideal.matmul_constant_zero_apply, ← Equiv.sum_comp (ValueIdx.contrEquiv1 dot_S512x1024_S512x1024_S512x512_1_1_0_0_n_n 1024 rfl rfl).symm]
  refine Finset.sum_congr rfl fun k _ => ?_
  have hk := ValueIdx.contrEquiv1_symm_val dot_S512x1024_S512x1024_S512x512_1_1_0_0_n_n 1024 rfl rfl k
  have el : dot_S512x1024_S512x1024_S512x512_1_1_0_0_n_n.lhsIdx (ix2 r c) ((ValueIdx.contrEquiv1 dot_S512x1024_S512x1024_S512x512_1_1_0_0_n_n 1024 rfl rfl).symm k) = ix2 r k := funext fun a => Fin.ext (by
    match a with
    | ⟨0, _⟩ => exact lhs_pay7_0 _ _
    | ⟨1, _⟩ => exact (lhs_pay7_1 _ _).trans hk)
  have er : dot_S512x1024_S512x1024_S512x512_1_1_0_0_n_n.rhsIdx (ix2 r c) ((ValueIdx.contrEquiv1 dot_S512x1024_S512x1024_S512x512_1_1_0_0_n_n 1024 rfl rfl).symm k) = ix2 c k := funext fun a => Fin.ext (by
    match a with
    | ⟨0, _⟩ => exact rhs_pay7_0 _ _
    | ⟨1, _⟩ => exact (rhs_pay7_1 _ _).trans hk)
  rw [el, er]

theorem pay7_apply (q k : Vec Ideal S512x1024 .f32) (r c : Fin 512) : k1_pay7 (F := Ideal) q k (ix2 r c) = sc q k r c := by
  unfold k1_pay7 sc
  have eq := shapeCast_self q shapeCasts_S512x1024_S512x1024
  have ek := shapeCast_self k shapeCasts_S512x1024_S512x1024
  exact (congrArg₂ (fun a b => FloatOps.matmul dot_S512x1024_S512x1024_S512x512_1_1_0_0_n_n (some .fp32) a b (constant (F := Ideal) S512x512 .f32 0x00000000#32) (ix2 r c)) eq ek).trans
    (matmul7_apply q k r c)
/-! ## The row maximum and the row sum over the lanes -/

/-- Row r of a 512 × 512 tile with lane k put back is the entry (r, k). -/
theorem lift_ix (r : Fin 512) (k : Fin (S512x512.size 1)) :
    reduces_S512x512_S512.lift (ix1 r) k = ix2 r (⟨k.val, k.isLt⟩ : Fin 512) := by
  funext c; apply Fin.ext
  fin_cases c <;> rfl

/-- The lane maximum from −∞ of a tile, at row r: the largest entry of the row. -/
theorem laneMax_apply (src : FVec Ideal S512x512 .f32) (hφ : FKind.Formats .f32)
    (hacc : (0xFF800000#32 : BitVec FTy.f32.bits) = FKind.maximumf.neutral .f32 hφ) (r : Fin 512) :
    multiReduction (F := Ideal) .maximumf [1] S512 src 0xFF800000#32 reduces_S512x512_S512 hφ hacc (ix1 r)
      = Finset.univ.sup fun c : Fin 512 => src (ix2 r c) := by
  refine (Ideal.multiReduction_maximumf_single src _ reduces_S512x512_S512 hφ hacc (ix1 r)).trans ?_
  have hf : (src ∘ reduces_S512x512_S512.lift (ix1 r)) = fun c : Fin 512 => src (ix2 r c) :=
    funext fun c => congrArg src (lift_ix r c)
  exact congrArg₂ (fun b f => Finset.fold max b f (Finset.univ : Finset (Fin 512))) constBot hf

/-- The lane sum of a tile, at row r: the sum of the row's entries. -/
theorem laneSum_apply (src : FVec Ideal S512x512 .f32) (hφ : FKind.Formats .f32)
    (hacc : (0x00000000#32 : BitVec FTy.f32.bits) = FKind.add.neutral .f32 hφ) (r : Fin 512) :
    multiReduction (F := Ideal) .add [1] S512 src 0x00000000#32 reduces_S512x512_S512 hφ hacc (ix1 r)
      = ∑ c : Fin 512, src (ix2 r c) := by
  refine (Ideal.multiReduction_add_single src _ reduces_S512x512_S512 hφ hacc (ix1 r)).trans ?_
  exact Finset.sum_congr rfl fun c _ => congrArg src (lift_ix r c)

theorem pay8_apply (q k : Vec Ideal S512x1024 .f32) (m : Vec Ideal S512x1 .f32) (r : Fin 512) :
    k1_pay8 (F := Ideal) q k m (ix2 r 0) = newMax q k m r := by
  unfold k1_pay8 newMax
  refine congrArg (max (m (ix2 r 0))) ?_
  refine (castCol _ r).trans ?_
  refine (laneMax_apply (k1_pay7 (F := Ideal) q k) _ _ r).trans ?_
  exact congrArg (fun f => Finset.univ.sup f) (funext fun c => pay7_apply q k r c)
theorem pay9_apply (q k : Vec Ideal S512x1024 .f32) (m m' : Vec Ideal S512x1 .f32) (r : Fin 512) :
    k1_pay9 (F := Ideal) q k m m' (ix2 r 0) = Ideal.exp (m' (ix2 r 0) - newMax q k m r) := by
  unfold k1_pay9
  exact congrArg (fun t => Ideal.exp (m' (ix2 r 0) - t)) (pay8_apply q k m r)
theorem pay10_apply (q k : Vec Ideal S512x1024 .f32) (m : Vec Ideal S512x1 .f32) (r c : Fin 512) :
    k1_pay10 (F := Ideal) q k m (ix2 r c) = Ideal.exp (sc q k r c - newMax q k m r) := by
  unfold k1_pay10
  refine congrArg₂ (fun s t => Ideal.exp (s - t)) (pay7_apply q k r c) ?_
  exact (bcastCol512 _ r c).trans (pay8_apply q k m r)
theorem pay11_apply (q k : Vec Ideal S512x1024 .f32) (m m' l : Vec Ideal S512x1 .f32) (r : Fin 512) :
    k1_pay11 (F := Ideal) q k m m' l (ix2 r 0)
      = Ideal.exp (m' (ix2 r 0) - newMax q k m r) * l (ix2 r 0) + ∑ c : Fin 512, Ideal.exp (sc q k r c - newMax q k m r) := by
  unfold k1_pay11
  refine (congrFun (shapeCast_self _ shapeCasts_S512x1_S512x1) (ix2 r 0)).trans ?_
  refine congrArg₂ (fun s t => s * l (ix2 r 0) + t) (pay9_apply q k m m' r) ?_
  refine (castCol _ r).trans ?_
  refine (laneSum_apply (k1_pay10 (F := Ideal) q k m) _ _ r).trans ?_
  exact Finset.sum_congr rfl fun c _ => pay10_apply q k m r c
/-! ## The product with the values -/

theorem lhs_pay12_0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem lhs_pay12_1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q
theorem rhs_pay12_0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q
theorem rhs_pay12_1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-- The plain product of a 512 × 512 tile with a 512 × 1024 tile, into a zero accumulator, at (r, d): the sum over c of
    the left operand at (r, c) times the right at (c, d). -/
theorem matmul12_apply (a : FVec Ideal S512x512 .bf16) (b : FVec Ideal S512x1024 .bf16) (r : Fin 512) (d : Fin 1024) :
    FloatOps.matmul dot_S512x512_S512x1024_S512x1024_1_0_0_1_n_n none a b (constant (F := Ideal) S512x1024 .f32 0x00000000#32) (ix2 r d)
      = ∑ c : Fin 512, a (ix2 r c) * b (ix2 c d) := by
  rw [Ideal.matmul_constant_zero_apply, ← Equiv.sum_comp (ValueIdx.contrEquiv1 dot_S512x512_S512x1024_S512x1024_1_0_0_1_n_n 512 rfl rfl).symm]
  refine Finset.sum_congr rfl fun k _ => ?_
  have hk := ValueIdx.contrEquiv1_symm_val dot_S512x512_S512x1024_S512x1024_1_0_0_1_n_n 512 rfl rfl k
  have el : dot_S512x512_S512x1024_S512x1024_1_0_0_1_n_n.lhsIdx (ix2 r d) ((ValueIdx.contrEquiv1 dot_S512x512_S512x1024_S512x1024_1_0_0_1_n_n 512 rfl rfl).symm k) = ix2 r k := funext fun a => Fin.ext (by
    match a with
    | ⟨0, _⟩ => exact lhs_pay12_0 _ _
    | ⟨1, _⟩ => exact (lhs_pay12_1 _ _).trans hk)
  have er : dot_S512x512_S512x1024_S512x1024_1_0_0_1_n_n.rhsIdx (ix2 r d) ((ValueIdx.contrEquiv1 dot_S512x512_S512x1024_S512x1024_1_0_0_1_n_n 512 rfl rfl).symm k) = ix2 k d := funext fun a => Fin.ext (by
    match a with
    | ⟨0, _⟩ => exact (rhs_pay12_0 _ _).trans hk
    | ⟨1, _⟩ => exact rhs_pay12_1 _ _)
  rw [el, er]

theorem pay12_apply (q k : Vec Ideal S512x1024 .f32) (m m' : Vec Ideal S512x1 .f32) (v : Vec Ideal S512x1024 .bf16)
    (acc : Vec Ideal S512x1024 .f32) (r : Fin 512) (d : Fin 1024) :
    k1_pay12 (F := Ideal) q k m m' v acc (ix2 r d)
      = Ideal.exp (m' (ix2 r 0) - newMax q k m r) * acc (ix2 r d)
        + ∑ c : Fin 512, Ideal.exp (sc q k r c - newMax q k m r) * v (ix2 c d) := by
  unfold k1_pay12
  have ev := shapeCast_self v shapeCasts_S512x1024_S512x1024
  refine congrArg₂ (fun s t => s * acc (ix2 r d) + t) ((bcastCol1024 _ r d).trans (pay9_apply q k m m' r)) ?_
  refine (congrArg (fun b => FloatOps.matmul dot_S512x512_S512x1024_S512x1024_1_0_0_1_n_n none (truncf .bf16 (k1_pay10 (F := Ideal) q k m) bitsLt_bf16_f32) b
    (constant (F := Ideal) S512x1024 .f32 0x00000000#32) (ix2 r d)) ev).trans ?_
  refine (matmul12_apply _ v r d).trans ?_
  exact Finset.sum_congr rfl fun c _ => congrArg (· * v (ix2 c d)) (pay10_apply q k m r c)
theorem pay3_apply (acc : Vec Ideal S512x1024 .f32) (l : Vec Ideal S512x1 .f32) (r : Fin 512) (d : Fin 1024) :
    k1_pay3 (F := Ideal) acc l (ix2 r d) = Ideal.div (acc (ix2 r d)) (l (ix2 r 0)) := by
  unfold k1_pay3
  exact congrArg (Ideal.div (acc (ix2 r d))) (bcastCol1024 l r d)

end Cert.KernelIdeal.Hand

end
-- ==== Proof.Spec.lean ====
/-
  Single-head attention on the reals, row by row, and the streaming ("online") evaluation of a softmax row.

  For one query row, let s : Fin 4096 → ℝ be its scaled scores against the 4096 keys and v : Fin 4096 → ℝ one
  column of the values. The row of the result is  (∑ₘ e^(s m − M) · v m) / (∑ₘ e^(s m − M)),  M = maxₘ s m
  (`attnRow`). The reference evaluates it as  ∑ₘ (e^(s m − M) / ∑ₘ' e^(s m' − M)) · v m  (`refRow`): the same
  number, the denominator being positive.
  A streaming evaluation visits the keys in 8 tiles of 512 and keeps, after k tiles, the running maximum
  (`pmaxE s k`, −∞ before the first tile), the running denominator `pden s k` and numerator `pnum s v k`, both
  taken relative to the running maximum. One more tile rescales both by e^(old max − new max) and adds the
  tile's terms (`pmaxE_succ`, `pden_succ`, `pnum_succ`); with e^(−∞) = 0 the first tile needs no special case.
  After the 8th tile numerator / denominator is `attnRow` (`online_final`).
  The scores themselves: the kernel scales the query weights by 1/32 before projecting, the reference divides the
  finished scores by 32 (`scoreK_eq_scoreR`).
-/
import Idealize.ShloMosaic.PureOps.Ideal

noncomputable section

namespace Cert.Attn

open Idealize.ShloMosaic

/-! ## Scores -/

/-- The kernel's score of query row n against key row m: the query weights scaled by 1/32 first. -/
def scoreK (x : Fin 4096 → Fin 1024 → ℝ) (wq wk : Fin 1024 → Fin 1024 → ℝ) (n m : Fin 4096) : ℝ :=
  ∑ j : Fin 1024, (∑ i : Fin 1024, x n i * (wq i j * (1 / 32))) * (∑ i : Fin 1024, x m i * wk i j)

/-- The reference's: the finished score divided by 32. -/
def scoreR (x : Fin 4096 → Fin 1024 → ℝ) (wq wk : Fin 1024 → Fin 1024 → ℝ) (n m : Fin 4096) : ℝ :=
  (∑ j : Fin 1024, (∑ i : Fin 1024, x n i * wq i j) * (∑ i : Fin 1024, x m i * wk i j)) / 32

theorem scoreK_eq_scoreR (x : Fin 4096 → Fin 1024 → ℝ) (wq wk : Fin 1024 → Fin 1024 → ℝ) (n m : Fin 4096) :
    scoreK x wq wk n m = scoreR x wq wk n m := by
  unfold scoreK scoreR
  rw [Finset.sum_div]
  refine Finset.sum_congr rfl fun j _ => ?_
  have h : (∑ i : Fin 1024, x n i * (wq i j * (1 / 32))) = (∑ i : Fin 1024, x n i * wq i j) * (1 / 32) := by
    rw [Finset.sum_mul]
    refine Finset.sum_congr rfl fun i _ => ?_
    ring
  rw [h]
  ring

/-! ## One row of the result -/

/-- The largest score of the row. -/
def rowMax (s : Fin 4096 → ℝ) : ℝ := Finset.univ.sup' Finset.univ_nonempty s

/-- numerator / denominator. -/
def attnRow (s v : Fin 4096 → ℝ) : ℝ :=
  (∑ m : Fin 4096, Real.exp (s m - rowMax s) * v m) / (∑ m : Fin 4096, Real.exp (s m - rowMax s))

/-- the normalised weights first, then the weighted sum. -/
def refRow (s v : Fin 4096 → ℝ) : ℝ :=
  ∑ m : Fin 4096, (Real.exp (s m - rowMax s) / ∑ m' : Fin 4096, Real.exp (s m' - rowMax s)) * v m

theorem refRow_eq_attnRow (s v : Fin 4096 → ℝ) : refRow s v = attnRow s v := by
  unfold refRow attnRow
  rw [Finset.sum_div]
  refine Finset.sum_congr rfl fun m _ => ?_
  rw [div_mul_eq_mul_div]

theorem den_pos (s : Fin 4096 → ℝ) : 0 < ∑ m : Fin 4096, Real.exp (s m - rowMax s) := by
  exact Finset.sum_pos (fun m _ => Real.exp_pos _) Finset.univ_nonempty

/-- The whole result on the reals: row n, column d. -/
def G (x : Fin 4096 → Fin 1024 → ℝ) (wq wk wv : Fin 1024 → Fin 1024 → ℝ) (n : Fin 4096) (d : Fin 1024) : ℝ :=
  attnRow (fun m => scoreR x wq wk n m) (fun m => ∑ i : Fin 1024, x m i * wv i d)

/-! ## The streaming evaluation -/

/-- The keys of the first k tiles. -/
def seen (k : ℕ) : Finset (Fin 4096) := Finset.univ.filter fun m => m.val < 512 * k

/-- Key c of tile k. -/
def tileIdx (k : ℕ) (hk : k < 8) (c : Fin 512) : Fin 4096 := ⟨512 * k + c.val, by have := c.isLt; omega⟩

/-- The running maximum after k tiles, −∞ before the first. -/
def pmaxE (s : Fin 4096 → ℝ) (k : ℕ) : EReal := (seen k).sup fun m => (s m : EReal)

/-- The running denominator after k tiles, relative to the running maximum. -/
def pden (s : Fin 4096 → ℝ) (k : ℕ) : ℝ := ∑ m ∈ seen k, Real.exp (s m - (pmaxE s k).toReal)

/-- The running numerator. -/
def pnum (s v : Fin 4096 → ℝ) (k : ℕ) : ℝ := ∑ m ∈ seen k, Real.exp (s m - (pmaxE s k).toReal) * v m

/-- Before the first tile no key has been seen. -/
theorem seen_zero : seen 0 = ∅ := by
  ext m
  simp [seen]

/-- After the last tile every key has been seen. -/
theorem seen_eight : seen 8 = Finset.univ := by
  ext m
  have := m.isLt
  simp only [seen, Finset.mem_filter, Finset.mem_univ, true_and, iff_true]
  omega

theorem tileIdx_injective (k : ℕ) (hk : k < 8) : Function.Injective (tileIdx k hk) := by
  intro a b h
  have h' := congrArg Fin.val h
  simp only [tileIdx] at h'
  exact Fin.ext (by omega)

/-- One more tile: the keys seen are the old ones together with the tile's. -/
theorem seen_succ (k : ℕ) (hk : k < 8) :
    seen (k + 1) = seen k ∪ Finset.univ.image (tileIdx k hk) := by
  ext m
  simp only [seen, Finset.mem_filter, Finset.mem_univ, true_and, Finset.mem_union, Finset.mem_image]
  constructor
  · intro h
    by_cases h' : m.val < 512 * k
    · exact Or.inl h'
    · refine Or.inr ⟨⟨m.val - 512 * k, by omega⟩, ?_⟩
      apply Fin.ext
      simp only [tileIdx]
      omega
  · rintro (h | ⟨c, hc⟩)
    · omega
    · have := c.isLt
      have h' := congrArg Fin.val hc
      simp only [tileIdx] at h'
      omega

theorem seen_disjoint (k : ℕ) (hk : k < 8) : Disjoint (seen k) (Finset.univ.image (tileIdx k hk)) := by
  rw [Finset.disjoint_left]
  intro m hm hm'
  simp only [seen, Finset.mem_filter, Finset.mem_univ, true_and] at hm
  obtain ⟨c, -, hc⟩ := Finset.mem_image.mp hm'
  have h' := congrArg Fin.val hc
  simp only [tileIdx] at h'
  omega

theorem seen_succ_nonempty (k : ℕ) : (seen (k + 1)).Nonempty := by
  refine ⟨⟨0, by norm_num⟩, ?_⟩
  simp only [seen, Finset.mem_filter, Finset.mem_univ, true_and]
  omega

/-- The coercion of a finite sum of reals is the sum of the coercions. -/
theorem coe_finset_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The denominator is the numerator against the constant column 1. -/
theorem pden_eq_pnum_one (s : Fin 4096 → ℝ) (k : ℕ) : pden s k = pnum s (fun _ => 1) k := by
  simp only [pden, pnum, mul_one]

theorem pmaxE_zero (s : Fin 4096 → ℝ) : pmaxE s 0 = ⊥ := by
  rw [pmaxE, seen_zero, Finset.sup_empty]
theorem pden_zero (s : Fin 4096 → ℝ) : pden s 0 = 0 := by
  rw [pden, seen_zero, Finset.sum_empty]
theorem pnum_zero (s v : Fin 4096 → ℝ) : pnum s v 0 = 0 := by
  rw [pnum, seen_zero, Finset.sum_empty]

/-- After at least one tile the running maximum is a real number. -/
theorem pmaxE_succ_coe (s : Fin 4096 → ℝ) (k : ℕ) : ∃ r : ℝ, pmaxE s (k + 1) = (r : EReal) := by
  obtain ⟨m, -, hm⟩ := Finset.exists_mem_eq_sup (seen (k + 1)) (seen_succ_nonempty k) fun m => (s m : EReal)
  exact ⟨s m, hm⟩

/-- One more tile: the maximum. -/
theorem pmaxE_succ (s : Fin 4096 → ℝ) (k : ℕ) (hk : k < 8) :
    pmaxE s (k + 1) = max (pmaxE s k) (Finset.univ.sup fun c : Fin 512 => (s (tileIdx k hk c) : EReal)) := by
  rw [pmaxE, pmaxE, seen_succ k hk, Finset.sup_union, Finset.sup_image]
  rfl

/-- One more tile, on the reals: rescale the old numerator by e^(old max − new max) and add the tile's terms. -/
theorem pnum_succ_real (s v : Fin 4096 → ℝ) (k : ℕ) (hk : k < 8) :
    pnum s v (k + 1)
      = Real.exp ((pmaxE s k).toReal - (pmaxE s (k + 1)).toReal) * pnum s v k
        + ∑ c : Fin 512, Real.exp (s (tileIdx k hk c) - (pmaxE s (k + 1)).toReal) * v (tileIdx k hk c) := by
  unfold pnum
  rw [seen_succ k hk, Finset.sum_union (seen_disjoint k hk),
    Finset.sum_image (fun a _ b _ h => tileIdx_injective k hk h), Finset.mul_sum]
  congr 1
  refine Finset.sum_congr rfl fun m _ => ?_
  rw [← mul_assoc, ← Real.exp_add]
  congr 2
  ring

/-- One more tile in the extended reals, for an arbitrary column v. -/
theorem pnum_succ_aux (s v : Fin 4096 → ℝ) (k : ℕ) (hk : k < 8) :
    ((pnum s v (k + 1) : ℝ) : EReal)
      = Ideal.exp (pmaxE s k - pmaxE s (k + 1)) * ((pnum s v k : ℝ) : EReal)
        + ∑ c : Fin 512, Ideal.exp ((s (tileIdx k hk c) : EReal) - pmaxE s (k + 1)) * ((v (tileIdx k hk c) : ℝ) : EReal) := by
  obtain ⟨r', hr'⟩ := pmaxE_succ_coe s k
  have h1 : ((Real.exp ((pmaxE s k).toReal - (pmaxE s (k + 1)).toReal) : ℝ) : EReal) * ((pnum s v k : ℝ) : EReal)
      = Ideal.exp (pmaxE s k - pmaxE s (k + 1)) * ((pnum s v k : ℝ) : EReal) := by
    cases k with
    | zero => rw [pnum_zero, EReal.coe_zero, mul_zero, mul_zero]
    | succ j =>
      obtain ⟨r, hr⟩ := pmaxE_succ_coe s j
      rw [hr, hr', EReal.toReal_coe, EReal.toReal_coe, ← EReal.coe_sub, Ideal.exp_coe]
  have h2 : ∀ c : Fin 512,
      ((Real.exp (s (tileIdx k hk c) - (pmaxE s (k + 1)).toReal) * v (tileIdx k hk c) : ℝ) : EReal)
        = Ideal.exp ((s (tileIdx k hk c) : EReal) - pmaxE s (k + 1)) * ((v (tileIdx k hk c) : ℝ) : EReal) := by
    intro c
    rw [hr', EReal.toReal_coe, ← EReal.coe_sub, Ideal.exp_coe, EReal.coe_mul]
  rw [pnum_succ_real s v k hk, EReal.coe_add, EReal.coe_mul, coe_finset_sum, h1]
  exact congrArg _ (Finset.sum_congr rfl fun c _ => h2 c)

/-- One more tile: the denominator, in the extended reals with e^(−∞) = 0. -/
theorem pden_succ (s : Fin 4096 → ℝ) (k : ℕ) (hk : k < 8) :
    ((pden s (k + 1) : ℝ) : EReal)
      = Ideal.exp (pmaxE s k - pmaxE s (k + 1)) * ((pden s k : ℝ) : EReal)
        + ∑ c : Fin 512, Ideal.exp ((s (tileIdx k hk c) : EReal) - pmaxE s (k + 1)) := by
  have h := pnum_succ_aux s (fun _ => 1) k hk
  simp only [← pden_eq_pnum_one, EReal.coe_one, mul_one] at h
  exact h

/-- One more tile: the numerator. -/
theorem pnum_succ (s v : Fin 4096 → ℝ) (k : ℕ) (hk : k < 8) :
    ((pnum s v (k + 1) : ℝ) : EReal)
      = Ideal.exp (pmaxE s k - pmaxE s (k + 1)) * ((pnum s v k : ℝ) : EReal)
        + ∑ c : Fin 512, Ideal.exp ((s (tileIdx k hk c) : EReal) - pmaxE s (k + 1)) * ((v (tileIdx k hk c) : ℝ) : EReal) := by
  exact pnum_succ_aux s v k hk

/-- After the last tile the running maximum is the row's maximum. -/
theorem pmaxE_eight (s : Fin 4096 → ℝ) : pmaxE s 8 = ((rowMax s : ℝ) : EReal) := by
  rw [pmaxE, seen_eight]
  apply le_antisymm
  · refine Finset.sup_le fun m _ => ?_
    exact EReal.coe_le_coe_iff.mpr (Finset.le_sup' s (Finset.mem_univ m))
  · obtain ⟨i, hi, h⟩ := Finset.exists_mem_eq_sup' (Finset.univ_nonempty (α := Fin 4096)) s
    rw [rowMax, h]
    exact Finset.le_sup (f := fun m => (s m : EReal)) hi

/-- After the last tile: numerator / denominator (the extended reals' quotient) is the row of the result. -/
theorem online_final (s v : Fin 4096 → ℝ) :
    Ideal.div ((pnum s v 8 : ℝ) : EReal) ((pden s 8 : ℝ) : EReal) = ((attnRow s v : ℝ) : EReal) := by
  have hden : pden s 8 = ∑ m : Fin 4096, Real.exp (s m - rowMax s) := by
    rw [pden, pmaxE_eight, EReal.toReal_coe, seen_eight]
  have hnum : pnum s v 8 = ∑ m : Fin 4096, Real.exp (s m - rowMax s) * v m := by
    rw [pnum, pmaxE_eight, EReal.toReal_coe, seen_eight]
  have hne : pden s 8 ≠ 0 := by
    rw [hden]
    exact (den_pos s).ne'
  rw [Ideal.div_coe hne, ← EReal.coe_mul, attnRow, ← hden, ← hnum, mul_one_div]

end Cert.Attn

end
-- ==== Proof.KI.Value1.lean ====
/-
  The attention launch's result, entry by entry, on real inputs: the streaming softmax is the softmax.
  Fix a query row n = 512·qi + r. Walking the key tiles kj = 0 … 7 of its query tile, after tile kj the three carried
  buffers hold, at row r: the running maximum of the row's scores over the keys seen (Attn.pmaxE, −∞ before the first
  tile, which the reset writes), the running denominator Attn.pden and, at column d, the running numerator Attn.pnum
  — by induction on kj from the body's arithmetic read at an index and the one-more-tile laws of the streaming
  evaluation. The last key tile stores numerator / denominator, which is the softmax row against the values
  (Attn.online_final), and that tile is what the result array holds at row n.
-/
import proofs.«423655_j6811818131541_3_alg».proof.Proof.KI.Open1
import proofs.«423655_j6811818131541_3_alg».proof.Proof.KI.Blocks1
import proofs.«423655_j6811818131541_3_alg».proof.Proof.KI.Pay1
import proofs.«423655_j6811818131541_3_alg».proof.Proof.Spec

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-! ## One key tile at a row -/

section Step

open Cert.Attn

variable (q k : Vec Ideal S512x1024 .f32) (v : Vec Ideal S512x1024 .bf16)
  (p : Vec Ideal S512x1 .f32 × Vec Ideal S512x1 .f32 × Vec Ideal S512x1024 .f32)
  (s : Fin 4096 → ℝ) (kj : ℕ) (hkj : kj < 8) (r : Fin 512)

/-- The new maximum of row r: the old one and the tile's scores. -/
theorem newMax_row (hsc : ∀ c : Fin 512, sc q k r c = ((s (tileIdx kj hkj c) : ℝ) : EReal))
    (hm : p.1 (ix2 r 0) = pmaxE s kj) : newMax q k p.1 r = pmaxE s (kj + 1) := by
  unfold newMax
  rw [hm, pmaxE_succ s kj hkj]
  exact congrArg (fun f => max (pmaxE s kj) (Finset.univ.sup f)) (funext hsc)

/-- After one more key tile the maximum buffer holds, at row r, the running maximum over the keys seen. -/
theorem step_max (hsc : ∀ c : Fin 512, sc q k r c = ((s (tileIdx kj hkj c) : ℝ) : EReal))
    (hm : p.1 (ix2 r 0) = pmaxE s kj) : (stepS q k v p).1 (ix2 r 0) = pmaxE s (kj + 1) := by
  show k1_pay2 (F := Ideal) (k1_pay8 (F := Ideal) q k p.1) (ix2 r 0) = _
  rw [pay2_eq, pay8_apply]
  exact newMax_row q k p s kj hkj r hsc hm

/-- … the denominator buffer the running denominator … -/
theorem step_den (hsc : ∀ c : Fin 512, sc q k r c = ((s (tileIdx kj hkj c) : ℝ) : EReal))
    (hm : p.1 (ix2 r 0) = pmaxE s kj) (hl : p.2.1 (ix2 r 0) = ((pden s kj : ℝ) : EReal)) :
    (stepS q k v p).2.1 (ix2 r 0) = ((pden s (kj + 1) : ℝ) : EReal) := by
  show k1_pay11 (F := Ideal) q k p.1 p.1 p.2.1 (ix2 r 0) = _
  rw [pay11_apply, newMax_row q k p s kj hkj r hsc hm, hm, hl, pden_succ s kj hkj]
  exact congrArg (fun f : Fin 512 → EReal => Ideal.exp (pmaxE s kj - pmaxE s (kj + 1)) * ((pden s kj : ℝ) : EReal) + ∑ c : Fin 512, f c)
    (funext fun c => by rw [hsc c])

/-- … and the numerator buffer, at column d, the running numerator against that column of the values. -/
theorem step_num (vr : Fin 4096 → ℝ) (d : Fin 1024)
    (hsc : ∀ c : Fin 512, sc q k r c = ((s (tileIdx kj hkj c) : ℝ) : EReal))
    (hv : ∀ c : Fin 512, v (ix2 c d) = ((vr (tileIdx kj hkj c) : ℝ) : EReal))
    (hm : p.1 (ix2 r 0) = pmaxE s kj) (hacc : p.2.2 (ix2 r d) = ((pnum s vr kj : ℝ) : EReal)) :
    (stepS q k v p).2.2 (ix2 r d) = ((pnum s vr (kj + 1) : ℝ) : EReal) := by
  show k1_pay1 (F := Ideal) (k1_pay12 (F := Ideal) q k p.1 p.1 v p.2.2) (ix2 r d) = _
  rw [pay1_eq, pay12_apply, newMax_row q k p s kj hkj r hsc hm, hm, hacc, pnum_succ s vr kj hkj]
  exact congrArg (fun f : Fin 512 → EReal => Ideal.exp (pmaxE s kj - pmaxE s (kj + 1)) * ((pnum s vr kj : ℝ) : EReal) + ∑ c : Fin 512, f c)
    (funext fun c => by rw [hsc c, hv c])

end Step

section Value1

variable (V : (c : Dev nD) → (b : Ref sig .tc) → Buf (Elt Ideal) ((c : Thread nD τ).loc b))

/-- The arrays the launch reads and writes, at their literal types. -/
abbrev qkArr (c : Dev nD) : FVec Ideal S4096x2048 .f32 := V c main_v5_0
abbrev vArr (c : Dev nD) : FVec Ideal S4096x1024 .bf16 := V c main_v5_1
abbrev outArr (c : Dev nD) : FVec Ideal S4096x1024 .f32 := (dat1 V c).arrAt 3 cfg1.N

/-! ## The carried buffers along a query tile's key tiles -/

/-- The recurrence does not depend on how the point's number is written. -/
theorem scAt1_congr (c : Dev nD) (a b : ℕ) (ha : a < cfg1.N) (hb : b < cfg1.N) (e : a = b) :
    scAt1 V c a ha = scAt1 V c b hb := by
  subst e; rfl

/-- At a query tile's first key tile: one update of the reset values. -/
theorem scAt1_first (c : Dev nD) (qi : Fin 8) :
    scAt1 V c (pt qi ⟨0, by omega⟩).val (pt qi ⟨0, by omega⟩).isLt
      = stepS (iblk1 V c 0 (pt qi ⟨0, by omega⟩)) (iblk1 V c 1 (pt qi ⟨0, by omega⟩)) (iblk1 V c 2 (pt qi ⟨0, by omega⟩)) resetS := by
  have hv : (pt qi ⟨0, by omega⟩).val = 8 * qi.val + 0 := rfl
  have h0 : (pt qi ⟨0, by omega⟩).val % 8 = 0 := by rw [hv]; omega
  have h1 : ¬(pt qi ⟨0, by omega⟩).val % 8 = 7 := by rw [hv]; omega
  rw [scAt1_A V c _ h0 h1, scA_eq]

/-- At a later key tile: one update of what the key tile before left. -/
theorem scAt1_next (c : Dev nD) (qi : Fin 8) (kj : ℕ) (hkj : kj + 1 < 8) :
    scAt1 V c (pt qi ⟨kj + 1, hkj⟩).val (pt qi ⟨kj + 1, hkj⟩).isLt
      = stepS (iblk1 V c 0 (pt qi ⟨kj + 1, hkj⟩)) (iblk1 V c 1 (pt qi ⟨kj + 1, hkj⟩)) (iblk1 V c 2 (pt qi ⟨kj + 1, hkj⟩))
          (scAt1 V c (pt qi ⟨kj, by omega⟩).val (pt qi ⟨kj, by omega⟩).isLt) := by
  have hv : (pt qi ⟨kj + 1, hkj⟩).val = 8 * qi.val + (kj + 1) := rfl
  have hv' : (pt qi ⟨kj, by omega⟩).val = 8 * qi.val + kj := rfl
  have h0 : ¬(pt qi ⟨kj + 1, hkj⟩).val % 8 = 0 := by rw [hv]; omega
  have hp : scAt1 V c ((pt qi ⟨kj + 1, hkj⟩).val - 1) (Nat.lt_of_le_of_lt (Nat.sub_le _ _) (pt qi ⟨kj + 1, hkj⟩).isLt)
      = scAt1 V c (pt qi ⟨kj, by omega⟩).val (pt qi ⟨kj, by omega⟩).isLt :=
    scAt1_congr V c _ _ _ _ (by rw [hv, hv']; omega)
  by_cases h1 : (pt qi ⟨kj + 1, hkj⟩).val % 8 = 7
  · rw [scAt1_C V c _ h0 h1, scC_eq, hp]
  · rw [scAt1_B V c _ h0 h1, scB_eq, hp]

/-- The tile stored at a query tile's last key tile: numerator / denominator as that tile leaves them. -/
theorem out1_3_last (c : Dev nD) (qi : Fin 8) :
    out1_3 V c (pt qi 7)
      = k1_pay3 (scAt1 V c (pt qi 7).val (pt qi 7).isLt).2.2 (scAt1 V c (pt qi 7).val (pt qi 7).isLt).2.1 := by
  have hv : (pt qi 7).val = 8 * qi.val + 7 := rfl
  have h1 : (pt qi 7).val % 8 = 7 := by rw [hv]; omega
  have h0 : ¬(pt qi 7).val % 8 = 0 := by rw [hv]; omega
  unfold out1_3
  rw [dif_pos h1, outC_eq, scAt1_C V c (pt qi 7) h0 h1, scC_eq]

/-! ## The invariant along the key tiles, and the result -/

section Invariant

open Cert.Attn

variable (c : Dev nD) (Qr Kr Vr : Fin 4096 → Fin 1024 → ℝ)

/-- Query row n's scores against the 4096 keys. -/
def scores (n : Fin 4096) : Fin 4096 → ℝ := fun m => ∑ j : Fin 1024, Qr n j * Kr m j

/-- The score tile at query tile qi, key tile kj holds the scores of the tile's query rows against the tile's keys. -/
theorem blk_sc (hQ : ∀ n j, qkArr V c (ix2 n (colL j)) = ((Qr n j : ℝ) : EReal))
    (hK : ∀ n j, qkArr V c (ix2 n (colR j)) = ((Kr n j : ℝ) : EReal))
    (qi : Fin 8) (kj : ℕ) (hkj : kj < 8) (r c' : Fin 512) :
    sc (iblk1 V c 0 (pt qi ⟨kj, hkj⟩)) (iblk1 V c 1 (pt qi ⟨kj, hkj⟩)) r c'
      = ((scores Qr Kr (rowOf qi r) (tileIdx kj hkj c') : ℝ) : EReal) := by
  unfold sc scores
  rw [Cert.Attn.coe_finset_sum]
  refine Finset.sum_congr rfl fun j _ => ?_
  rw [EReal.coe_mul]
  exact congrArg₂ (fun a b : EReal => a * b) ((iblk1_q V c qi ⟨kj, hkj⟩ r j).trans (hQ _ _))
    ((iblk1_k V c qi ⟨kj, hkj⟩ c' j).trans (hK _ _))

/-- The value tile at key tile kj holds the values of the tile's keys. -/
theorem blk_v (hV : ∀ n d, vArr V c (ix2 n d) = ((Vr n d : ℝ) : EReal))
    (qi : Fin 8) (kj : ℕ) (hkj : kj < 8) (c' : Fin 512) (d : Fin 1024) :
    (iblk1 V c 2 (pt qi ⟨kj, hkj⟩) : Vec Ideal S512x1024 .bf16) (ix2 c' d) = ((Vr (tileIdx kj hkj c') d : ℝ) : EReal) :=
  (iblk1_v V c qi ⟨kj, hkj⟩ c' d).trans (hV _ _)

/-- After key tile kj of query tile qi the three carried buffers hold, at row r, the running maximum, denominator and
    (at every column) numerator of that query row over the keys of tiles 0 … kj. -/
theorem carried (hQ : ∀ n j, qkArr V c (ix2 n (colL j)) = ((Qr n j : ℝ) : EReal))
    (hK : ∀ n j, qkArr V c (ix2 n (colR j)) = ((Kr n j : ℝ) : EReal))
    (hV : ∀ n d, vArr V c (ix2 n d) = ((Vr n d : ℝ) : EReal)) (qi : Fin 8) (r : Fin 512) :
    ∀ (kj : ℕ) (hkj : kj < 8),
      (scAt1 V c (pt qi ⟨kj, hkj⟩).val (pt qi ⟨kj, hkj⟩).isLt).1 (ix2 r 0) = pmaxE (scores Qr Kr (rowOf qi r)) (kj + 1)
      ∧ (scAt1 V c (pt qi ⟨kj, hkj⟩).val (pt qi ⟨kj, hkj⟩).isLt).2.1 (ix2 r 0)
          = ((pden (scores Qr Kr (rowOf qi r)) (kj + 1) : ℝ) : EReal)
      ∧ ∀ d : Fin 1024, (scAt1 V c (pt qi ⟨kj, hkj⟩).val (pt qi ⟨kj, hkj⟩).isLt).2.2 (ix2 r d)
          = ((pnum (scores Qr Kr (rowOf qi r)) (fun m => Vr m d) (kj + 1) : ℝ) : EReal)
  | 0, hkj => by
    rw [scAt1_first]
    have hm : (resetS (F := Ideal)).1 (ix2 r 0) = pmaxE (scores Qr Kr (rowOf qi r)) 0 :=
      (pay4_apply r).trans (pmaxE_zero _).symm
    have hl : (resetS (F := Ideal)).2.1 (ix2 r 0) = ((pden (scores Qr Kr (rowOf qi r)) 0 : ℝ) : EReal) := by
      rw [pden_zero, EReal.coe_zero]; exact pay5_apply r
    have ha : ∀ d : Fin 1024, (resetS (F := Ideal)).2.2 (ix2 r d)
        = ((pnum (scores Qr Kr (rowOf qi r)) (fun m => Vr m d) 0 : ℝ) : EReal) := fun d => by
      rw [pnum_zero, EReal.coe_zero]; exact pay6_apply r d
    have hsc := fun c' => blk_sc V c Qr Kr hQ hK qi 0 hkj r c'
    exact ⟨step_max _ _ _ _ _ 0 hkj r hsc hm, step_den _ _ _ _ _ 0 hkj r hsc hm hl,
      fun d => step_num _ _ _ _ _ 0 hkj r (fun m => Vr m d) d hsc (fun c' => blk_v V c Vr hV qi 0 hkj c' d) hm (ha d)⟩
  | kj + 1, hkj => by
    obtain ⟨hm, hl, ha⟩ := carried hQ hK hV qi r kj (by omega)
    rw [scAt1_next]
    have hsc := fun c' => blk_sc V c Qr Kr hQ hK qi (kj + 1) hkj r c'
    exact ⟨step_max _ _ _ _ _ (kj + 1) hkj r hsc hm, step_den _ _ _ _ _ (kj + 1) hkj r hsc hm hl,
      fun d => step_num _ _ _ _ _ (kj + 1) hkj r (fun m => Vr m d) d hsc (fun c' => blk_v V c Vr hV qi (kj + 1) hkj c' d) hm (ha d)⟩

end Invariant

/-- With [Q|K] and V the embeddings of real arrays, the result at (n, d) is the embedding of the softmax row of
    query n's scores against column d of the values. -/
theorem attn_value (c : Dev nD) (Qr Kr Vr : Fin 4096 → Fin 1024 → ℝ)
    (hQ : ∀ n j, qkArr V c (ix2 n (colL j)) = ((Qr n j : ℝ) : EReal))
    (hK : ∀ n j, qkArr V c (ix2 n (colR j)) = ((Kr n j : ℝ) : EReal))
    (hV : ∀ n d, vArr V c (ix2 n d) = ((Vr n d : ℝ) : EReal))
    (n : Fin 4096) (d : Fin 1024) :
    outArr V c (ix2 n d)
      = ((Cert.Attn.attnRow (fun m => ∑ j : Fin 1024, Qr n j * Kr m j) (fun m => Vr m d) : ℝ) : EReal) := by
  obtain ⟨qi, r, rfl⟩ : ∃ (qi : Fin 8) (r : Fin 512), n = rowOf qi r :=
    ⟨⟨n.val / 512, by have := n.isLt; omega⟩, ⟨n.val % 512, Nat.mod_lt _ (by norm_num)⟩,
      Fin.ext (by show n.val = 512 * (n.val / 512) + n.val % 512; omega)⟩
  obtain ⟨-, hl, ha⟩ := carried V c Qr Kr Vr hQ hK hV qi r 7 (by omega)
  have hl' : (scAt1 V c (pt qi 7).val (pt qi 7).isLt).2.1 (ix2 r 0)
      = ((Cert.Attn.pden (scores Qr Kr (rowOf qi r)) 8 : ℝ) : EReal) := hl
  have ha' : (scAt1 V c (pt qi 7).val (pt qi 7).isLt).2.2 (ix2 r d)
      = ((Cert.Attn.pnum (scores Qr Kr (rowOf qi r)) (fun m => Vr m d) 8 : ℝ) : EReal) := ha d
  refine (arrAt1_3 V c qi r d).trans ?_
  rw [out1_3_last, pay3_apply, ha', hl']
  exact Cert.Attn.online_final _ _

end Value1

end Cert.KernelIdeal.Hand

end
-- ==== Proof.KI.KernelValue.lean ====
/-
  The kernel program's result on real inputs.
  Composing the three stages: the host operations (the query weights times 1/32), the projection launch (the [Q|K] and V
  arrays as plain sums), the attention launch (the softmax row against V): at row n, column d the result array holds the
  embedding of Attn.G x wq wk wv n d — the kernel's scores (weights scaled first) being the reference's (scores divided
  by 32 afterwards).
-/
import proofs.«423655_j6811818131541_3_alg».proof.Proof.KI.Run
import proofs.«423655_j6811818131541_3_alg».proof.Proof.KI.HostVal
import proofs.«423655_j6811818131541_3_alg».proof.Proof.KI.Value0
import proofs.«423655_j6811818131541_3_alg».proof.Proof.KI.Value1
import proofs.«423655_j6811818131541_3_alg».proof.Proof.Spec

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

section KernelValue

variable (m : (ℓ : Loc nD τ sig) → Buf (Elt Ideal) ℓ) (ρ : Dev nD → PrngReg)

/-- The argument arrays at launch and the result buffer at the end, at literal types. -/
abbrev mX (c : Dev nD) : FVec Ideal S4096x1024 .f32 := m ((c.tc : Thread nD τ).loc main_arg0)
abbrev mWq (c : Dev nD) : FVec Ideal S1024x1024 .f32 := m ((c.tc : Thread nD τ).loc main_arg1)
abbrev mWk (c : Dev nD) : FVec Ideal S1024x1024 .f32 := m ((c.tc : Thread nD τ).loc main_arg2)
abbrev mWv (c : Dev nD) : FVec Ideal S1024x1024 .f32 := m ((c.tc : Thread nD τ).loc main_arg3)
abbrev resArr (c : Dev nD) : FVec Ideal S4096x1024 .f32 := W3 m ρ c (Proc.devRef .tc main_v6)

/-- On embedded real arguments the result at (n, d) is the embedded real Attn.G. -/
theorem kernel_value (c : Dev nD) (xr : Fin 4096 → Fin 1024 → ℝ) (wq wk wv : Fin 1024 → Fin 1024 → ℝ)
    (hx : ∀ a b, mX m c (ix2 a b) = ((xr a b : ℝ) : EReal)) (hq : ∀ a b, mWq m c (ix2 a b) = ((wq a b : ℝ) : EReal))
    (hk : ∀ a b, mWk m c (ix2 a b) = ((wk a b : ℝ) : EReal)) (hv : ∀ a b, mWv m c (ix2 a b) = ((wv a b : ℝ) : EReal))
    (n : Fin 4096) (d : Fin 1024) :
    resArr m ρ c (ix2 n d) = ((Cert.Attn.G xr wq wk wv n d : ℝ) : EReal) := by
  -- the host operations: x as launched, the query weights scaled, the other two as launched
  have hX : ∀ a b, xArr (V1 m ρ) c (ix2 a b) = ((xr a b : ℝ) : EReal) := by
    intro a b
    have e : xArr (V1 m ρ) c = outX (W0 m ρ c) := rfl
    have e' : inX (W0 m ρ c) = mX m c := rfl
    rw [e, host_x, e']; exact hx a b
  have hWq : ∀ i j, wqArr (V1 m ρ) c (ix2 i j) = ((wq i j * (1 / 32) : ℝ) : EReal) := by
    intro i j
    have e : wqArr (V1 m ρ) c = outWq (W0 m ρ c) := rfl
    have e' : inWq (W0 m ρ c) = mWq m c := rfl
    rw [e, host_wq, e', hq i j, EReal.coe_mul]
  have hWk : ∀ i j, wkArr (V1 m ρ) c (ix2 i j) = ((wk i j : ℝ) : EReal) := by
    intro i j
    have e : wkArr (V1 m ρ) c = outWk (W0 m ρ c) := rfl
    have e' : inWk (W0 m ρ c) = mWk m c := rfl
    rw [e, host_wk, e', hk i j]
  have hWv : ∀ i j, wvArr (V1 m ρ) c (ix2 i j) = ((wv i j : ℝ) : EReal) := by
    intro i j
    have e : wvArr (V1 m ρ) c = outWv (W0 m ρ c) := rfl
    have e' : inWv (W0 m ρ c) = mWv m c := rfl
    rw [e, host_wv, e', hv i j]
  -- the projection launch: [Q|K] and V as embedded real sums
  have hQ : ∀ n j, qkArr (V2 m ρ) c (ix2 n (colL j))
      = ((∑ i : Fin 1024, xr n i * (wq i j * (1 / 32)) : ℝ) : EReal) := by
    intro n j
    have e : qkArr (V2 m ρ) c = qkOut (V1 m ρ) c := W2_arr m ρ c 4
    rw [e]
    refine (qk_left (V1 m ρ) c n j).trans ?_
    rw [Cert.Attn.coe_finset_sum]
    refine Finset.sum_congr rfl fun i _ => ?_
    rw [EReal.coe_mul, hX, hWq]
  have hK : ∀ n j, qkArr (V2 m ρ) c (ix2 n (colR j))
      = ((∑ i : Fin 1024, xr n i * wk i j : ℝ) : EReal) := by
    intro n j
    have e : qkArr (V2 m ρ) c = qkOut (V1 m ρ) c := W2_arr m ρ c 4
    rw [e]
    refine (qk_right (V1 m ρ) c n j).trans ?_
    rw [Cert.Attn.coe_finset_sum]
    refine Finset.sum_congr rfl fun i _ => ?_
    rw [hX, hWk, EReal.coe_mul]
  have hV : ∀ n d, vArr (V2 m ρ) c (ix2 n d)
      = ((∑ i : Fin 1024, xr n i * wv i d : ℝ) : EReal) := by
    intro n d
    have e : vArr (V2 m ρ) c = vOut (V1 m ρ) c := W2_arr m ρ c 5
    rw [e]
    refine (v_val (V1 m ρ) c n d).trans ?_
    rw [Cert.Attn.coe_finset_sum]
    refine Finset.sum_congr rfl fun i _ => ?_
    rw [hX, hWv, EReal.coe_mul]
  -- the attention launch, and the kernel's scores are the reference's
  have e3 : resArr m ρ c = outArr (V2 m ρ) c := W3_main_v6 m ρ c
  rw [e3]
  refine (attn_value (V2 m ρ) c (fun n j => ∑ i : Fin 1024, xr n i * (wq i j * (1 / 32)))
    (fun n j => ∑ i : Fin 1024, xr n i * wk i j) (fun n d => ∑ i : Fin 1024, xr n i * wv i d) hQ hK hV n d).trans ?_
  exact congrArg (fun s => ((Cert.Attn.attnRow s (fun m' => ∑ i : Fin 1024, xr m' i * wv i d) : ℝ) : EReal))
    (funext fun m' => Cert.Attn.scoreK_eq_scoreR xr wq wk n m')

end KernelValue

end Cert.KernelIdeal.Hand

end
-- ==== Proof.RefValue.lean ====
/-
  The reference program read at an index of its result, on real inputs.
  With every argument array the embedding of a real array, the reference's result at row n, column d is the
  embedding of the real number Attn.G x wq wk wv n d: the three projections and the score product are finite sums of
  products of reals, the division by the constant 32 a real division, the row maximum the largest score of the row,
  the exponentials real, the row sum positive, so that every quotient is a real quotient.
-/
import proofs.«423655_j6811818131541_3_alg».proof.Proof.Gen.ReferenceIdeal.Run
import proofs.«423655_j6811818131541_3_alg».proof.Proof.Gen.ReferenceIdeal.Read
import proofs.«423655_j6811818131541_3_alg».proof.Proof.Spec

noncomputable section

namespace Cert.ReferenceIdeal.RefValue

open Idealize.ShloMosaic Idealize.ShloMosaic.ValueIdx Cert.ReferenceIdeal Cert.ReferenceIdeal.Read

/-! ## The constants -/

/-- The word 0x42000000 is the real number 32. -/
theorem const32 : Ideal.ofBits .f32 0x42000000#32 = ((32 : ℝ) : EReal) := by
  simp [Ideal.ofBits, Ideal.ieee, -EReal.coe_mul]; norm_num

/-- The word 0xFF800000 is −∞. -/
theorem constBot : Ideal.ofBits .f32 0xFF800000#32 = (⊥ : EReal) := by
  simp [Ideal.ofBits, Ideal.ieee]

/-- The word 0x00000000 is 0. -/
theorem constZero : Ideal.ofBits .f32 0x00000000#32 = (0 : EReal) := by
  simp [Ideal.ofBits, Ideal.ieee]

section Stages

variable (x0 : (⟨S4096x1024, .f32⟩ : BufTy).Contents (Elt Ideal)) (x1 x2 x3 : (⟨S1024x1024, .f32⟩ : BufTy).Contents (Elt Ideal))
  (xr : Fin 4096 → Fin 1024 → ℝ) (wq wk wv : Fin 1024 → Fin 1024 → ℝ)

/-! ## The three projections -/

/-- x·Wq at (n, j): a finite sum of products of reals. -/
theorem v0_val (hx : ∀ a b, x0 (ix2 a b) = ((xr a b : ℝ) : EReal)) (hq : ∀ a b, x1 (ix2 a b) = ((wq a b : ℝ) : EReal))
    (n : Fin 4096) (j : Fin 1024) :
    val_main_v0 (F := Ideal) x0 x1 (ix2 n j) = ((∑ i : Fin 1024, xr n i * wq i j : ℝ) : EReal) := by
  rw [val_main_v0_apply, Cert.Attn.coe_finset_sum]
  refine Finset.sum_congr rfl fun k _ => ?_
  have e1 : lidx_main_v0 (ix2 n j) k = ix2 n k := funext fun a => by match a with | ⟨0, _⟩ => rfl | ⟨1, _⟩ => rfl
  have e2 : ridx_main_v0 (ix2 n j) k = ix2 k j := funext fun a => by match a with | ⟨0, _⟩ => rfl | ⟨1, _⟩ => rfl
  rw [e1, e2, hx, hq, EReal.coe_mul]

/-- x·Wk at (m, j). -/
theorem v1_val (hx : ∀ a b, x0 (ix2 a b) = ((xr a b : ℝ) : EReal)) (hk : ∀ a b, x2 (ix2 a b) = ((wk a b : ℝ) : EReal))
    (m : Fin 4096) (j : Fin 1024) :
    val_main_v1 (F := Ideal) x0 x2 (ix2 m j) = ((∑ i : Fin 1024, xr m i * wk i j : ℝ) : EReal) := by
  rw [val_main_v1_apply, Cert.Attn.coe_finset_sum]
  refine Finset.sum_congr rfl fun k _ => ?_
  have e1 : lidx_main_v1 (ix2 m j) k = ix2 m k := funext fun a => by match a with | ⟨0, _⟩ => rfl | ⟨1, _⟩ => rfl
  have e2 : ridx_main_v1 (ix2 m j) k = ix2 k j := funext fun a => by match a with | ⟨0, _⟩ => rfl | ⟨1, _⟩ => rfl
  rw [e1, e2, hx, hk, EReal.coe_mul]

/-- x·Wv at (m, d). -/
theorem v2_val (hx : ∀ a b, x0 (ix2 a b) = ((xr a b : ℝ) : EReal)) (hv : ∀ a b, x3 (ix2 a b) = ((wv a b : ℝ) : EReal))
    (m : Fin 4096) (d : Fin 1024) :
    val_main_v2 (F := Ideal) x0 x3 (ix2 m d) = ((∑ i : Fin 1024, xr m i * wv i d : ℝ) : EReal) := by
  rw [val_main_v2_apply, Cert.Attn.coe_finset_sum]
  refine Finset.sum_congr rfl fun k _ => ?_
  have e1 : lidx_main_v2 (ix2 m d) k = ix2 m k := funext fun a => by match a with | ⟨0, _⟩ => rfl | ⟨1, _⟩ => rfl
  have e2 : ridx_main_v2 (ix2 m d) k = ix2 k d := funext fun a => by match a with | ⟨0, _⟩ => rfl | ⟨1, _⟩ => rfl
  rw [e1, e2, hx, hv, EReal.coe_mul]

/-! ## The scores -/

/-- The transposed keys at (j, m) are x·Wk at (m, j). -/
theorem v3_val (hx : ∀ a b, x0 (ix2 a b) = ((xr a b : ℝ) : EReal)) (hk : ∀ a b, x2 (ix2 a b) = ((wk a b : ℝ) : EReal))
    (j : Fin 1024) (m : Fin 4096) :
    val_main_v3 (F := Ideal) x0 x2 (ix2 j m) = ((∑ i : Fin 1024, xr m i * wk i j : ℝ) : EReal) := by
  rw [val_main_v3_apply]
  have e : idx_main_v3 (ix2 j m) = ix2 m j := funext fun a => by match a with | ⟨0, _⟩ => rfl | ⟨1, _⟩ => rfl
  rw [e, v1_val x0 x2 xr wk hx hk]

/-- The unscaled score of query row n against key row m. -/
theorem v4_val (hx : ∀ a b, x0 (ix2 a b) = ((xr a b : ℝ) : EReal)) (hq : ∀ a b, x1 (ix2 a b) = ((wq a b : ℝ) : EReal))
    (hk : ∀ a b, x2 (ix2 a b) = ((wk a b : ℝ) : EReal)) (n m : Fin 4096) :
    val_main_v4 (F := Ideal) x0 x1 x2 (ix2 n m)
      = ((∑ j : Fin 1024, (∑ i : Fin 1024, xr n i * wq i j) * (∑ i : Fin 1024, xr m i * wk i j) : ℝ) : EReal) := by
  rw [val_main_v4_apply, Cert.Attn.coe_finset_sum]
  refine Finset.sum_congr rfl fun k _ => ?_
  have e1 : lidx_main_v4 (ix2 n m) k = ix2 n k := funext fun a => by match a with | ⟨0, _⟩ => rfl | ⟨1, _⟩ => rfl
  have e2 : ridx_main_v4 (ix2 n m) k = ix2 k m := funext fun a => by match a with | ⟨0, _⟩ => rfl | ⟨1, _⟩ => rfl
  rw [e1, e2, v0_val x0 x1 xr wq hx hq, v3_val x0 x2 xr wk hx hk, EReal.coe_mul]

/-- The score divided by the constant 32. -/
theorem v6_val (hx : ∀ a b, x0 (ix2 a b) = ((xr a b : ℝ) : EReal)) (hq : ∀ a b, x1 (ix2 a b) = ((wq a b : ℝ) : EReal))
    (hk : ∀ a b, x2 (ix2 a b) = ((wk a b : ℝ) : EReal)) (n m : Fin 4096) :
    val_main_v6 (F := Ideal) x0 x1 x2 (ix2 n m) = ((Cert.Attn.scoreR xr wq wk n m : ℝ) : EReal) := by
  rw [val_main_v6_apply, val_main_v5_apply, val_main_cst_apply, v4_val x0 x1 x2 xr wq wk hx hq hk,
    Ideal.hostDivf_def, Ideal.ofBits_def, const32, Ideal.div_coe (by norm_num : (32 : ℝ) ≠ 0), ← EReal.coe_mul,
    mul_one_div]
  rfl

end Stages

section Rows

open Cert.ReferenceIdeal.Gen

variable (x0 : (⟨S4096x1024, .f32⟩ : BufTy).Contents (Elt Ideal)) (x1 x2 x3 : (⟨S1024x1024, .f32⟩ : BufTy).Contents (Elt Ideal))
  (xr : Fin 4096 → Fin 1024 → ℝ) (wq wk wv : Fin 1024 → Fin 1024 → ℝ)

/-! ## The row maximum -/

/-- The largest of finitely many reals, taken in the extended reals from −∞, is their largest. -/
theorem sup_coe (s : Fin 4096 → ℝ) :
    (Finset.univ.sup fun m => ((s m : ℝ) : EReal)) = ((Cert.Attn.rowMax s : ℝ) : EReal) := by
  apply le_antisymm
  · refine Finset.sup_le fun m _ => ?_
    exact EReal.coe_le_coe_iff.mpr (Finset.le_sup' s (Finset.mem_univ m))
  · obtain ⟨i, hi, h⟩ := Finset.exists_mem_eq_sup' (Finset.univ_nonempty (α := Fin 4096)) s
    rw [Cert.Attn.rowMax, h]
    exact Finset.le_sup (f := fun m => ((s m : ℝ) : EReal)) hi

/-- Row n of the scores with column k put back is the entry (n, k). -/
theorem lift_ix (hR : S4096x4096.Reduces [1] S4096) (n : Fin 4096) (k : Fin (S4096x4096.size 1)) :
    hR.lift (ix1 n) k = ix2 n (⟨k.val, k.isLt⟩ : Fin 4096) := by
  funext c; apply Fin.ext
  fin_cases c <;> rfl

/-- The row maximum of the scaled scores. -/
theorem v7_val (hx : ∀ a b, x0 (ix2 a b) = ((xr a b : ℝ) : EReal)) (hq : ∀ a b, x1 (ix2 a b) = ((wq a b : ℝ) : EReal))
    (hk : ∀ a b, x2 (ix2 a b) = ((wk a b : ℝ) : EReal)) (n : Fin 4096) :
    val_main_v7 (F := Ideal) x0 x1 x2 (ix1 n)
      = ((Cert.Attn.rowMax (fun m => Cert.Attn.scoreR xr wq wk n m) : ℝ) : EReal) := by
  have hR : S4096x4096.Reduces [1] S4096 := by decide
  unfold val_main_v7
  rw [Host.reduce_eq_fold_single FloatOps.maximumf _ _ reducesTo_S4096x4096_S4096_d1 hR h_S_, ← sup_coe]
  have hf : (val_main_v6 (F := Ideal) x0 x1 x2 ∘ hR.lift (ix1 n))
      = fun k : Fin 4096 => ((Cert.Attn.scoreR xr wq wk n k : ℝ) : EReal) := by
    funext k
    show val_main_v6 (F := Ideal) x0 x1 x2 (hR.lift (ix1 n) k) = _
    rw [lift_ix hR n k, v6_val x0 x1 x2 xr wq wk hx hq hk]
    rfl
  have hb : val_main_cst_0 (F := Ideal) (Shape.Idx.first h_S_) = (⊥ : EReal) := constBot
  rw [hb]
  exact congrArg (fun f => Finset.fold max (⊥ : EReal) f (Finset.univ : Finset (Fin 4096))) hf

end Rows

section Result

open Cert.ReferenceIdeal.Gen

variable (x0 : (⟨S4096x1024, .f32⟩ : BufTy).Contents (Elt Ideal)) (x1 x2 x3 : (⟨S1024x1024, .f32⟩ : BufTy).Contents (Elt Ideal))
  (xr : Fin 4096 → Fin 1024 → ℝ) (wq wk wv : Fin 1024 → Fin 1024 → ℝ)

/-- The maximum with −∞ changes nothing. -/
theorem v9_val (hx : ∀ a b, x0 (ix2 a b) = ((xr a b : ℝ) : EReal)) (hq : ∀ a b, x1 (ix2 a b) = ((wq a b : ℝ) : EReal))
    (hk : ∀ a b, x2 (ix2 a b) = ((wk a b : ℝ) : EReal)) (n : Fin 4096) :
    val_main_v9 (F := Ideal) x0 x1 x2 (ix1 n)
      = ((Cert.Attn.rowMax (fun m => Cert.Attn.scoreR xr wq wk n m) : ℝ) : EReal) := by
  rw [val_main_v9_apply, val_main_v8_apply, val_main_cst_1_apply, v7_val x0 x1 x2 xr wq wk hx hq hk,
    Ideal.maximumf_def, Ideal.ofBits_def, constBot]
  exact max_eq_right bot_le

/-- The row maximum broadcast along the row. -/
theorem v11_val (hx : ∀ a b, x0 (ix2 a b) = ((xr a b : ℝ) : EReal)) (hq : ∀ a b, x1 (ix2 a b) = ((wq a b : ℝ) : EReal))
    (hk : ∀ a b, x2 (ix2 a b) = ((wk a b : ℝ) : EReal)) (n m : Fin 4096) :
    val_main_v11 (F := Ideal) x0 x1 x2 (ix2 n m)
      = ((Cert.Attn.rowMax (fun m => Cert.Attn.scoreR xr wq wk n m) : ℝ) : EReal) := by
  rw [val_main_v11_apply, val_main_v10_apply]
  have e : idx_main_v10 (idx_main_v11 (ix2 n m)) = ix1 n := funext fun a => by match a with | ⟨0, _⟩ => rfl
  rw [e, v9_val x0 x1 x2 xr wq wk hx hq hk]

/-- The exponential of a score less its row's maximum. -/
theorem v13_val (hx : ∀ a b, x0 (ix2 a b) = ((xr a b : ℝ) : EReal)) (hq : ∀ a b, x1 (ix2 a b) = ((wq a b : ℝ) : EReal))
    (hk : ∀ a b, x2 (ix2 a b) = ((wk a b : ℝ) : EReal)) (n m : Fin 4096) :
    val_main_v13 (F := Ideal) x0 x1 x2 (ix2 n m)
      = ((Real.exp (Cert.Attn.scoreR xr wq wk n m - Cert.Attn.rowMax (fun m => Cert.Attn.scoreR xr wq wk n m)) : ℝ) : EReal) := by
  rw [val_main_v13_apply, val_main_v12_apply, v6_val x0 x1 x2 xr wq wk hx hq hk, v11_val x0 x1 x2 xr wq wk hx hq hk,
    Ideal.subf_def, Ideal.hostUnary_exp_def, ← EReal.coe_sub, Ideal.exp_coe]

/-- The row sum of the exponentials. -/
theorem v14_val (hx : ∀ a b, x0 (ix2 a b) = ((xr a b : ℝ) : EReal)) (hq : ∀ a b, x1 (ix2 a b) = ((wq a b : ℝ) : EReal))
    (hk : ∀ a b, x2 (ix2 a b) = ((wk a b : ℝ) : EReal)) (n : Fin 4096) :
    val_main_v14 (F := Ideal) x0 x1 x2 (ix1 n)
      = ((∑ m : Fin 4096, Real.exp (Cert.Attn.scoreR xr wq wk n m
          - Cert.Attn.rowMax (fun m => Cert.Attn.scoreR xr wq wk n m)) : ℝ) : EReal) := by
  rw [val_main_v14_apply, val_main_cst_2_apply, Ideal.ofBits_def, constZero, zero_add, Cert.Attn.coe_finset_sum]
  refine Finset.sum_congr rfl fun k _ => ?_
  have e : idx_main_v14 (ix1 n) k = ix2 n k := funext fun a => by match a with | ⟨0, _⟩ => rfl | ⟨1, _⟩ => rfl
  rw [e, v13_val x0 x1 x2 xr wq wk hx hq hk]

/-- The row sum broadcast along the row. -/
theorem v16_val (hx : ∀ a b, x0 (ix2 a b) = ((xr a b : ℝ) : EReal)) (hq : ∀ a b, x1 (ix2 a b) = ((wq a b : ℝ) : EReal))
    (hk : ∀ a b, x2 (ix2 a b) = ((wk a b : ℝ) : EReal)) (n m : Fin 4096) :
    val_main_v16 (F := Ideal) x0 x1 x2 (ix2 n m)
      = ((∑ m : Fin 4096, Real.exp (Cert.Attn.scoreR xr wq wk n m
          - Cert.Attn.rowMax (fun m => Cert.Attn.scoreR xr wq wk n m)) : ℝ) : EReal) := by
  rw [val_main_v16_apply, val_main_v15_apply]
  have e : idx_main_v15 (idx_main_v16 (ix2 n m)) = ix1 n := funext fun a => by match a with | ⟨0, _⟩ => rfl
  rw [e, v14_val x0 x1 x2 xr wq wk hx hq hk]

/-- The normalised weight of key m in row n: the row sum is positive, so the quotient is a real quotient. -/
theorem v17_val (hx : ∀ a b, x0 (ix2 a b) = ((xr a b : ℝ) : EReal)) (hq : ∀ a b, x1 (ix2 a b) = ((wq a b : ℝ) : EReal))
    (hk : ∀ a b, x2 (ix2 a b) = ((wk a b : ℝ) : EReal)) (n m : Fin 4096) :
    val_main_v17 (F := Ideal) x0 x1 x2 (ix2 n m)
      = ((Real.exp (Cert.Attn.scoreR xr wq wk n m - Cert.Attn.rowMax (fun m => Cert.Attn.scoreR xr wq wk n m))
          / ∑ m' : Fin 4096, Real.exp (Cert.Attn.scoreR xr wq wk n m'
            - Cert.Attn.rowMax (fun m => Cert.Attn.scoreR xr wq wk n m)) : ℝ) : EReal) := by
  rw [val_main_v17_apply, v13_val x0 x1 x2 xr wq wk hx hq hk, v16_val x0 x1 x2 xr wq wk hx hq hk, Ideal.hostDivf_def,
    Ideal.div_coe (Cert.Attn.den_pos (fun m => Cert.Attn.scoreR xr wq wk n m)).ne', ← EReal.coe_mul, mul_one_div]

end Result

/-- The reference's result at (n, d), on arguments that are embedded real arrays. -/
theorem ref_value (x0 : (⟨S4096x1024, .f32⟩ : BufTy).Contents (Elt Ideal)) (x1 x2 x3 : (⟨S1024x1024, .f32⟩ : BufTy).Contents (Elt Ideal))
    (xr : Fin 4096 → Fin 1024 → ℝ) (wq wk wv : Fin 1024 → Fin 1024 → ℝ)
    (hx : ∀ a b, x0 (ix2 a b) = ((xr a b : ℝ) : EReal)) (hq : ∀ a b, x1 (ix2 a b) = ((wq a b : ℝ) : EReal))
    (hk : ∀ a b, x2 (ix2 a b) = ((wk a b : ℝ) : EReal)) (hv : ∀ a b, x3 (ix2 a b) = ((wv a b : ℝ) : EReal))
    (n : Fin 4096) (d : Fin 1024) :
    val_main_v18 (F := Ideal) x0 x1 x2 x3 (ix2 n d) = ((Cert.Attn.G xr wq wk wv n d : ℝ) : EReal) := by
  rw [val_main_v18_apply, Cert.Attn.G, ← Cert.Attn.refRow_eq_attnRow, Cert.Attn.refRow, Cert.Attn.coe_finset_sum]
  refine Finset.sum_congr rfl fun k _ => ?_
  have e1 : lidx_main_v18 (ix2 n d) k = ix2 n k := funext fun a => by match a with | ⟨0, _⟩ => rfl | ⟨1, _⟩ => rfl
  have e2 : ridx_main_v18 (ix2 n d) k = ix2 k d := funext fun a => by match a with | ⟨0, _⟩ => rfl | ⟨1, _⟩ => rfl
  rw [e1, e2, v17_val x0 x1 x2 xr wq wk hx hq hk, v2_val x0 x3 xr wv hx hv, EReal.coe_mul]

end Cert.ReferenceIdeal.RefValue

end
-- ==== Proof.Finite.lean ====
/-
  From the precondition to real inputs.
  The precondition says, of each of the four argument arrays, that every entry has absolute value below +∞
  (a conjunction of four "all" reductions of an elementwise comparison). In the extended reals an entry with
  |x| < +∞ is neither +∞ nor −∞, so it is the embedding of a real number: each argument array is the embedding of
  a real array.
-/
import proofs.«423655_j6811818131541_3_alg».proof.Proof.Gen.Pre_finite_inputs
import Idealize.ShloMosaic.PureOps.Ideal
import Idealize.ShloMosaic.Lib.ValueIdx
import Idealize.ShloMosaic.Lib.ReduceAll

noncomputable section

namespace Cert.Finite

open Idealize.ShloMosaic Idealize.ShloMosaic.ValueIdx

/-- A one-bit word made from a Boolean is 1 only when the Boolean is true. -/
theorem ofBool_eq_one {b : Bool} (h : BitVec.ofBool b = 1#1) : b = true := by
  cases b
  · exact absurd h (by decide)
  · rfl

/-- The pattern 0x7F800000 (sign 0, exponent all ones, fraction 0) denotes +∞. -/
theorem ofBits_inf : Ideal.ofBits .f32 0x7F800000#32 = (⊤ : EReal) := by
  simp [Ideal.ofBits, Ideal.ieee]

/-- An extended real whose absolute value max x (−x) is below +∞ is neither +∞ nor −∞: it is the embedding of
    its real part. -/
theorem coe_toReal_of_abs_lt {x : EReal}
    (hx : Ideal.cmp .olt (max x (-x)) (Ideal.ofBits .f32 0x7F800000#32) = 1#1) : x = ((x.toReal : ℝ) : EReal) := by
  rw [ofBits_inf] at hx
  have hd : decide (max x (-x) < ⊤) = true := ofBool_eq_one hx
  have hlt : max x (-x) < ⊤ := of_decide_eq_true hd
  obtain ⟨h1, h2⟩ := max_lt_iff.1 hlt
  have hbot : x ≠ ⊥ := by
    intro hb
    rw [hb, EReal.neg_bot] at h2
    exact lt_irrefl _ h2
  exact (EReal.coe_toReal h1.ne hbot).symm

/-- Under the precondition every argument array is an embedded real array. -/
theorem reals_of_pre
    (x0 : FVec Ideal Cert.Pre_finite_inputs.S4096x1024 .f32) (x1 x2 x3 : FVec Ideal Cert.Pre_finite_inputs.S1024x1024 .f32)
    (h : Cert.Pre_finite_inputs.fn (F := Ideal) x0 x1 x2 x3 = (fun _ => 1#1)) :
    ∃ (xr : Fin 4096 → Fin 1024 → ℝ) (wq wk wv : Fin 1024 → Fin 1024 → ℝ),
      (∀ a b, x0 (ix2 a b) = ((xr a b : ℝ) : EReal)) ∧ (∀ a b, x1 (ix2 a b) = ((wq a b : ℝ) : EReal))
      ∧ (∀ a b, x2 (ix2 a b) = ((wk a b : ℝ) : EReal)) ∧ (∀ a b, x3 (ix2 a b) = ((wv a b : ℝ) : EReal)) := by
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  refine ⟨fun a b => (x0 (ix2 a b)).toReal, fun a b => (x1 (ix2 a b)).toReal,
    fun a b => (x2 (ix2 a b)).toReal, fun a b => (x3 (ix2 a b)).toReal, ?_, ?_, ?_, ?_⟩
  · intro a b
    exact coe_toReal_of_abs_lt (Host.reduce_andi_all _ _ _ _ _ h0' (ix2 a b))
  · intro a b
    exact coe_toReal_of_abs_lt (Host.reduce_andi_all _ _ _ _ _ h1 (ix2 a b))
  · intro a b
    exact coe_toReal_of_abs_lt (Host.reduce_andi_all _ _ _ _ _ h2 (ix2 a b))
  · intro a b
    exact coe_toReal_of_abs_lt (Host.reduce_andi_all _ _ _ _ _ h3 (ix2 a b))

end Cert.Finite

end
-- ==== Proof.lean ====
/-
  Single-head attention: a two-launch kernel (a fused Q/K/V projection, then a streaming softmax over key tiles with
  a carried row maximum, denominator and numerator) against the plain reference softmax(x·Wq (x·Wk)ᵀ / 32) · (x·Wv).
  Frames: each program runs to the end, faults nowhere and leaves its arguments unchanged — the kernel's two launches
  through the pipeline rule (Proof/K, Proof/KI: the body's triples, the proof data, the launches as segments of the
  program), the reference through its run. The idealization rewrote nothing. Equivalence over the extended reals: under
  the precondition every argument entry is a real number (Proof/Finite.lean); on real arguments the kernel's result
  array is the real function Attn.G of the arguments, entry by entry (Proof/KI/KernelValue.lean: the projections are
  plain sums, the streaming softmax is the softmax, and scaling the query weights by 1/32 first is dividing the scores
  by 32 afterwards), and so is the reference's (Proof/RefValue.lean).
-/
import proofs.«423655_j6811818131541_3_alg».proof.Defs
import proofs.«423655_j6811818131541_3_alg».proof.Proof.Gen.Kernel
import proofs.«423655_j6811818131541_3_alg».proof.Proof.Gen.KernelIdeal
import proofs.«423655_j6811818131541_3_alg».proof.Proof.Gen.ReferenceIdeal
import proofs.«423655_j6811818131541_3_alg».proof.Proof.Gen.Pre_finite_inputs
import proofs.«423655_j6811818131541_3_alg».proof.Proof.Gen.ReferenceIdeal.Run
import proofs.«423655_j6811818131541_3_alg».proof.Proof.Gen.ReferenceIdeal.Read
import proofs.«423655_j6811818131541_3_alg».proof.Proof.K.Frame
import proofs.«423655_j6811818131541_3_alg».proof.Proof.KI.Frame
import proofs.«423655_j6811818131541_3_alg».proof.Proof.KI.KernelValue
import proofs.«423655_j6811818131541_3_alg».proof.Proof.RefValue
import proofs.«423655_j6811818131541_3_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments unchanged. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Ideal) m ρ

/-- And the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On arguments that agree and satisfy the precondition both programs end with the same result: entry (n, d) of
    either is the real number Attn.G of the (real) arguments. -/
theorem algebraic : Cert.algebraic_KernelIdeal_ReferenceIdeal := by
  intro m ρ m' ρ' hpre hagree
  refine ⟨fun c => Cert.KernelIdeal.Hand.W3 m ρ c (Proc.devRef .tc Cert.KernelIdeal.main_v6),
    Cert.KernelIdeal.Hand.value_run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨xr, wq, wk, wv, hx, hq, hk, hv⟩ := Cert.Finite.reals_of_pre _ _ _ _ (hpre c)
  rw [Cert.ReferenceIdeal.Read.val_main_v18_eq]
  funext i
  rw [ValueIdx.eq_ix2 i]
  refine (Cert.ReferenceIdeal.RefValue.ref_value _ _ _ _ xr wq wk wv
    (fun a b => (congrFun (hagree c).1 _).trans (hx a b))
    (fun a b => (congrFun (hagree c).2.1 _).trans (hq a b))
    (fun a b => (congrFun (hagree c).2.2.1 _).trans (hk a b))
    (fun a b => (congrFun (hagree c).2.2.2 _).trans (hv a b)) _ _).trans ?_
  exact (Cert.KernelIdeal.Hand.kernel_value m ρ c xr wq wk wv hx hq hk hv _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
